-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S2x18 : Shape := ⟨2, ![2, 18]⟩
abbrev S_ : Shape := ⟨0, ![]⟩
abbrev S4096x1 : Shape := ⟨2, ![4096, 1]⟩
abbrev S1x4096 : Shape := ⟨2, ![1, 4096]⟩
abbrev S512x512 : Shape := ⟨2, ![512, 512]⟩
abbrev S2048x512 : Shape := ⟨2, ![2048, 512]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩
abbrev S1x1 : Shape := ⟨2, ![1, 1]⟩
abbrev S1x512 : Shape := ⟨2, ![1, 512]⟩
abbrev S4096x4096 : Shape := ⟨2, ![4096, 4096]⟩

abbrev nBuf : Space → Nat
  | .hbm => 27
  | .vmem => 32
  | .smem => 3
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x512, .bf16⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x1, .i32⟩
  | .hbm, ⟨9, _⟩ => ⟨S1x4096, .i32⟩
  | .hbm, ⟨10, _⟩ => ⟨S4096x1, .f32⟩
  | .hbm, ⟨11, _⟩ => ⟨S1x4096, .f32⟩
  | .hbm, ⟨12, _⟩ => ⟨S4096x1, .f32⟩
  | .hbm, ⟨13, _⟩ => ⟨S_, .f32⟩
  | .hbm, ⟨14, _⟩ => ⟨S_, .f32⟩
  | .hbm, ⟨15, _⟩ => ⟨S4096x1, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S4096x4096, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S512x1, .i32⟩
  | .local _ .vmem, ⟨9, _⟩ => ⟨S512x1, .i32⟩
  | .local _ .vmem, ⟨10, _⟩ => ⟨S1x2048, .i32⟩
  | .local _ .vmem, ⟨11, _⟩ => ⟨S1x2048, .i32⟩
  | .local _ .vmem, ⟨12, _⟩ => ⟨S512x1, .f32⟩
  | .local _ .vmem, ⟨13, _⟩ => ⟨S512x1, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x1, .f32⟩
  | .local _ .vmem, ⟨19, _⟩ => ⟨S512x1, .f32⟩
  | .local _ .vmem, ⟨20, _⟩ => ⟨S1x512, .f32⟩
  | .local _ .vmem, ⟨21, _⟩ => ⟨S1x512, .f32⟩
  | .local _ .vmem, ⟨22, _⟩ => ⟨S512x1, .i32⟩
  | .local _ .vmem, ⟨23, _⟩ => ⟨S512x1, .i32⟩
  | .local _ .vmem, ⟨24, _⟩ => ⟨S1x512, .i32⟩
  | .local _ .vmem, ⟨25, _⟩ => ⟨S1x512, .i32⟩
  | .local _ .vmem, ⟨26, _⟩ => ⟨S512x1, .f32⟩
  | .local _ .vmem, ⟨27, _⟩ => ⟨S512x1, .f32⟩
  | .local _ .vmem, ⟨28, _⟩ => ⟨S1x512, .f32⟩
  | .local _ .vmem, ⟨29, _⟩ => ⟨S1x512, .f32⟩
  | .local _ .vmem, ⟨30, _⟩ => ⟨S512x1, .f32⟩
  | .local _ .vmem, ⟨31, _⟩ => ⟨S512x1, .f32⟩
  | .local _ .smem, ⟨0, _⟩ => ⟨S2x18, .i32⟩
  | .local _ .smem, ⟨1, _⟩ => ⟨S2x18, .i32⟩
  | .local _ .smem, ⟨2, _⟩ => ⟨S2x18, .i32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_2 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_3 : Ref sig .tc := ⟨.hbm, 21, rfl⟩
abbrev main_v17 : Ref sig .tc := ⟨.hbm, 22, rfl⟩
abbrev main_c_4 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 18], ![false, false]⟩

abbrev pre1 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k1_off2 (i : grid1.Coords) : Fin 2 → Nat :=
  let arg0 : BitVec 32 := BitVec.ofNat 32 (i 0).val
  let v31 : Index := Scalar.indexCast arg0
  let arg1 : BitVec 32 := BitVec.ofNat 32 (i 1).val
  let v32 : Index := Scalar.indexCast arg1
  ![v31.toNat, v32.toNat]
def cc1_transform_0 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

def cc1_transform_1 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

def cc1_transform_2 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

def cc1_transform_3 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x18) ![v0.toNat, v1.toNat] S1x1.size (k1_off1_inb i)) numel1_S1x1
  let c0_i32 : BitVec 32 := 0#32
  let c0_i32_0 : BitVec 32 := 0#32
  ![c0_i32.toNat, v2.toNat]

def cc1_transform_4 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

def cc1_transform_5 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x18) ![v0.toNat, v1.toNat] S1x1.size (k1_off1_inb i)) numel1_S1x1
  let c0_i32 : BitVec 32 := 0#32
  let c0_i32_0 : BitVec 32 := 0#32
  ![c0_i32.toNat, v2.toNat]

def cc1_transform_6 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

def cc1_transform_7 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x18) ![v0.toNat, v1.toNat] S1x1.size (k1_off1_inb i)) numel1_S1x1
  let c0_i32 : BitVec 32 := 0#32
  let c0_i32_0 : BitVec 32 := 0#32
  ![c0_i32.toNat, v2.toNat]

def cc1_transform_8 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  bitsLt_bf16_f32 : FTy.bits .bf16 < FTy.bits .f32
  reducesTo_S4096x512_S4096_d1 : S4096x512.ReducesTo [1] S4096
  h_S_ : 0 < S_.numel
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  shapeCasts_S4096x1_S1x4096 : S4096x1.ShapeCasts S1x4096
  numel1_S1x1 : S1x1.numel = 1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  reducesTo_S4096x1_S_d0_1 : S4096x1.ReducesTo [0, 1] S_
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  natLt_1_32 : 1 < 32
  reducesTo_S4096x4096_S_d0_1 : S4096x4096.ReducesTo [0, 1] S_
  dot_S512x512_S2048x512_S512x2048_1_1_0_0_n_n_wf : DotDims.WF S512x512 S2048x512 S512x2048 [1] [1] [0] [0] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x512.size a
  hwx0_1 : ∀ i : grid0.Coords, EltTy.bits .bf16 = 32 ∨ (Rect.block (s := S4096x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .i32 = 32 ∨ (Rect.block (s := S4096x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x4096.size a
  hwx0_5 : ∀ i : grid0.Coords, EltTy.bits .i32 = 32 ∨ (Rect.block (s := S1x4096) S1x2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hrank1 : 0 < grid1.rank
  k1_off1_inb : ∀ i : grid1.Coords, ∀ a, (k1_off1 i) a + S1x1.size a ≤ S2x18.size a
  k1_off2_inb : ∀ i : grid1.Coords, ∀ a, (k1_off2 i) a + S1x1.size a ≤ S2x18.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1x1 pf i = cc1_transform_0 k1_off1_inb numel1_S1x1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1x1 pf i = cc1_transform_1 k1_off1_inb numel1_S1x1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1x1 pf i = cc1_transform_2 k1_off1_inb numel1_S1x1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1x1 pf i = cc1_transform_3 k1_off1_inb numel1_S1x1 pf i'
  hstage1_4 : ∀ j, (stage1_4 j).IsWhole
  nbuf1_4 : grid1.bufCount reads1_4 false = 2
  hreads1_4 : ∀ {F : FTy → Type} [FloatOps F] (pf : pre1.Contents (Elt F)) (i i' : grid1.Coords), (∀ a, reads1_4 a = true → i a = i' a) → cc1_transform_4 k1_off1_inb numel1_S1x1 pf i = cc1_transform_4 k1_off1_inb numel1_S1x1 pf i'
  hstage1_5 : ∀ j, (stage1_5 j).IsWhole
  nbuf1_5 : grid1.bufCount reads1_5 false = 2
  hreads1_5 : ∀ {F : FTy → Type} [FloatOps F] (pf : pre1.Contents (Elt F)) (i i' : grid1.Coords), (∀ a, reads1_5 a = true → i a = i' a) → cc1_transform_5 k1_off1_inb numel1_S1x1 pf i = cc1_transform_5 k1_off1_inb numel1_S1x1 pf i'
  hstage1_6 : ∀ j, (stage1_6 j).IsWhole
  nbuf1_6 : grid1.bufCount reads1_6 false = 2
  hreads1_6 : ∀ {F : FTy → Type} [FloatOps F] (pf : pre1.Contents (Elt F)) (i i' : grid1.Coords), (∀ a, reads1_6 a = true → i a = i' a) → cc1_transform_6 k1_off1_inb numel1_S1x1 pf i = cc1_transform_6 k1_off1_inb numel1_S1x1 pf i'
  hstage1_7 : ∀ j, (stage1_7 j).IsWhole
  nbuf1_7 : grid1.bufCount reads1_7 false = 2
  hreads1_7 : ∀ {F : FTy → Type} [FloatOps F] (pf : pre1.Contents (Elt F)) (i i' : grid1.Coords), (∀ a, reads1_7 a = true → i a = i' a) → cc1_transform_7 k1_off1_inb numel1_S1x1 pf i = cc1_transform_7 k1_off1_inb numel1_S1x1 pf i'
  hstage1_8 : ∀ j, (stage1_8 j).IsWhole
  nbuf1_8 : grid1.bufCount reads1_8 false = 2
  hreads1_8 : ∀ {F : FTy → Type} [FloatOps F] (pf : pre1.Contents (Elt F)) (i i' : grid1.Coords), (∀ a, reads1_8 a = true → i a = i' a) → cc1_transform_8 k1_off1_inb numel1_S1x1 pf i = cc1_transform_8 k1_off1_inb numel1_S1x1 pf i'

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev spec1_0 : Pipeline.WinSpec sig grid1.rank :=
  Pipeline.WinSpec.ofSpec (Memref.whole main_v0) S512x512.size reads1_0 false false 2 stage1_0 sem1_0 nbuf1_0 hstage1_0

abbrev spec1_1 : Pipeline.WinSpec sig grid1.rank :=
  Pipeline.WinSpec.ofSpec (Memref.whole main_v0) S512x512.size reads1_1 false false 2 stage1_1 sem1_1 nbuf1_1 hstage1_1

abbrev spec1_2 : Pipeline.WinSpec sig grid1.rank :=
  Pipeline.WinSpec.ofSpec (Memref.whole main_v3) S512x1.size reads1_2 false false 2 stage1_2 sem1_2 nbuf1_2 hstage1_2

abbrev spec1_3 : Pipeline.WinSpec sig grid1.rank :=
  Pipeline.WinSpec.ofSpec (Memref.whole main_v4) S1x512.size reads1_3 false false 2 stage1_3 sem1_3 nbuf1_3 hstage1_3

abbrev spec1_4 : Pipeline.WinSpec sig grid1.rank :=
  Pipeline.WinSpec.ofSpec (Memref.whole main_v5) S512x1.size reads1_4 false false 2 stage1_4 sem1_4 nbuf1_4 hstage1_4

abbrev spec1_5 : Pipeline.WinSpec sig grid1.rank :=
  Pipeline.WinSpec.ofSpec (Memref.whole main_v6) S1x512.size reads1_5 false false 2 stage1_5 sem1_5 nbuf1_5 hstage1_5

abbrev spec1_6 : Pipeline.WinSpec sig grid1.rank :=
  Pipeline.WinSpec.ofSpec (Memref.whole main_v7) S512x1.size reads1_6 false false 2 stage1_6 sem1_6 nbuf1_6 hstage1_6

abbrev spec1_7 : Pipeline.WinSpec sig grid1.rank :=
  Pipeline.WinSpec.ofSpec (Memref.whole main_v8) S1x512.size reads1_7 false false 2 stage1_7 sem1_7 nbuf1_7 hstage1_7

abbrev spec1_8 : Pipeline.WinSpec sig grid1.rank :=
  Pipeline.WinSpec.ofSpec (Memref.whole main_v9) S512x1.size reads1_8 true false 2 stage1_8 sem1_8 nbuf1_8 hstage1_8

abbrev spec1 : Fin 9 → Pipeline.WinSpec sig grid1.rank := fun | 0 => spec1_0 | 1 => spec1_1 | 2 => spec1_2 | 3 => spec1_3 | 4 => spec1_4 | 5 => spec1_5 | 6 => spec1_6 | 7 => spec1_7 | 8 => spec1_8 | ⟨_ + 9, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | 6 => nbuf1_6 | 7 => nbuf1_7 | 8 => nbuf1_8 | ⟨_ + 9, h⟩ => absurd h (Nat.not_lt.2 (Nat.le_add_left _ _))
abbrev ix1 (pf : pre1.Contents (Elt F)) : (w : Fin 9) → grid1.Coords → Fin (spec1 w).shape.rank → Nat := fun | 0 => cc1_transform_0 k1_off1_inb numel1_S1x1 pf | 1 => cc1_transform_1 k1_off1_inb numel1_S1x1 pf | 2 => cc1_transform_2 k1_off1_inb numel1_S1x1 pf | 3 => cc1_transform_3 k1_off1_inb numel1_S1x1 pf | 4 => cc1_transform_4 k1_off1_inb numel1_S1x1 pf | 5 => cc1_transform_5 k1_off1_inb numel1_S1x1 pf | 6 => cc1_transform_6 k1_off1_inb numel1_S1x1 pf | 7 => cc1_transform_7 k1_off1_inb numel1_S1x1 pf | 8 => cc1_transform_8 k1_off1_inb numel1_S1x1 pf | ⟨_ + 9, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | 4 => hreads1_4 pf | 5 => hreads1_5 pf | 6 => hreads1_6 pf | 7 => hreads1_7 pf | 8 => hreads1_8 pf | ⟨_ + 9, h⟩ => absurd h (Nat.not_lt.2 (Nat.le_add_left _ _))
def ok1 (pf : pre1.Contents (Elt F)) : Prop :=
  (∀ i : grid1.Coords, ∃ h : (∀ a, (cc1_transform_0 k1_off1_inb numel1_S1x1 pf i a + 1) * S512x512.size a ≤ S4096x512.size a), EltTy.bits .bf16 = 32 ∨ (Rect.block (s := S4096x512) S512x512.size (cc1_transform_0 k1_off1_inb numel1_S1x1 pf i) h).WholeWords (EltTy.packing .bf16)) ∧
  (∀ i : grid1.Coords, ∃ h : (∀ a, (cc1_transform_1 k1_off1_inb numel1_S1x1 pf i a + 1) * S512x512.size a ≤ S4096x512.size a), EltTy.bits .bf16 = 32 ∨ (Rect.block (s := S4096x512) S512x512.size (cc1_transform_1 k1_off1_inb numel1_S1x1 pf i) h).WholeWords (EltTy.packing .bf16)) ∧
  (∀ i : grid1.Coords, ∃ h : (∀ a, (cc1_transform_2 k1_off1_inb numel1_S1x1 pf i a + 1) * S512x1.size a ≤ S4096x1.size a), EltTy.bits .f32 = 32 ∨ (Rect.block (s := S4096x1) S512x1.size (cc1_transform_2 k1_off1_inb numel1_S1x1 pf i) h).WholeWords (EltTy.packing .f32)) ∧
  (∀ i : grid1.Coords, ∃ h : (∀ a, (cc1_transform_3 k1_off1_inb numel1_S1x1 pf i a + 1) * S1x512.size a ≤ S1x4096.size a), EltTy.bits .f32 = 32 ∨ (Rect.block (s := S1x4096) S1x512.size (cc1_transform_3 k1_off1_inb numel1_S1x1 pf i) h).WholeWords (EltTy.packing .f32)) ∧
  (∀ i : grid1.Coords, ∃ h : (∀ a, (cc1_transform_4 k1_off1_inb numel1_S1x1 pf i a + 1) * S512x1.size a ≤ S4096x1.size a), EltTy.bits .i32 = 32 ∨ (Rect.block (s := S4096x1) S512x1.size (cc1_transform_4 k1_off1_inb numel1_S1x1 pf i) h).WholeWords (EltTy.packing .i32)) ∧
  (∀ i : grid1.Coords, ∃ h : (∀ a, (cc1_transform_5 k1_off1_inb numel1_S1x1 pf i a + 1) * S1x512.size a ≤ S1x4096.size a), EltTy.bits .i32 = 32 ∨ (Rect.block (s := S1x4096) S1x512.size (cc1_transform_5 k1_off1_inb numel1_S1x1 pf i) h).WholeWords (EltTy.packing .i32)) ∧
  (∀ i : grid1.Coords, ∃ h : (∀ a, (cc1_transform_6 k1_off1_inb numel1_S1x1 pf i a + 1) * S512x1.size a ≤ S4096x1.size a), EltTy.bits .f32 = 32 ∨ (Rect.block (s := S4096x1) S512x1.size (cc1_transform_6 k1_off1_inb numel1_S1x1 pf i) h).WholeWords (EltTy.packing .f32)) ∧
  (∀ i : grid1.Coords, ∃ h : (∀ a, (cc1_transform_7 k1_off1_inb numel1_S1x1 pf i a + 1) * S1x512.size a ≤ S1x4096.size a), EltTy.bits .f32 = 32 ∨ (Rect.block (s := S1x4096) S1x512.size (cc1_transform_7 k1_off1_inb numel1_S1x1 pf i) h).WholeWords (EltTy.packing .f32)) ∧
  (∀ i : grid1.Coords, ∃ h : (∀ a, (cc1_transform_8 k1_off1_inb numel1_S1x1 pf i a + 1) * S512x1.size a ≤ S4096x1.size a), EltTy.bits .f32 = 32 ∨ (Rect.block (s := S4096x1) S512x1.size (cc1_transform_8 k1_off1_inb numel1_S1x1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2.1 i).elim fun h _ => h a | 6 => fun i a => (hok.2.2.2.2.2.2.1 i).elim fun h _ => h a | 7 => fun i a => (hok.2.2.2.2.2.2.2.1 i).elim fun h _ => h a | 8 => fun i a => (hok.2.2.2.2.2.2.2.2 i).elim fun h _ => h a | ⟨_ + 9, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2.1 i).elim fun _ h => h | 6 => fun i => (hok.2.2.2.2.2.2.1 i).elim fun _ h => h | 7 => fun i => (hok.2.2.2.2.2.2.2.1 i).elim fun _ h => h | 8 => fun i => (hok.2.2.2.2.2.2.2.2 i).elim fun _ h => h | ⟨_ + 9, h⟩ => absurd h (Nat.not_lt.2 (Nat.le_add_left _ _))

class Facts : Prop extends Facts₀ where
  harr1 : ∀ w, (spec1 w).arr.IsWhole

variable [Facts]
-- ==== ReferenceIdeal.lean ====
abbrev S4096x512 : Shape := ⟨2, ![4096, 512]⟩
abbrev S4096 : Shape := ⟨1, ![4096]⟩
abbrev S_ : Shape := ⟨0, ![]⟩
abbrev S512x4096 : Shape := ⟨2, ![512, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 91
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S512x4096, .f32⟩
  | .hbm, ⟨6, _⟩ => ⟨S4096x4096, .f32⟩
  | .hbm, ⟨7, _⟩ => ⟨S4096x1, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S_, .f32⟩
  | .hbm, ⟨23, _⟩ => ⟨S4096x4096, .f32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x1, .i32⟩
  | .hbm, ⟨35, _⟩ => ⟨S1x4096, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S4096x4096, .i32⟩
  | .hbm, ⟨40, _⟩ => ⟨S4096x4096, .i32⟩
  | .hbm, ⟨41, _⟩ => ⟨S_, .i32⟩
  | .hbm, ⟨42, _⟩ => ⟨S4096x4096, .i32⟩
  | .hbm, ⟨43, _⟩ => ⟨S4096x4096, .i32⟩
  | .hbm, ⟨44, _⟩ => ⟨S4096x4096, .i1⟩
  | .hbm, ⟨45, _⟩ => ⟨S4096x4096, .i1⟩
  | .hbm, ⟨46, _⟩ => ⟨S4096x4096, .i1⟩
  | .hbm, ⟨47, _⟩ => ⟨S4096x4096, .i1⟩
  | .hbm, ⟨48, _⟩ => ⟨S_, .f32⟩
  | .hbm, ⟨49, _⟩ => ⟨S4096x4096, .f32⟩
  | .hbm, ⟨50, _⟩ => ⟨S4096x4096, .i1⟩
  | .hbm, ⟨51, _⟩ => ⟨S4096x4096, .i1⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S1x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096, .i32⟩
  | .hbm, ⟨70, _⟩ => ⟨S4096x1, .i32⟩
  | .hbm, ⟨71, _⟩ => ⟨S1x4096, .i32⟩
  | .hbm, ⟨72, _⟩ => ⟨S4096x4096, .i32⟩
  | .hbm, ⟨73, _⟩ => ⟨S4096x4096, .i32⟩
  | .hbm, ⟨74, _⟩ => ⟨S4096x4096, .i1⟩
  | .hbm, ⟨75, _⟩ => ⟨S4096x4096, .i1⟩
  | .hbm, ⟨76, _⟩ => ⟨S_, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S_, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S_, .f32⟩
  | .hbm, ⟨86, _⟩ => ⟨S4096x4096, .i32⟩
  | .hbm, ⟨87, _⟩ => ⟨S_, .i32⟩
  | .hbm, ⟨88, _⟩ => ⟨S_, .i32⟩
  | .hbm, ⟨89, _⟩ => ⟨S_, .f32⟩
  | .hbm, ⟨90, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_call2_v0 : Ref sig .tc := ⟨.hbm, 31, rfl⟩
abbrev main_call2_v1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_call3_v0 : Ref sig .tc := ⟨.hbm, 57, rfl⟩
abbrev main_call3_v1 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call4_cst : Ref sig .tc := ⟨.hbm, 76, rfl⟩
abbrev main_call4_v0 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_call5_v0 : Ref sig .tc := ⟨.hbm, 81, rfl⟩
abbrev main_call5_v1 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  transposes_S4096x512_S512x4096_1_0 : S4096x512.Transposes [1, 0] S512x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  reducesTo_S4096x4096_S_d0_1 : S4096x4096.ReducesTo [0, 1] S_
  natLt_1_32 : 1 < 32
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KI.Spec.lean ====
/-
  The loss both programs compute, as one function of the two arguments over the extended reals.
  Rows x_r (r < 4096) of 512 entries, labels t_r. With mag_r = sum_k x_rk^2 and sim_rc = sum_k x_rk x_ck:
    dsq_rc  = max (mag_r + mag_c - 2 sim_rc) 0,   dist_rc = sqrt dsq_rc,
    negw_rc = exp (1 - dist_rc) if t_r /= t_c and dist_rc /= 0, else 0,      rowNeg_r = sum_c negw_rc,
    posv_rc = (max (log (rowNeg_r + rowNeg_c) + dist_rc) 0)^2 if t_r = t_c and r < c, else 0,
    loss    = sum_r sum_c posv_rc,     cnt = #{(r,c) : t_r = t_c} - 4096 (32-bit words),     result = loss / cnt.
  The literals 2 and 1 are kept as their bit patterns.
-/
import Idealize.ShloMosaic.PureOps.Ideal
import Idealize.ShloMosaic.PureOps.Ideal.Laws
import Idealize.ShloMosaic.Lib.ValueIdx
import Mathlib.Data.BitVec

noncomputable section

open scoped BigOperators

namespace Cert.Spec

open Idealize.ShloMosaic

/-- The literal 2.0. -/
abbrev two : EReal := Ideal.ofBits .f32 0x40000000#32
/-- The literal 1.0. -/
abbrev one : EReal := Ideal.ofBits .f32 0x3F800000#32

variable (x : Fin 4096 → Fin 512 → EReal) (tg : Fin 4096 → BitVec 32)

/-- The squared norm of row `r`. -/
def mag (r : Fin 4096) : EReal := ∑ k : Fin 512, x r k * x r k
/-- The inner product of rows `r` and `c`. -/
def sim (r c : Fin 4096) : EReal := ∑ k : Fin 512, x r k * x c k
/-- The squared distance of rows `r` and `c` from norms `mr`, `mc` and inner product `s`, clamped at zero. -/
def dsqOf (mr mc s : EReal) : EReal := max (mr + mc - two * s) 0
/-- The distance from the same data. -/
def distOf (mr mc s : EReal) : EReal := Ideal.sqrt (dsqOf mr mc s)
/-- The distance of rows `r` and `c`. -/
def dist (r c : Fin 4096) : EReal := distOf (mag x r) (mag x c) (sim x r c)
/-- The weight of a pair at distance `d`: a pair of different labels at non-zero distance weighs exp (1 - d). -/
def negwOf (same : Prop) [Decidable same] (d : EReal) : EReal := if ¬ same ∧ d ≠ 0 then Ideal.exp (one - d) else 0
/-- The weight of the pair (r, c). -/
def negw (r c : Fin 4096) : EReal := negwOf (tg r = tg c) (dist x r c)
/-- Row `r`'s sum of weights. -/
def rowNeg (r : Fin 4096) : EReal := ∑ c : Fin 4096, negw x tg r c
/-- A positive pair's term from the two row sums `nr`, `nc` and the distance `d`. -/
def posvOf (sel : Prop) [Decidable sel] (nr nc d : EReal) : EReal :=
  if sel then max (Ideal.log (nr + nc) + d) 0 * max (Ideal.log (nr + nc) + d) 0 else 0
/-- The term of the pair (r, c) given the row sums `rn`: pairs of equal label strictly above the diagonal count. -/
def posvG (rn : Fin 4096 → EReal) (r c : Fin 4096) : EReal :=
  posvOf (tg r = tg c ∧ r < c) (rn r) (rn c) (dist x r c)
/-- Row `r`'s sum of terms, given the row sums `rn`. -/
def rowLossG (rn : Fin 4096 → EReal) (r : Fin 4096) : EReal := ∑ c : Fin 4096, posvG x tg rn r c
/-- The loss's numerator. -/
def loss : EReal := ∑ r : Fin 4096, rowLossG x tg (rowNeg x tg) r
/-- The number of ordered pairs of distinct rows of equal label, as a 32-bit word: all pairs of equal label less the diagonal. -/
def cnt : BitVec 32 := (∑ r : Fin 4096, ∑ c : Fin 4096, if tg r = tg c then 1#32 else 0#32) - 4096#32
/-- The loss. -/
def result : EReal := Ideal.div (loss x tg) (((cnt tg).toInt : ℝ) : EReal)

end Cert.Spec

end
-- ==== Proof.KI.R0Defs.lean ====
/-
  Region 0 (the row sums of the negative-pair weights): the data the pipeline rule is applied at.
  The contents of the TensorCore's buffers when the region is entered are a parameter `V`.
  Each grid point (i, j) adds, into the 512 x 1 block of rows i, the sum over the 2048 columns of block j of
  exp(1 - dist) over the pairs of different label and non-zero distance; the block starts from zero at j = 0.
-/
import proofs.«418922_j57629871178314_3_alg».proof.Proof.Gen.KernelIdeal.Launch
import proofs.«418922_j57629871178314_3_alg».proof.Proof.Gen.KernelIdeal.Skeleton
import proofs.«418922_j57629871178314_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The TensorCore's buffer contents at a region's entry. -/
abbrev Ent (F : FTy → Type) [FloatOps F] := (c : Dev nD) → (b : Ref sig .tc) → Buf (Elt F) ((c : Thread nD τ).loc b)

variable (V : Ent F)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the accumulator block: `acc` plus the row sums of the selected exponentials of the
    point's input blocks (rows block, columns block, the two norm blocks, the two label blocks). -/
def step0 (acc : Vec F S512x1 .f32) (x0 : Vec F S512x512 .bf16) (x1 : Vec F S2048x512 .bf16) (x2 : Vec F S512x1 .f32)
    (x3 : Vec F S1x2048 .f32) (x4 : Vec F S512x1 .i32) (x5 : Vec F S1x2048 .i32) : Vec F S512x1 .f32 :=
  k0_pay1 (k0_pay4 x0 x1 x2 x3 x4 x5) (k0_pay5 x0 x1 x2 x3) (k0_pay6 (F := F)) acc

/-- What the output block's staging buffer holds after the body at position `n`: the step over zero at an even
    position (the first column block of a row block), over what the position before left at an odd one. -/
def outsAt0 (c : Dev nD) : (n : ℕ) → n < cfg0.N → Vec F S512x1 .f32
  | 0, hn => step0 (k0_pay2 (F := F)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn => step0 (if (n + 1) % 2 = 0 then k0_pay2 (F := F) else outsAt0 c n (Nat.lt_of_succ_lt hn))
      (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)

/-- The proof data of pipeline 0 on core `c`: the arrays as the region finds them; after the body each input's buffer at
    its block and the output's at `outsAt0`; the invariant the scoped rest and the generator register; nothing owed;
    the two windows on the one bf16 array hold a half of it each, every other window its array whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outsAt0 V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = outsAt0 V c t.val t.isLt := by dsimp only [dat0]

end Cert.KernelIdeal.Hand

end
-- ==== Proof.KI.R1Defs.lean ====
/-
  Region 1 (the per-row sums of the squared positive-pair terms over the upper-triangle tiles): the data the
  pipeline rule is applied at. The tile tables (row block, column block, first-visit flag per grid point) are
  literals of the program; the pipeline is pinned at those contents. Each grid point adds, into the 512 x 1
  block of its row block, the row sums over its 512 columns of relu(log(neg_i + neg_j) + dist)^2 on the pairs of
  equal label strictly above the diagonal; the block starts from zero where the first-visit flag is set.
-/
import proofs.«418922_j57629871178314_3_alg».proof.Proof.Gen.KernelIdeal.Launch
import proofs.«418922_j57629871178314_3_alg».proof.Proof.Gen.KernelIdeal.Skeleton
import proofs.«418922_j57629871178314_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.PureOps.BitExact
import proofs.«418922_j57629871178314_3_alg».proof.Proof.KI.R0Defs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The three tile tables' contents: the program's literals. -/
def tblLit : pre1.Contents (Elt F) := fun
  | 0 => fun i => lit0 (S2x18.rowMajor i)
  | 1 => fun i => lit1 (S2x18.rowMajor i)
  | 2 => fun i => lit2 (S2x18.rowMajor i)
  | ⟨_ + 3, h⟩ => absurd h (Nat.not_lt.2 (Nat.le_add_left _ _))

/-- At the literal tables every table-indexed block lies inside its array (row and column blocks are below 8). -/
theorem ok1_lit : ok1 (F := F) (tblLit (F := F)) := by
  -- the condition reads the tables' words only, the same 32-bit integers at every float type: decided at bit patterns
  exact (by decide +kernel : ok1 (F := Bits) (tblLit (F := Bits)))

/-- The pipeline's admissible table contents: the literals. -/
def adm1 : (pcfg1 (F := F)).Adm := ⟨tblLit, ok1_lit⟩

/-- Pipeline 1 pinned at the literal tables. -/
abbrev cfgL : Pipeline.Cfg sig Λ₀ := cfg1 (F := F) adm1

variable (V : Ent F)

/-- Window `w`'s block at point `t`, read off its array as the region finds it. -/
def iblk1 (c : Dev nD) (w : Fin (cfgL (F := F)).W) (t : Fin (cfgL (F := F)).N) :
    (((cfgL (F := F)).win w).xblock ((cfgL (F := F)).grid.coords t)).Idx → Elt F ((cfgL (F := F)).win w).elt :=
  (((cfgL (F := F)).win w).blk t).view.read (Elt F) (V c (Pipeline.arrRef spec1 w))

/-- The table words the body reads at a grid point: the first-visit flag, the row block, the column block. -/
def firstW (i : grid1.Coords) : BitVec 32 :=
  (tblLit (F := F)).at 2 (Rect.unit (s := S2x18) (k1_off1 i) S1x1.size (Facts₀.k1_off1_inb i)) Facts₀.numel1_S1x1
def rbW (i : grid1.Coords) : BitVec 32 :=
  (tblLit (F := F)).at 0 (Rect.unit (s := S2x18) (k1_off2 i) S1x1.size (Facts₀.k1_off2_inb i)) Facts₀.numel1_S1x1
def cbW (i : grid1.Coords) : BitVec 32 :=
  (tblLit (F := F)).at 1 (Rect.unit (s := S2x18) (k1_off2 i) S1x1.size (Facts₀.k1_off2_inb i)) Facts₀.numel1_S1x1

/-- The body's branch condition at a grid point: the first-visit flag is 1. -/
abbrev isFirst (i : grid1.Coords) : Prop :=
  Scalar.cmpi .ne (Scalar.extui (Scalar.cmpi .eq (firstW (F := F) i) 1#32)) 0#32 = 1#1

/-- One point's update of the accumulator block. -/
def step1 (i : grid1.Coords) (acc : Vec F S512x1 .f32) (x0 : Vec F S512x512 .bf16) (x1 : Vec F S512x512 .bf16) (x2 : Vec F S512x1 .f32)
    (x3 : Vec F S1x512 .f32) (x4 : Vec F S512x1 .i32) (x5 : Vec F S1x512 .i32) (x6 : Vec F S512x1 .f32) (x7 : Vec F S1x512 .f32) : Vec F S512x1 .f32 :=
  k1_pay1 (k1_pay3 x0 x1 x2 x3) (k1_pay4 (F := F) x4 x5) (cbW (F := F) i) (Scalar.muli (rbW (F := F) i) 512#32)
    (iota .tc S512x512 32 [0] Facts₀.iota_S512x512_d0_w32) x6 x7 acc

/-- What the output block's staging buffer holds after the body at position `n`: the step over zero where the
    first-visit flag is set, over what the position before left elsewhere. -/
def outsAt1 (c : Dev nD) : (n : ℕ) → n < (cfgL (F := F)).N → Vec F S512x1 .f32
  | 0, hn => step1 ((cfgL (F := F)).grid.coords ⟨0, hn⟩) (k1_pay2 (F := F)) (iblk1 V c 0 ⟨0, hn⟩) (iblk1 V c 1 ⟨0, hn⟩) (iblk1 V c 2 ⟨0, hn⟩) (iblk1 V c 3 ⟨0, hn⟩)
      (iblk1 V c 4 ⟨0, hn⟩) (iblk1 V c 5 ⟨0, hn⟩) (iblk1 V c 6 ⟨0, hn⟩) (iblk1 V c 7 ⟨0, hn⟩)
  | n + 1, hn => step1 ((cfgL (F := F)).grid.coords ⟨n + 1, hn⟩)
      (if isFirst (F := F) ((cfgL (F := F)).grid.coords ⟨n + 1, hn⟩) then k1_pay2 (F := F) else outsAt1 c n (Nat.lt_of_succ_lt hn))
      (iblk1 V c 0 ⟨n + 1, hn⟩) (iblk1 V c 1 ⟨n + 1, hn⟩) (iblk1 V c 2 ⟨n + 1, hn⟩) (iblk1 V c 3 ⟨n + 1, hn⟩)
      (iblk1 V c 4 ⟨n + 1, hn⟩) (iblk1 V c 5 ⟨n + 1, hn⟩) (iblk1 V c 6 ⟨n + 1, hn⟩) (iblk1 V c 7 ⟨n + 1, hn⟩)

/-- The proof data of pipeline 1 on core `c`. The invariant also holds the tables' halves the body loads from. -/
def dat1 (c : Dev nD) : Dat τ (Elt F) Unit ℕ (UR sig nD τ) ℕ (cfgL (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outsAt1 V c t.val t.isLt
  Φ _ := iprop(Pipeline.ΦA spec1 c ∗ Pipeline.ΦT pre1 (tblLit (F := F)) c)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq1 (c : Dev nD) (w : Fin (cfgL (F := F)).W) : (dat1 V c).A w = V c (Pipeline.arrRef spec1 w) := by
  dsimp only [dat1]

theorem after1_in (c : Dev nD) (t : Fin (cfgL (F := F)).N) :
    (dat1 V c).after 0 t = iblk1 V c 0 t ∧ (dat1 V c).after 1 t = iblk1 V c 1 t ∧ (dat1 V c).after 2 t = iblk1 V c 2 t
    ∧ (dat1 V c).after 3 t = iblk1 V c 3 t ∧ (dat1 V c).after 4 t = iblk1 V c 4 t ∧ (dat1 V c).after 5 t = iblk1 V c 5 t
    ∧ (dat1 V c).after 6 t = iblk1 V c 6 t ∧ (dat1 V c).after 7 t = iblk1 V c 7 t := by
  dsimp only [dat1]; exact ⟨rfl, rfl, rfl, rfl, rfl, rfl, rfl, rfl⟩
theorem after1_8 (c : Dev nD) (t : Fin (cfgL (F := F)).N) : (dat1 V c).after 8 t = outsAt1 V c t.val t.isLt := by dsimp only [dat1]; rfl

end Cert.KernelIdeal.Hand

end
-- ==== Proof.KI.Fold.lean ====
/-
  The contents of the TensorCore's unscoped buffers at every boundary between a stretch of host operations and a
  kernel region, folded from the launch memory: a stretch rewrites the buffers its operations write, a region
  leaves its output array at what the write-backs of all its points make of it and every other buffer as it was.
-/
import proofs.«418922_j57629871178314_3_alg».proof.Proof.Gen.KernelIdeal.Launch
import proofs.«418922_j57629871178314_3_alg».proof.Proof.Gen.KernelIdeal.Skeleton
import proofs.«418922_j57629871178314_3_alg».proof.Proof.Gen.KernelIdeal.Points
import proofs.«418922_j57629871178314_3_alg».proof.Proof.Gen.KernelIdeal.Regions
import Idealize.ShloMosaic.Lib.Pipeline.FrameBody
import Idealize.ShloMosaic.Lib.Pipeline.Frame
import Idealize.ShloMosaic.Lib.Ring
import Idealize.ShloMosaic.Lib.Tactic
import proofs.«418922_j57629871178314_3_alg».proof.Proof.KI.R0Defs
import proofs.«418922_j57629871178314_3_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through the program -/

/-- Core `c`'s buffers at launch. -/
abbrev W0 : Dev nD → Valuation τ sig (Elt F) := fun c b => m (c, b)
/-- After the first stretch of host operations (region 0's entry). -/
abbrev W1 : Dev nD → Valuation τ sig (Elt F) := fun c => StableHlo.after hostOps0 (W0 m c)
/-- The same read at the TensorCore's references. -/
abbrev V1 : Ent F := fun c b => W1 m c b
/-- At region 0's exit: its output array at what the write-backs of all its points leave, every other buffer as entered. -/
def W2 (c : Dev nD) : Valuation τ sig (Elt F) :=
  Function.update (W1 m c) (Proc.devRef .tc main_v7) ((dat0 (V1 m) c).arrAt 6 cfg0.N)
abbrev V2 : Ent F := fun c b => W2 m c b
/-- After the second stretch (region 1's entry). -/
abbrev W3 : Dev nD → Valuation τ sig (Elt F) := fun c => StableHlo.after hostOps1 (W2 m c)
abbrev V3 : Ent F := fun c b => W3 m c b
/-- At region 1's exit: its output array at what the write-backs of all its points leave, every other buffer as entered. -/
def W4 (c : Dev nD) : Valuation τ sig (Elt F) :=
  Function.update (W3 m c) (Proc.devRef .tc main_v9) ((dat1 (V3 m) c).arrAt 8 (cfgL (F := F)).N)
abbrev V4 : Ent F := fun c b => W4 m c b
/-- After the last stretch: the contents the program returns with. -/
abbrev W5 : Dev nD → Valuation τ sig (Elt F) := fun c => StableHlo.after hostOps2 (W4 m c)

theorem W1_eq (c : Dev nD) : W1 m c = StableHlo.after hostOps0 (W0 m c) := rfl
theorem W3_eq (c : Dev nD) : W3 m c = StableHlo.after hostOps1 (W2 m c) := rfl
theorem W5_eq (c : Dev nD) : W5 m c = StableHlo.after hostOps2 (W4 m c) := rfl

/-- Region 0's output array at its exit. -/
theorem W2_arr (c : Dev nD) : W2 m c (Proc.devRef .tc main_v7) = (dat0 (V1 m) c).arrAt 6 cfg0.N := by
  unfold W2; exact Function.update_self ..
/-- Every other buffer is as region 0 found it. -/
theorem W2_of_ne (c : Dev nD) (r : Ref sig .tc) (h : r ≠ main_v7) : W2 m c (Proc.devRef .tc r) = W1 m c (Proc.devRef .tc r) := by
  unfold W2; exact Function.update_of_ne (StableHlo.devRef_ne_of_ne h) ..
/-- Region 1's output array at its exit. -/
theorem W4_arr (c : Dev nD) : W4 m c (Proc.devRef .tc main_v9) = (dat1 (V3 m) c).arrAt 8 (cfgL (F := F)).N := by
  unfold W4; exact Function.update_self ..
/-- Every other buffer is as region 1 found it. -/
theorem W4_of_ne (c : Dev nD) (r : Ref sig .tc) (h : r ≠ main_v9) : W4 m c (Proc.devRef .tc r) = W3 m c (Proc.devRef .tc r) := by
  unfold W4; exact Function.update_of_ne (StableHlo.devRef_ne_of_ne h) ..

/-- A buffer no operation of the first stretch writes is as launched. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h

/-- The arguments end as launched: no host operation writes one and no region has one as its output. -/
theorem W5_main_arg0 (c : Dev nD) : W5 m c (Proc.devRef .tc main_arg0) = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_of m c main_arg0 (by decide)).trans rfl
theorem W5_main_arg1 (c : Dev nD) : W5 m c (Proc.devRef .tc main_arg1) = m ((c : Thread nD τ).loc main_arg1) :=
  (W5_of m c main_arg1 (by decide)).trans <| (W4_of_ne m c main_arg1 (by decide)).trans <| (W3_of m c main_arg1 (by decide)).trans <|
    (W2_of_ne m c main_arg1 (by decide)).trans <| (W1_of m c main_arg1 (by decide)).trans rfl

end Cert.KernelIdeal.Hand

end
-- ==== Proof.KI.HostLemmas.lean ====
/-
  The host's operations of the kernel program read at an index over the extended reals: the squared norms as sums of
  squares, the reshapes as re-indexings, and the final quotient of the total of the row losses by the count of pairs.
-/
import proofs.«418922_j57629871178314_3_alg».proof.Proof.Gen.KernelIdeal.Launch
import proofs.«418922_j57629871178314_3_alg».proof.Proof.KI.Spec
import Idealize.ShloMosaic.Lib.StableHlo
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe
open Cert.KernelIdeal Cert.KernelIdeal.Gen
open scoped BigOperators

/-! ### The squared norms -/

/-- The host's sum over the columns of the entrywise squares, at row `r`, is the squared norm of row `r`. -/
theorem mag_host (x : (⟨S4096x512, .f32⟩ : BufTy).Contents (Elt Ideal)) (r : Fin 4096) :
    Host.reduceAdd (F := Ideal) (mulf x x) (constant S_ .f32 0x00000000#32) reducesTo_S4096x512_S4096_d1 h_S_ (ValueIdx.ix1 r)
      = Spec.mag (fun r k => x (ValueIdx.ix2 r k)) r := by
  simp only [Host.reduceAdd, Ideal.hostReduceAdd_def]
  rw [Ideal.hostReduceAdd_single reducesTo_S4096x512_S4096_d1 (by decide)]
  show Ideal.ofBits .f32 0x00000000#32 + _ = _
  rw [Ideal.ofBits_zero_f32, zero_add]
  unfold Spec.mag
  refine Finset.sum_congr rfl fun k _ => ?_
  exact congrArg (fun j => x j * x j) (funext fun a => Fin.ext (by match a with | ⟨0, _⟩ => rfl | ⟨1, _⟩ => rfl))

/-! ### The reshapes -/

/-- A vector of 4096 entries as a column: the entry of row `r`. -/
theorem reshape_col {α : Type} (v : S4096.Idx → α) (r : Fin 4096) (z : Fin 1) :
    shapeCast S4096x1 v shapeCasts_S4096_S4096x1 (ValueIdx.ix2 r z) = v (ValueIdx.ix1 r) := by
  refine shapeCast_apply v shapeCasts_S4096_S4096x1 (ValueIdx.ix2 r z) (ValueIdx.ix1 r) ?_
  rw [Shape.rowMajor_val_one, Shape.rowMajor_val_two]
  show r.val = r.val * 1 + z.val
  omega

/-- A vector of 4096 entries as a row: the entry of column `r`. -/
theorem reshape_row {α : Type} (v : S4096.Idx → α) (r : Fin 4096) (z : Fin 1) :
    shapeCast S1x4096 v shapeCasts_S4096_S1x4096 (ValueIdx.ix2 z r) = v (ValueIdx.ix1 r) := by
  refine shapeCast_apply v shapeCasts_S4096_S1x4096 (ValueIdx.ix2 z r) (ValueIdx.ix1 r) ?_
  rw [Shape.rowMajor_val_one, Shape.rowMajor_val_two]
  show r.val = z.val * 4096 + r.val
  omega

/-- A column of 4096 entries as a row: the same entries. -/
theorem reshape_col_row {α : Type} (v : S4096x1.Idx → α) (r : Fin 4096) (z z' : Fin 1) :
    shapeCast S1x4096 v shapeCasts_S4096x1_S1x4096 (ValueIdx.ix2 z r) = v (ValueIdx.ix2 r z') := by
  refine shapeCast_apply v shapeCasts_S4096x1_S1x4096 (ValueIdx.ix2 z r) (ValueIdx.ix2 r z') ?_
  rw [Shape.rowMajor_val_two, Shape.rowMajor_val_two]
  show r.val * 1 + z'.val = z.val * 4096 + r.val
  omega

/-- Rounding to a narrower format is the identity over the extended reals. -/
theorem truncf_bf16_apply (x : (⟨S4096x512, .f32⟩ : BufTy).Contents (Elt Ideal)) (i : S4096x512.Idx) :
    truncf (F := Ideal) .bf16 x bitsLt_bf16_f32 i = x i := rfl

/-! ### The tail: the total of the row losses over the count of pairs -/

/-- A fold of word addition over a finite set is the start plus the sum. -/
theorem fold_addi_eq_sum {ι : Type} (S : Finset ι) (f : ι → BitVec 32) (b : BitVec 32) :
    S.fold IntOp.addi b f = b + ∑ i ∈ S, f i := by
  induction S using Finset.cons_induction with
  | empty => simp
  | cons a S ha ih =>
    rw [Finset.fold_cons, Finset.sum_cons, ih]
    show f a + (b + _) = b + (f a + _)
    rw [add_left_comm]

/-- The labels spread along the rows of the square: entry (r, c) is label r. -/
theorem bcast_rows_apply {α : Type} (v : S4096.Idx → α) (r c : Fin 4096) :
    broadcastInDim S4096x4096 ![0, 1] bcast_S4096x1_S4096x4096_0_1
        (broadcastInDim S4096x1 ![0] bcast_S4096_S4096x1_0 v) (ValueIdx.ix2 r c) = v (ValueIdx.ix1 r) := by
  refine (broadcastInDim_apply _ bcast_S4096x1_S4096x4096_0_1 _ (ValueIdx.ix2 r c) (ValueIdx.ix2 r (0 : Fin 1)) (fun a => match a with
    | ⟨0, _⟩ => by show r.val = if (4096 : Nat) = 1 then 0 else r.val; rw [if_neg (by decide)]
    | ⟨1, _⟩ => by show (0 : Nat) = if (1 : Nat) = 1 then 0 else c.val; rw [if_pos rfl])).trans ?_
  exact broadcastInDim_apply _ bcast_S4096_S4096x1_0 v (ValueIdx.ix2 r (0 : Fin 1)) (ValueIdx.ix1 r) (fun a => match a with
    | ⟨0, _⟩ => by show r.val = if (4096 : Nat) = 1 then 0 else r.val; rw [if_neg (by decide)])

/-- The labels spread along the columns of the square: entry (r, c) is label c. -/
theorem bcast_cols_apply {α : Type} (v : S4096.Idx → α) (r c : Fin 4096) :
    broadcastInDim S4096x4096 ![0, 1] bcast_S1x4096_S4096x4096_0_1
        (broadcastInDim S1x4096 ![1] bcast_S4096_S1x4096_1 v) (ValueIdx.ix2 r c) = v (ValueIdx.ix1 c) := by
  refine (broadcastInDim_apply _ bcast_S1x4096_S4096x4096_0_1 _ (ValueIdx.ix2 r c) (ValueIdx.ix2 (0 : Fin 1) c) (fun a => match a with
    | ⟨0, _⟩ => by show (0 : Nat) = if (1 : Nat) = 1 then 0 else r.val; rw [if_pos rfl]
    | ⟨1, _⟩ => by show c.val = if (4096 : Nat) = 1 then 0 else c.val; rw [if_neg (by decide)])).trans ?_
  exact broadcastInDim_apply _ bcast_S4096_S1x4096_1 v (ValueIdx.ix2 (0 : Fin 1) c) (ValueIdx.ix1 c) (fun a => match a with
    | ⟨0, _⟩ => by show c.val = if (4096 : Nat) = 1 then 0 else c.val; rw [if_neg (by decide)])

/-- The widened equality bit of two words. -/
theorem extui_cmpi_eq (a b : BitVec 32) :
    (IntOp.cmpi .eq a b).setWidth 32 = if a = b then 1#32 else 0#32 := by
  by_cases h : a = b
  · subst h; simp [IntOp.cmpi]
  · rw [if_neg h]
    show BitVec.setWidth 32 (BitVec.ofBool (a == b)) = 0#32
    rw [beq_eq_false_iff_ne.mpr h]; rfl

section Tail
variable {F : FTy → Type} [FloatOps F]

/-- The number of ordered pairs of distinct rows of equal label as the host computes it from the labels: the sum over
    the square of the widened equality bits, less 4096. -/
def cntFn (tgv : IVec S4096 32) : IVec S_ 32 :=
  subi
    (Host.reduce IntOp.addi
      (extui 32 (cmpi .eq
          (broadcastInDim S4096x4096 ![0, 1] bcast_S4096x1_S4096x4096_0_1 (broadcastInDim S4096x1 ![0] bcast_S4096_S4096x1_0 tgv))
          (broadcastInDim S4096x4096 ![0, 1] bcast_S1x4096_S4096x4096_0_1 (broadcastInDim S1x4096 ![1] bcast_S4096_S1x4096_1 tgv)))
        natLt_1_32)
      (constantI S_ 32 0#32) reducesTo_S4096x4096_S_d0_1 h_S_)
    (constantI S_ 32 4096#32)

/-- The host's tail: the total of the row losses divided by the count of pairs read as a float. -/
def tailFn (rl : FVec F S4096x1 .f32) (tgv : IVec S4096 32) : FVec F S_ .f32 :=
  Host.divf (Host.reduceAdd rl (constant S_ .f32 0x00000000#32) reducesTo_S4096x1_S_d0_1 h_S_)
    (sitofp .f32 (cntFn tgv))

end Tail

/-- The host's count is the count of the loss. -/
theorem cntFn_eq (tgv : IVec S4096 32) (i : S_.Idx) :
    cntFn tgv i = Spec.cnt (fun r => tgv (ValueIdx.ix1 r)) := by
  unfold cntFn Spec.cnt
  show IntOp.subi (Host.reduce IntOp.addi _ _ _ _ i) 4096#32 = _
  rw [Host.reduce_eq_fold, Finset.filter_true_of_mem (fun j _ => funext fun a => a.elim0), fold_addi_eq_sum,
    ValueIdx.sum_idx2]
  show (0#32 + _) - 4096#32 = _
  rw [BitVec.zero_add]
  refine congrArg (· - 4096#32) (Finset.sum_congr rfl fun r _ => Finset.sum_congr rfl fun c _ => ?_)
  show (IntOp.cmpi .eq _ _).setWidth 32 = _
  rw [bcast_rows_apply, bcast_cols_apply, extui_cmpi_eq]

/-- Over the extended reals the tail is the quotient of the sum of the row losses by the count. -/
theorem tailFn_eq (rl : FVec Ideal S4096x1 .f32) (tgv : IVec S4096 32) :
    tailFn (F := Ideal) rl tgv
      = fun _ => Ideal.div (∑ r : Fin 4096, rl (ValueIdx.ix2 r (0 : Fin 1)))
          (((Spec.cnt (fun r => tgv (ValueIdx.ix1 r))).toInt : ℝ) : EReal) := by
  funext i
  unfold tailFn
  show Ideal.div (Host.reduceAdd (F := Ideal) rl _ _ _ i) (((cntFn tgv i).toInt : ℝ) : EReal) = _
  rw [cntFn_eq]
  congr 1
  simp only [Host.reduceAdd, Ideal.hostReduceAdd_def]
  rw [Ideal.hostReduceAdd_total reducesTo_S4096x1_S_d0_1 (fun b => b.elim0)]
  show Ideal.ofBits .f32 0x00000000#32 + _ = _
  rw [Ideal.ofBits_zero_f32, zero_add, ValueIdx.sum_idx2]
  exact Finset.sum_congr rfl fun r _ => Fin.sum_univ_one _

end Cert.KernelIdeal.Hand

end
-- ==== Proof.KI.HostVals.lean ====
/-
  What the host's operations leave in the buffers the two regions read: the rows and the labels as launched, the
  squared norms as a column and as a row, the first region's row sums carried over as a column and as a row, and the
  result as the tail applied to the second region's row sums and the labels.
-/
import proofs.«418922_j57629871178314_3_alg».proof.Proof.KI.Fold
import proofs.«418922_j57629871178314_3_alg».proof.Proof.KI.HostLemmas
import Idealize.ShloMosaic.Lib.StableHlo.Run
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.StableHlo

variable (m : (ℓ : Loc nD τ sig) → Buf (Elt Ideal) ℓ) (c : Dev nD)

/-- The rows as launched. -/
abbrev rowsOf : Fin 4096 → Fin 512 → EReal :=
  fun r k => (m ((c : Thread nD τ).loc main_arg0) : S4096x512.Idx → EReal) (ValueIdx.ix2 r k)
/-- The labels as launched. -/
abbrev labelsOf : Fin 4096 → BitVec 32 :=
  fun r => (m ((c : Thread nD τ).loc main_arg1) : S4096.Idx → BitVec 32) (ValueIdx.ix1 r)

/-! ## At the first region's entry -/

theorem W1_v0 : W1 m c (Proc.devRef .tc main_v0)
    = truncf (F := Ideal) .bf16 (m ((c : Thread nD τ).loc main_arg0)) Facts₀.bitsLt_bf16_f32 := by
  show StableHlo.after hostOps0 (W0 m c) (Proc.devRef .tc main_v0) = _; after_results

theorem W1_v3 : W1 m c (Proc.devRef .tc main_v3)
    = shapeCast S4096x1 (Host.reduceAdd (F := Ideal) (mulf (m ((c : Thread nD τ).loc main_arg0)) (m ((c : Thread nD τ).loc main_arg0)))
        (constant S_ .f32 0x00000000#32) reducesTo_S4096x512_S4096_d1 h_S_) shapeCasts_S4096_S4096x1 := by
  show StableHlo.after hostOps0 (W0 m c) (Proc.devRef .tc main_v3) = _; after_results; rfl

theorem W1_v4 : W1 m c (Proc.devRef .tc main_v4)
    = shapeCast S1x4096 (Host.reduceAdd (F := Ideal) (mulf (m ((c : Thread nD τ).loc main_arg0)) (m ((c : Thread nD τ).loc main_arg0)))
        (constant S_ .f32 0x00000000#32) reducesTo_S4096x512_S4096_d1 h_S_) shapeCasts_S4096_S1x4096 := by
  show StableHlo.after hostOps0 (W0 m c) (Proc.devRef .tc main_v4) = _; after_results; rfl

theorem W1_v5 : W1 m c (Proc.devRef .tc main_v5)
    = shapeCast S4096x1 (m ((c : Thread nD τ).loc main_arg1)) shapeCasts_S4096_S4096x1 := by
  show StableHlo.after hostOps0 (W0 m c) (Proc.devRef .tc main_v5) = _; after_results; rfl

theorem W1_v6 : W1 m c (Proc.devRef .tc main_v6)
    = shapeCast S1x4096 (m ((c : Thread nD τ).loc main_arg1)) shapeCasts_S4096_S1x4096 := by
  show StableHlo.after hostOps0 (W0 m c) (Proc.devRef .tc main_v6) = _; after_results; rfl

/-- The narrowed rows are the rows. -/
theorem V1_v0 (r : Fin 4096) (k : Fin 512) :
    (V1 m c main_v0 : S4096x512.Idx → EReal) (ValueIdx.ix2 r k) = rowsOf m c r k := by
  show (W1 m c (Proc.devRef .tc main_v0) : S4096x512.Idx → EReal) (ValueIdx.ix2 r k) = _
  rw [W1_v0]; rfl

/-- The column of squared norms. -/
theorem V1_v3 (r : Fin 4096) :
    (V1 m c main_v3 : S4096x1.Idx → EReal) (ValueIdx.ix2 r 0) = Cert.Spec.mag (rowsOf m c) r := by
  show (W1 m c (Proc.devRef .tc main_v3) : S4096x1.Idx → EReal) (ValueIdx.ix2 r (0 : Fin 1)) = _
  rw [W1_v3]
  exact (reshape_col _ r 0).trans (mag_host _ r)

/-- The row of squared norms. -/
theorem V1_v4 (r : Fin 4096) :
    (V1 m c main_v4 : S1x4096.Idx → EReal) (ValueIdx.ix2 0 r) = Cert.Spec.mag (rowsOf m c) r := by
  show (W1 m c (Proc.devRef .tc main_v4) : S1x4096.Idx → EReal) (ValueIdx.ix2 (0 : Fin 1) r) = _
  rw [W1_v4]
  exact (reshape_row _ r 0).trans (mag_host _ r)

/-- The column of labels. -/
theorem V1_v5 (r : Fin 4096) :
    (V1 m c main_v5 : S4096x1.Idx → BitVec 32) (ValueIdx.ix2 r 0) = labelsOf m c r := by
  show (W1 m c (Proc.devRef .tc main_v5) : S4096x1.Idx → BitVec 32) (ValueIdx.ix2 r (0 : Fin 1)) = _
  rw [W1_v5]
  exact reshape_col _ r 0

/-- The row of labels. -/
theorem V1_v6 (r : Fin 4096) :
    (V1 m c main_v6 : S1x4096.Idx → BitVec 32) (ValueIdx.ix2 0 r) = labelsOf m c r := by
  show (W1 m c (Proc.devRef .tc main_v6) : S1x4096.Idx → BitVec 32) (ValueIdx.ix2 (0 : Fin 1) r) = _
  rw [W1_v6]
  exact reshape_row _ r 0

/-! ## At the second region's entry -/

/-- A buffer that is neither the first region's output nor its copy as a row is as the first region found it. -/
theorem W3_eq_W1 (b : Ref sig .tc) (h8 : b ∉ hostOps1_W) (h7 : b ≠ main_v7) :
    W3 m c (Proc.devRef .tc b) = W1 m c (Proc.devRef .tc b) :=
  (W3_of m c b h8).trans (W2_of_ne m c b h7)

theorem V3_v0 (r : Fin 4096) (k : Fin 512) :
    (V3 m c main_v0 : S4096x512.Idx → EReal) (ValueIdx.ix2 r k) = rowsOf m c r k := by
  show (W3 m c (Proc.devRef .tc main_v0) : S4096x512.Idx → EReal) (ValueIdx.ix2 r k) = _
  rw [W3_eq_W1 m c main_v0 (by decide) (by decide)]
  exact V1_v0 m c r k

theorem V3_v3 (r : Fin 4096) :
    (V3 m c main_v3 : S4096x1.Idx → EReal) (ValueIdx.ix2 r 0) = Cert.Spec.mag (rowsOf m c) r := by
  show (W3 m c (Proc.devRef .tc main_v3) : S4096x1.Idx → EReal) (ValueIdx.ix2 r (0 : Fin 1)) = _
  rw [W3_eq_W1 m c main_v3 (by decide) (by decide)]
  exact V1_v3 m c r

theorem V3_v4 (r : Fin 4096) :
    (V3 m c main_v4 : S1x4096.Idx → EReal) (ValueIdx.ix2 0 r) = Cert.Spec.mag (rowsOf m c) r := by
  show (W3 m c (Proc.devRef .tc main_v4) : S1x4096.Idx → EReal) (ValueIdx.ix2 (0 : Fin 1) r) = _
  rw [W3_eq_W1 m c main_v4 (by decide) (by decide)]
  exact V1_v4 m c r

theorem V3_v5 (r : Fin 4096) :
    (V3 m c main_v5 : S4096x1.Idx → BitVec 32) (ValueIdx.ix2 r 0) = labelsOf m c r := by
  show (W3 m c (Proc.devRef .tc main_v5) : S4096x1.Idx → BitVec 32) (ValueIdx.ix2 r (0 : Fin 1)) = _
  rw [W3_eq_W1 m c main_v5 (by decide) (by decide)]
  exact V1_v5 m c r

theorem V3_v6 (r : Fin 4096) :
    (V3 m c main_v6 : S1x4096.Idx → BitVec 32) (ValueIdx.ix2 0 r) = labelsOf m c r := by
  show (W3 m c (Proc.devRef .tc main_v6) : S1x4096.Idx → BitVec 32) (ValueIdx.ix2 (0 : Fin 1) r) = _
  rw [W3_eq_W1 m c main_v6 (by decide) (by decide)]
  exact V1_v6 m c r

/-- The first region's row sums, as it left them. -/
theorem V3_v7 : V3 m c main_v7 = (dat0 (V1 m) c).arrAt 6 cfg0.N :=
  (W3_of m c main_v7 (by decide)).trans (W2_arr m c)

theorem W3_v8 : W3 m c (Proc.devRef .tc main_v8)
    = shapeCast S1x4096 (W2 m c (Proc.devRef .tc main_v7)) shapeCasts_S4096x1_S1x4096 := by
  show StableHlo.after hostOps1 (W2 m c) (Proc.devRef .tc main_v8) = _; after_results; rfl

/-- The same row sums as a row. -/
theorem V3_v8 (r : Fin 4096) :
    (V3 m c main_v8 : S1x4096.Idx → EReal) (ValueIdx.ix2 0 r)
      = ((dat0 (V1 m) c).arrAt 6 cfg0.N : S4096x1.Idx → EReal) (ValueIdx.ix2 r 0) := by
  show (W3 m c (Proc.devRef .tc main_v8) : S1x4096.Idx → EReal) (ValueIdx.ix2 (0 : Fin 1) r) = _
  rw [W3_v8]
  refine (reshape_col_row _ r 0 0).trans ?_
  rw [W2_arr]

/-! ## At the second region's exit, and the result -/

/-- The labels are still as launched. -/
theorem W4_arg1 : W4 m c (Proc.devRef .tc main_arg1) = m ((c : Thread nD τ).loc main_arg1) :=
  (W4_of_ne m c main_arg1 (by decide)).trans <| (W3_of m c main_arg1 (by decide)).trans <|
    (W2_of_ne m c main_arg1 (by decide)).trans <| (W1_of m c main_arg1 (by decide)).trans rfl

/-- The result: the tail applied to the second region's row sums and the labels. -/
theorem W5_v20 : W5 m c (Proc.devRef .tc main_v20)
    = tailFn (F := Ideal) ((dat1 (V3 m) c).arrAt 8 (cfgL (F := Ideal)).N) (m ((c : Thread nD τ).loc main_arg1)) := by
  show StableHlo.after hostOps2 (W4 m c) (Proc.devRef .tc main_v20) = _
  after_results
  rw [W4_arr, W4_arg1]
  rfl

end Cert.KernelIdeal.Hand

end
-- ==== Proof.KI.R0Body.lean ====
/-
  Region 0: the kernel body meets the pipeline rule's obligation at every grid point, for the data of R0Defs.
  The body branches on the column-block coordinate: at the first column block of a row block it stores zero in the
  output block before accumulating, at the second it accumulates over what the first left. Each case is run once on
  arbitrary whole staging buffers; the point-level statement selects the case from the position's parity.
-/
import proofs.«418922_j57629871178314_3_alg».proof.Proof.Gen.KernelIdeal.Launch
import proofs.«418922_j57629871178314_3_alg».proof.Proof.Gen.KernelIdeal.Skeleton
import proofs.«418922_j57629871178314_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
import proofs.«418922_j57629871178314_3_alg».proof.Proof.KI.R0Defs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch, and the body on any staging buffers -/

/-- The body's branch: grid coordinate 1 is zero. -/
abbrev cond0 (i : grid0.Coords) : Prop := (Scalar.cmpi .ne (Scalar.extui (Scalar.cmpi .eq (BitVec.ofNat 32 (i 1).val) 0#32)) 0#32) = 1#1

/-- It holds at the even positions of the 8 x 2 grid: the first column block of each row block. -/
theorem hcond0 : ∀ t : Fin cfg0.N, cond0 (grid0.coords t) ↔ t.val % 2 = 0 :=
  (by decide +kernel : ∀ t : Fin grid0.N, cond0 (grid0.coords t) ↔ t.val % 2 = 0)

/-- The zero offsets of a rank-2 rectangle. -/
theorem zeroOff0 : (![0, 0] : Fin 2 → Nat) = fun _ => 0 := funext fun a => by fin_cases a <;> rfl

/-- A store through the whole 512 x 1 rectangle, last, covers the block. -/
theorem cover0_6 (p : Vec F S512x1 .f32) (L : List (View.Piece (Elt F) S512x1 .f32)) (y : S512x1.Idx) :
    ∃ pc ∈ ((⟨Rect.unit (s := S512x1) ![0, 0] S512x1.size inb_S512x1_S512x1_0_0, p⟩ : View.Piece (Elt F) S512x1 .f32) :: L), y ∈ pc.1.set :=
  ⟨_, List.mem_cons_self, View.mem_set_unit_zero (S := S512x1) zeroOff0 inb_S512x1_S512x1_0_0 y⟩

set_option maxHeartbeats 1000000 in
/-- The body where the branch is not taken (an odd position): on whole staging buffers, the inputs' at their contents and
    the output's at `xo`, it runs to the continuation holding the inputs' as they were and the output's at the step over `xo`:
    the one store covers the block, and its payload reads the six loads and the output's load. -/
theorem sound_kernel0_B (c : Dev nD) (E : Set ℕ) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (hc : ¬cond0 i)
    (x0 : Vec F S512x512 .bf16) (x1 : Vec F S2048x512 .bf16) (x2 : Vec F S512x1 .f32) (x3 : Vec F S1x2048 .f32) (x4 : Vec F S512x1 .i32) (x5 : Vec F S1x2048 .i32) (xo : Vec F S512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (step0 xo x0 x1 x2 x3 x4 x5)) -∗ K ⟨⟩))
      ⊢ wp frame (wpE (defs₀ (F := F)) Variants.none c none) E (cc0__row_neg_kernel i arg2 harg2 arg3 harg3 arg4 harg4 arg5 harg5 arg6 harg6 arg7 harg7 arg8 harg8) K := by
  simp only [cc0__row_neg_kernel_eq_skeleton]; unfold cc0__row_neg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact H6
  ipureintro
  rw [View.read_writes_eq_canon _ _ _ (cover0_6 _ _)]
  sl_unfold_words
  rw [View.canon_unit_zero (S := S512x1) zeroOff0]
  simp only [step0, View.readAt_eq_ld, harg2.read_unread, harg3.read_unread, harg4.read_unread, harg5.read_unread, harg6.read_unread, harg7.read_unread, harg8.read_unread,
    View.ld_unit_zero (S := S512x512) zeroOff0, View.ld_unit_zero (S := S2048x512) zeroOff0, View.ld_unit_zero (S := S1x2048) zeroOff0, View.ld_unit_zero (S := S512x1) zeroOff0]

set_option maxHeartbeats 1000000 in
/-- The body where the branch is taken (an even position): the output's buffer, at any contents, is stored zero, read
    back, and stored the step over zero; the last store covers the block. -/
theorem sound_kernel0_A (c : Dev nD) (E : Set ℕ) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (hc : cond0 i)
    (x0 : Vec F S512x512 .bf16) (x1 : Vec F S2048x512 .bf16) (x2 : Vec F S512x1 .f32) (x3 : Vec F S1x2048 .f32) (x4 : Vec F S512x1 .i32) (x5 : Vec F S1x2048 .i32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (step0 (k0_pay2 (F := F)) x0 x1 x2 x3 x4 x5)) -∗ K ⟨⟩))
      ⊢ wp frame (wpE (defs₀ (F := F)) Variants.none c none) E (cc0__row_neg_kernel i arg2 harg2 arg3 harg3 arg4 harg4 arg5 harg5 arg6 harg6 arg7 harg7 arg8 harg8) K := by
  simp only [cc0__row_neg_kernel_eq_skeleton]; unfold cc0__row_neg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact H6
  ipureintro
  rw [View.read_writes_eq_canon _ _ _ (cover0_6 _ _)]
  sl_unfold_words
  rw [View.canon_cons_unit_zero (S := S512x1) zeroOff0, View.readCov_unit_zero (S := S512x1) _ zeroOff0]
  simp only [step0, View.readAt_eq_ld, harg2.read_unread, harg3.read_unread, harg4.read_unread, harg5.read_unread, harg6.read_unread, harg7.read_unread,
    View.ld_unit_zero (S := S512x512) zeroOff0, View.ld_unit_zero (S := S2048x512) zeroOff0, View.ld_unit_zero (S := S1x2048) zeroOff0, View.ld_unit_zero (S := S512x1) zeroOff0]

variable (V : Ent F)

/-! ## What the buffers hold when the body is called -/

/-- Each input window's current staging buffer holds its block at every point, fetched there or not: an input whose block
    index has not moved was left in place by the body. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-- The accumulation at an even position: the step over zero. -/
theorem outsAt0_A (c : Dev nD) (t : Fin cfg0.N) (h0 : t.val % 2 = 0) :
    outsAt0 V c t.val t.isLt = step0 (k0_pay2 (F := F)) (iblk0 V c 0 t) (iblk0 V c 1 t) (iblk0 V c 2 t) (iblk0 V c 3 t) (iblk0 V c 4 t) (iblk0 V c 5 t) := by
  obtain ⟨n, hn⟩ := t
  cases n with
  | zero => rfl
  | succ n => dsimp only at h0; rw [outsAt0, if_pos h0]

/-- The accumulation at an odd position: the step over what the position before left. -/
theorem outsAt0_B (c : Dev nD) (t : Fin cfg0.N) (h0 : ¬t.val % 2 = 0) :
    outsAt0 V c t.val t.isLt = step0 (outsAt0 V c (t.val - 1) (Nat.lt_of_le_of_lt (Nat.sub_le _ _) t.isLt)) (iblk0 V c 0 t) (iblk0 V c 1 t) (iblk0 V c 2 t) (iblk0 V c 3 t) (iblk0 V c 4 t) (iblk0 V c 5 t) := by
  obtain ⟨n, hn⟩ := t
  cases n with
  | zero => exact absurd (Nat.zero_mod _) h0
  | succ n => dsimp only at h0; rw [outsAt0, if_neg h0]; rfl

/-- At an odd position the output's current staging buffer holds what the body left at the position before: the position
    is not the first, the block is written back at odd positions only, and the window is live and uncut. -/
theorem before0_6_B (c : Dev nD) (t : Fin cfg0.N) (h0 : ¬t.val % 2 = 0) (d) :
    (dat0 V c).before 6 t d = outsAt0 V c (t.val - 1) (Nat.lt_of_le_of_lt (Nat.sub_le _ _) t.isLt) := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  exact after0_6 V c _

/-! ## The body obligation, at a generic point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks; at an even position the branch is taken and the output's
    buffer, whatever it held, ends at the step over zero; at an odd one it held what the position before left and ends at
    the step over that. The invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val % 2 = 0
  · rw [outsAt0_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ (grid0.coords t) _ _ _ _ _ _ _ _ _ _ _ _ _ _ ((hcond0 t).mpr h0) (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outsAt0_B V c t h0]
    simp only [before0_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords t) _ _ _ _ _ _ _ _ _ _ _ _ _ _ (fun h => h0 ((hcond0 t).mp h)) (iblk0 V c 0 t) (iblk0 V c 1 t) (iblk0 V c 2 t) (iblk0 V c 3 t) (iblk0 V c 4 t) (iblk0 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- At every point the body, handed each input window's block and the output block as the point before left it,
    returns the inputs unchanged and the output block at `outsAt0`. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.SpecLemmas.lean ====
/-
  General facts about the loss's ingredients: the count of pairs off the diagonal, the square root's guard,
  the comparisons read as order relations, congruence of the two selected terms, and sums over 4096 indices
  split into blocks.
-/
import proofs.«418922_j57629871178314_3_alg».proof.Proof.KI.Spec
import Mathlib.Data.BitVec
import Mathlib.Algebra.BigOperators.Fin
import Mathlib.Algebra.BigOperators.Group.Finset.Basic
import Mathlib.Logic.Equiv.Fin.Basic

noncomputable section

open scoped BigOperators

namespace Cert.Spec

open Idealize.ShloMosaic

/-! ### The count of pairs -/

/-- The pairs of equal label off the diagonal are all pairs of equal label less the 4096 diagonal ones. -/
theorem cnt_offdiag (tg : Fin 4096 → BitVec 32) :
    (∑ r : Fin 4096, ∑ c : Fin 4096, if tg r = tg c ∧ r ≠ c then 1#32 else 0#32) = cnt tg := by
  unfold cnt
  have h : ∀ r : Fin 4096, (∑ c : Fin 4096, if tg r = tg c then 1#32 else 0#32)
      = (∑ c : Fin 4096, if tg r = tg c ∧ r ≠ c then 1#32 else 0#32) + 1#32 := by
    intro r
    have hc : ∀ c : Fin 4096, (if tg r = tg c then 1#32 else 0#32)
        = (if tg r = tg c ∧ r ≠ c then 1#32 else 0#32) + (if c = r then 1#32 else 0#32) := by
      intro c
      by_cases h1 : c = r
      · subst h1; simp
      · have h2 : r ≠ c := fun h => h1 h.symm
        simp [h1, h2]
    have h1 : (∑ c : Fin 4096, if c = r then 1#32 else 0#32) = 1#32 := by
      rw [Finset.sum_eq_single r]
      · simp
      · intro b _ hb; simp [hb]
      · intro h; exact absurd (Finset.mem_univ r) h
    rw [Finset.sum_congr rfl (fun c _ => hc c), Finset.sum_add_distrib, h1]
  rw [Finset.sum_congr rfl (fun r _ => h r), Finset.sum_add_distrib]
  simp [Finset.sum_const, Finset.card_univ]

/-! ### The square root's guard -/

theorem sqrt_zero : Ideal.sqrt 0 = 0 := by
  rw [← EReal.coe_zero, Ideal.sqrt_coe]; simp

/-- Taking the root only where the clamped argument is positive, and zero elsewhere, is the root: the root of zero is zero. -/
theorem sqrt_guard (y : EReal) :
    (if 0 < max y 0 then Ideal.sqrt (if 0 < max y 0 then max y 0 else one) else 0) = Ideal.sqrt (max y 0) := by
  by_cases h : 0 < max y 0
  · simp [h]
  · have h0 : max y 0 = 0 := le_antisymm (not_lt.mp h) (le_max_right y 0)
    rw [if_neg h, h0, sqrt_zero]

/-! ### Comparisons as order relations -/

theorem cmp_ogt_iff (x y : EReal) : Ideal.cmp .ogt x y = 1#1 ↔ y < x := by
  by_cases h : y < x <;> simp [Ideal.cmp, h]
theorem cmp_one_iff (x y : EReal) : Ideal.cmp .one x y = 1#1 ↔ x ≠ y := by
  by_cases h : x = y <;> simp [Ideal.cmp, h]
theorem cmp_une_iff (x y : EReal) : Ideal.cmp .une x y = 1#1 ↔ x ≠ y := by
  by_cases h : x = y <;> simp [Ideal.cmp, h]
theorem cmp_oeq_iff (x y : EReal) : Ideal.cmp .oeq x y = 1#1 ↔ x = y := by
  by_cases h : x = y <;> simp [Ideal.cmp, h]
theorem cmp_olt_iff (x y : EReal) : Ideal.cmp .olt x y = 1#1 ↔ x < y := by
  by_cases h : x < y <;> simp [Ideal.cmp, h]

/-! ### Congruence of the selected terms -/

theorem negwOf_congr {p q : Prop} [Decidable p] [Decidable q] (h : p ↔ q) (d : EReal) :
    negwOf p d = negwOf q d := by
  unfold negwOf
  exact if_congr (by rw [h]) rfl rfl

theorem posvOf_congr {p q : Prop} [Decidable p] [Decidable q] (h : p ↔ q) (nr nc d : EReal) :
    posvOf p nr nc d = posvOf q nr nc d := by
  unfold posvOf
  exact if_congr h rfl rfl

theorem posvOf_false {p : Prop} [Decidable p] (h : ¬ p) (nr nc d : EReal) : posvOf p nr nc d = 0 := by
  unfold posvOf; exact if_neg h

theorem posvOf_true {p : Prop} [Decidable p] (h : p) (nr nc d : EReal) :
    posvOf p nr nc d = max (Ideal.log (nr + nc) + d) 0 * max (Ideal.log (nr + nc) + d) 0 := by
  unfold posvOf; exact if_pos h

theorem negwOf_same {p : Prop} [Decidable p] (h : p) (d : EReal) : negwOf p d = 0 := by
  unfold negwOf; exact if_neg (fun hh => hh.1 h)

/-- On and below the diagonal a pair has no term. -/
theorem posvG_eq_zero_of_le (x : Fin 4096 → Fin 512 → EReal) (tg : Fin 4096 → BitVec 32)
    (rn : Fin 4096 → EReal) {r c : Fin 4096} (h : c ≤ r) : posvG x tg rn r c = 0 := by
  unfold posvG
  exact posvOf_false (fun hh => absurd hh.2 (not_lt.mpr h)) _ _ _

/-! ### Sums over 4096 indices in blocks -/

section Sums
variable {M : Type*} [AddCommMonoid M]

/-- The two halves. -/
theorem sum_halves (f : Fin 4096 → M) :
    ∑ c : Fin 4096, f c
      = ∑ q : Fin 2048, f ⟨q, by omega⟩ + ∑ q : Fin 2048, f ⟨2048 + q, by omega⟩ := by
  have := Fin.sum_univ_add (M := M) (a := 2048) (b := 2048) (fun i => f i)
  exact this

/-- Eight blocks of 512. -/
theorem sum_blocks8 (f : Fin 4096 → M) :
    ∑ c : Fin 4096, f c = ∑ j : Fin 8, ∑ q : Fin 512, f ⟨512 * j + q, by omega⟩ := by
  rw [← Fintype.sum_prod_type' (fun (j : Fin 8) (q : Fin 512) => f ⟨512 * j + q, by omega⟩)]
  rw [← (finProdFinEquiv (m := 8) (n := 512)).sum_comp (fun c => f c)]
  refine Finset.sum_congr rfl (fun p _ => ?_)
  congr 1
  apply Fin.ext
  simp [finProdFinEquiv]
  omega

end Sums

end Cert.Spec

end
-- ==== Proof.KI.Val0Pay.lean ====
/-
  One grid point of region 0 at an entry: the accumulator block's row p gains the sum, over the point's 2048 columns, of the
  pair weights computed from the point's blocks.
-/
import proofs.«418922_j57629871178314_3_alg».proof.Proof.Gen.KernelIdeal.Launch
import proofs.«418922_j57629871178314_3_alg».proof.Proof.Gen.KernelIdeal.Skeleton
import proofs.«418922_j57629871178314_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import proofs.«418922_j57629871178314_3_alg».proof.Proof.KI.R0Defs
import proofs.«418922_j57629871178314_3_alg».proof.Proof.KI.SpecLemmas
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## Layout operations read at an index -/

/-- A column copied along the rows' second axis: [a,1] → [a,b] reads the column at its own row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector given a trailing unit axis: [a] → [a,1] reads the vector at the row. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The contraction: row p of the left block against row q of the right block -/

theorem lhs_mm_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem lhs_mm_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem rhs_mm_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem rhs_mm_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The product of the two blocks into zero, at (p, q): the inner product of the left block's row p and the right block's row q. -/
theorem matmul_at (x0 : FVec Ideal S512x512 .bf16) (x1 : FVec Ideal S2048x512 .bf16) (p : Fin 512) (q : Fin 2048) :
    matmul dot_S512x512_S2048x512_S512x2048_1_1_0_0_n_n none x0 x1 (constant (F := Ideal) S512x2048 .f32 0x00000000#32) (ix2 p q)
      = ∑ k : Fin 512, x0 (ix2 p k) * x1 (ix2 q k) := by
  refine (Ideal.matmul_constant_zero_apply dot_S512x512_S2048x512_S512x2048_1_1_0_0_n_n none x0 x1 (ix2 p q)).trans ?_
  rw [← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p q) ((contrEquiv1 dot_S512x512_S2048x512_S512x2048_1_1_0_0_n_n 512 rfl rfl).symm k) = ix2 p k := funext fun a => Fin.ext (by
    match a with
    | ⟨0, _⟩ => exact lhs_mm_0 _ _
    | ⟨1, _⟩ => exact (lhs_mm_1 _ _).trans hk)
  have er : dot_S512x512_S2048x512_S512x2048_1_1_0_0_n_n.rhsIdx (ix2 p q) ((contrEquiv1 dot_S512x512_S2048x512_S512x2048_1_1_0_0_n_n 512 rfl rfl).symm k) = ix2 q k := funext fun a => Fin.ext (by
    match a with
    | ⟨0, _⟩ => exact rhs_mm_0 _ _
    | ⟨1, _⟩ => exact (rhs_mm_1 _ _).trans hk)
  rw [el, er]

/-! ## The distance, the mask and the exponential at a pair (p, q) -/

/-- The distance payload at (p, q): the root of the clamped squared distance from the two squared norms and the inner product. -/
theorem pay3_at (x0 : Vec Ideal S512x512 .bf16) (x1 : Vec Ideal S2048x512 .bf16) (x2 : Vec Ideal S512x1 .f32)
    (x3 : Vec Ideal S1x2048 .f32) (p : Fin 512) (q : Fin 2048) :
    (k0_pay3 (F := Ideal) x0 x1 x2 x3 : S512x2048.Idx → EReal) (ix2 p q)
      = Cert.Spec.distOf ((x2 : S512x1.Idx → EReal) (ix2 p 0)) ((x3 : S1x2048.Idx → EReal) (ix2 0 q))
          (∑ k : Fin 512, (x0 : S512x512.Idx → EReal) (ix2 p k) * (x1 : S2048x512.Idx → EReal) (ix2 q k)) := by
  unfold k0_pay3
  simp only [shapeCast_self]
  show Ideal.sqrt (max (broadcastTo S512x2048 x2 broadcasts_S512x1_S512x2048 (ix2 p q)
      + broadcastTo S512x2048 x3 broadcasts_S1x2048_S512x2048 (ix2 p q)
      - Ideal.ofBits .f32 0x40000000#32
        * matmul dot_S512x512_S2048x512_S512x2048_1_1_0_0_n_n none x0 x1 (constant (F := Ideal) S512x2048 .f32 0x00000000#32) (ix2 p q))
      (Ideal.ofBits .f32 0x00000000#32)) = _
  rw [broadcastTo_a1_ab_apply, broadcastTo_1b_ab_apply, matmul_at, Ideal.ofBits_zero_f32]
  rfl

/-- One-bit words: "not u, and v" is set exactly when u is clear and v is set. -/
theorem bit_andnot (u v : BitVec 1) : IntOp.andi (IntOp.xori u 1#1) v = 1#1 ↔ (¬ u = 1#1 ∧ v = 1#1) := by
  by_cases hu : u = 1#1
  · subst hu
    by_cases hv : v = 1#1
    · subst hv; decide
    · have := eq_zero_of_ne_one hv; subst this; decide
  · have hu0 := eq_zero_of_ne_one hu; subst hu0
    by_cases hv : v = 1#1
    · subst hv; decide
    · have := eq_zero_of_ne_one hv; subst this; decide

/-- The word comparison for equality is set exactly on equal words. -/
theorem cmpi_eq_iff (a b : BitVec 32) : IntOp.cmpi .eq a b = 1#1 ↔ a = b := by
  show BitVec.ofBool (a == b) = 1#1 ↔ a = b
  by_cases h : a = b
  · subst h; simp
  · rw [show (a == b) = false from beq_eq_false_iff_ne.mpr h]
    exact ⟨fun h' => absurd h' (by decide), fun h' => absurd h' h⟩

/-- The mask at (p, q): the two labels differ and the distance is not zero. -/
theorem pay4_at (x0 : Vec Ideal S512x512 .bf16) (x1 : Vec Ideal S2048x512 .bf16) (x2 : Vec Ideal S512x1 .f32)
    (x3 : Vec Ideal S1x2048 .f32) (x4 : Vec Ideal S512x1 .i32) (x5 : Vec Ideal S1x2048 .i32) (p : Fin 512) (q : Fin 2048) :
    (k0_pay4 (F := Ideal) x0 x1 x2 x3 x4 x5 : S512x2048.Idx → BitVec 1) (ix2 p q) = 1#1
      ↔ (¬ ((x4 : S512x1.Idx → BitVec 32) (ix2 p 0) = (x5 : S1x2048.Idx → BitVec 32) (ix2 0 q))
          ∧ Cert.Spec.distOf ((x2 : S512x1.Idx → EReal) (ix2 p 0)) ((x3 : S1x2048.Idx → EReal) (ix2 0 q))
              (∑ k : Fin 512, (x0 : S512x512.Idx → EReal) (ix2 p k) * (x1 : S2048x512.Idx → EReal) (ix2 q k)) ≠ 0) := by
  unfold k0_pay4
  simp only [shapeCast_self]
  show IntOp.andi (IntOp.xori (IntOp.cmpi .eq (broadcastTo S512x2048 x4 broadcasts_S512x1_S512x2048 (ix2 p q))
        (broadcastTo S512x2048 x5 broadcasts_S1x2048_S512x2048 (ix2 p q))) 1#1)
      (Ideal.cmp .one (k0_pay3 (F := Ideal) x0 x1 x2 x3 (ix2 p q)) (Ideal.ofBits .f32 0x00000000#32)) = 1#1 ↔ _
  rw [broadcastTo_a1_ab_apply, broadcastTo_1b_ab_apply, pay3_at, Ideal.ofBits_zero_f32, bit_andnot, cmpi_eq_iff,
    Cert.Spec.cmp_one_iff]

/-- The exponential at (p, q): of one less the distance. -/
theorem pay5_at (x0 : Vec Ideal S512x512 .bf16) (x1 : Vec Ideal S2048x512 .bf16) (x2 : Vec Ideal S512x1 .f32)
    (x3 : Vec Ideal S1x2048 .f32) (p : Fin 512) (q : Fin 2048) :
    (k0_pay5 (F := Ideal) x0 x1 x2 x3 : S512x2048.Idx → EReal) (ix2 p q)
      = Ideal.exp (Cert.Spec.one - Cert.Spec.distOf ((x2 : S512x1.Idx → EReal) (ix2 p 0)) ((x3 : S1x2048.Idx → EReal) (ix2 0 q))
          (∑ k : Fin 512, (x0 : S512x512.Idx → EReal) (ix2 p k) * (x1 : S2048x512.Idx → EReal) (ix2 q k))) := by
  unfold k0_pay5
  show Ideal.exp (Ideal.ofBits .f32 0x3F800000#32 - k0_pay3 (F := Ideal) x0 x1 x2 x3 (ix2 p q)) = _
  rw [pay3_at]

/-! ## The accumulator update at a row -/

/-- The accumulator update at row `p` of the block: the old entry plus the sum over the 2048 columns `q` of the weight of
    the pair (p, q) — labels `x4`, `x5`, squared norms `x2`, `x3`, inner product of row p of `x0` with row q of `x1`. -/
theorem step0_apply (acc : Vec Ideal S512x1 .f32) (x0 : Vec Ideal S512x512 .bf16) (x1 : Vec Ideal S2048x512 .bf16) (x2 : Vec Ideal S512x1 .f32)
    (x3 : Vec Ideal S1x2048 .f32) (x4 : Vec Ideal S512x1 .i32) (x5 : Vec Ideal S1x2048 .i32) (p : Fin 512) :
    (step0 (F := Ideal) acc x0 x1 x2 x3 x4 x5 : S512x1.Idx → EReal) (ix2 p 0)
      = (acc : S512x1.Idx → EReal) (ix2 p 0)
        + ∑ q : Fin 2048, Cert.Spec.negwOf ((x4 : S512x1.Idx → BitVec 32) (ix2 p 0) = (x5 : S1x2048.Idx → BitVec 32) (ix2 0 q))
            (Cert.Spec.distOf ((x2 : S512x1.Idx → EReal) (ix2 p 0)) ((x3 : S1x2048.Idx → EReal) (ix2 0 q))
              (∑ k : Fin 512, (x0 : S512x512.Idx → EReal) (ix2 p k) * (x1 : S2048x512.Idx → EReal) (ix2 q k))) := by
  unfold step0 k0_pay1
  simp only [shapeCast_self]
  refine (addf_apply (φ := .f32) acc _ (ix2 p 0)).trans ?_
  rw [shapeCast_a_a1_apply]
  refine congrArg (acc (ix2 p 0) + ·) ?_
  refine (Ideal.multiReduction_add_single _ _ reduces_S512x2048_S512 _ _ (ValueIdx.ix1 p)).trans ?_
  show ∑ q : Fin 2048, _ = _
  refine Finset.sum_congr rfl fun q _ => ?_
  have e : reduces_S512x2048_S512.lift (ValueIdx.ix1 p) q = ix2 p q :=
    funext fun a => Fin.ext (by match a with | ⟨0, _⟩ => rfl | ⟨1, _⟩ => rfl)
  rw [e]
  show Scalar.select (k0_pay4 (F := Ideal) x0 x1 x2 x3 x4 x5 (ix2 p q)) (k0_pay5 (F := Ideal) x0 x1 x2 x3 (ix2 p q))
      (Ideal.ofBits .f32 0x00000000#32) = _
  rw [pay5_at]
  unfold Scalar.select Cert.Spec.negwOf
  exact if_congr (pay4_at x0 x1 x2 x3 x4 x5 p q) rfl Ideal.ofBits_zero_f32

end Cert.KernelIdeal.Hand

end
-- ==== Proof.KI.Val0.lean ====
/-
  Region 0's result: once every write-back has landed, the output array holds at row r the sum over ALL 4096 columns
  of the pair weights — the two column blocks of 2048 added in turn onto zero.
-/
import proofs.«418922_j57629871178314_3_alg».proof.Proof.Gen.KernelIdeal.Launch
import proofs.«418922_j57629871178314_3_alg».proof.Proof.Gen.KernelIdeal.Skeleton
import proofs.«418922_j57629871178314_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import proofs.«418922_j57629871178314_3_alg».proof.Proof.KI.R0Defs
import proofs.«418922_j57629871178314_3_alg».proof.Proof.KI.R0Body
import proofs.«418922_j57629871178314_3_alg».proof.Proof.KI.Spec
import proofs.«418922_j57629871178314_3_alg».proof.Proof.KI.SpecLemmas
import proofs.«418922_j57629871178314_3_alg».proof.Proof.KI.Val0Pay
import Idealize.ShloMosaic.Lib.Pipeline.Value
import Idealize.ShloMosaic.Lib.ValueIdx
import Idealize.ShloMosaic.PureOps.Ideal.Laws
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## Where each window's block sits in its array -/

/-- The printed index maps over the 8 x 2 grid: the row-side windows and the output follow the row block t / 2, the
    column-side windows the column block t % 2. -/
theorem idx_facts0 : ∀ t : Fin cfg0.N,
    win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = 0
    ∧ win0_3.index t (0 : Fin 2) = 0 ∧ win0_3.index t (1 : Fin 2) = t.val % 2
    ∧ win0_4.index t (0 : Fin 2) = t.val / 2 ∧ win0_4.index t (1 : Fin 2) = 0
    ∧ win0_5.index t (0 : Fin 2) = 0 ∧ win0_5.index t (1 : Fin 2) = t.val % 2
    ∧ win0_6.index t (0 : Fin 2) = t.val / 2 ∧ win0_6.index t (1 : Fin 2) = 0 :=
  (by decide +kernel : ∀ t : Fin grid0.N, _)

section Blocks
variable (V : Ent Ideal) (c : Dev nD) (X : Fin 4096 → Fin 512 → EReal) (TG : Fin 4096 → BitVec 32)

/-- Row p of the rows block at point t is row 512 (t / 2) + p of the array. -/
theorem blk0_eq (hx : ∀ (r : Fin 4096) (k : Fin 512), (V c main_v0 : S4096x512.Idx → EReal) (ix2 r k) = X r k)
    (t : Fin cfg0.N) (p k : Fin 512) (R : Fin 4096) (hR : R.val = 512 * (t.val / 2) + p.val) :
    (iblk0 V c 0 t : S512x512.Idx → EReal) (ix2 p k) = X R k := by
  obtain ⟨e0, e1, -⟩ := idx_facts0 t
  rw [← hx R k]
  unfold iblk0
  rw [View.read_apply]
  show V c main_v0 _ = V c main_v0 _
  congr 1
  funext a; apply Fin.ext
  match a with
  | ⟨0, _⟩ => show win0_0.index t (0 : Fin 2) * 512 + 1 * p.val = R.val; rw [e0, hR]; omega
  | ⟨1, _⟩ => show win0_0.index t (1 : Fin 2) * 512 + 1 * k.val = k.val; rw [e1]; omega

/-- Row q of the columns block at point t is row 2048 (t % 2) + q of the array. -/
theorem blk1_eq (hx : ∀ (r : Fin 4096) (k : Fin 512), (V c main_v0 : S4096x512.Idx → EReal) (ix2 r k) = X r k)
    (t : Fin cfg0.N) (q : Fin 2048) (k : Fin 512) (C : Fin 4096) (hC : C.val = 2048 * (t.val % 2) + q.val) :
    (iblk0 V c 1 t : S2048x512.Idx → EReal) (ix2 q k) = X C k := by
  obtain ⟨-, -, e0, e1, -⟩ := idx_facts0 t
  rw [← hx C k]
  unfold iblk0
  rw [View.read_apply]
  show V c main_v0 _ = V c main_v0 _
  congr 1
  funext a; apply Fin.ext
  match a with
  | ⟨0, _⟩ => show win0_1.index t (0 : Fin 2) * 2048 + 1 * q.val = C.val; rw [e0, hC]; omega
  | ⟨1, _⟩ => show win0_1.index t (1 : Fin 2) * 512 + 1 * k.val = k.val; rw [e1]; omega

end Blocks

section Blocks2
variable (V : Ent Ideal) (c : Dev nD) (X : Fin 4096 → Fin 512 → EReal) (TG : Fin 4096 → BitVec 32)

/-! Rows of the two norm blocks and the two label blocks: the row-side ones at 512 (t / 2) + p, the column-side ones at
    2048 (t % 2) + q. -/

theorem blk2_eq (hmc : ∀ r : Fin 4096, (V c main_v3 : S4096x1.Idx → EReal) (ix2 r 0) = Cert.Spec.mag X r)
    (t : Fin cfg0.N) (p : Fin 512) (R : Fin 4096) (hR : R.val = 512 * (t.val / 2) + p.val) :
    (iblk0 V c 2 t : S512x1.Idx → EReal) (ix2 p 0) = Cert.Spec.mag X R := by
  obtain ⟨-, -, -, -, e0, e1, -⟩ := idx_facts0 t
  rw [← hmc R]
  unfold iblk0
  rw [View.read_apply]
  show V c main_v3 _ = V c main_v3 _
  congr 1
  funext a; apply Fin.ext
  match a with
  | ⟨0, _⟩ => show win0_2.index t (0 : Fin 2) * 512 + 1 * p.val = R.val; rw [e0, hR]; omega
  | ⟨1, _⟩ => show win0_2.index t (1 : Fin 2) * 1 + 1 * 0 = 0; rw [e1]

theorem blk3_eq (hmr : ∀ r : Fin 4096, (V c main_v4 : S1x4096.Idx → EReal) (ix2 0 r) = Cert.Spec.mag X r)
    (t : Fin cfg0.N) (q : Fin 2048) (C : Fin 4096) (hC : C.val = 2048 * (t.val % 2) + q.val) :
    (iblk0 V c 3 t : S1x2048.Idx → EReal) (ix2 0 q) = Cert.Spec.mag X C := by
  obtain ⟨-, -, -, -, -, -, e0, e1, -⟩ := idx_facts0 t
  rw [← hmr C]
  unfold iblk0
  rw [View.read_apply]
  show V c main_v4 _ = V c main_v4 _
  congr 1
  funext a; apply Fin.ext
  match a with
  | ⟨0, _⟩ => show win0_3.index t (0 : Fin 2) * 1 + 1 * 0 = 0; rw [e0]
  | ⟨1, _⟩ => show win0_3.index t (1 : Fin 2) * 2048 + 1 * q.val = C.val; rw [e1, hC]; omega

theorem blk4_eq (htc : ∀ r : Fin 4096, (V c main_v5 : S4096x1.Idx → BitVec 32) (ix2 r 0) = TG r)
    (t : Fin cfg0.N) (p : Fin 512) (R : Fin 4096) (hR : R.val = 512 * (t.val / 2) + p.val) :
    (iblk0 V c 4 t : S512x1.Idx → BitVec 32) (ix2 p 0) = TG R := by
  obtain ⟨-, -, -, -, -, -, -, -, e0, e1, -⟩ := idx_facts0 t
  rw [← htc R]
  unfold iblk0
  rw [View.read_apply]
  show V c main_v5 _ = V c main_v5 _
  congr 1
  funext a; apply Fin.ext
  match a with
  | ⟨0, _⟩ => show win0_4.index t (0 : Fin 2) * 512 + 1 * p.val = R.val; rw [e0, hR]; omega
  | ⟨1, _⟩ => show win0_4.index t (1 : Fin 2) * 1 + 1 * 0 = 0; rw [e1]

theorem blk5_eq (htr : ∀ r : Fin 4096, (V c main_v6 : S1x4096.Idx → BitVec 32) (ix2 0 r) = TG r)
    (t : Fin cfg0.N) (q : Fin 2048) (C : Fin 4096) (hC : C.val = 2048 * (t.val % 2) + q.val) :
    (iblk0 V c 5 t : S1x2048.Idx → BitVec 32) (ix2 0 q) = TG C := by
  obtain ⟨-, -, -, -, -, -, -, -, -, -, e0, e1, -⟩ := idx_facts0 t
  rw [← htr C]
  unfold iblk0
  rw [View.read_apply]
  show V c main_v6 _ = V c main_v6 _
  congr 1
  funext a; apply Fin.ext
  match a with
  | ⟨0, _⟩ => show win0_5.index t (0 : Fin 2) * 1 + 1 * 0 = 0; rw [e0]
  | ⟨1, _⟩ => show win0_5.index t (1 : Fin 2) * 2048 + 1 * q.val = C.val; rw [e1, hC]; omega

end Blocks2

/-- The zero block is zero at every entry. -/
theorem pay2_apply (j : S512x1.Idx) : (k0_pay2 (F := Ideal) : S512x1.Idx → EReal) j = 0 := by
  unfold k0_pay2
  show Ideal.ofBits .f32 0x00000000#32 = 0
  exact Ideal.ofBits_zero_f32

section Sums
variable (V : Ent Ideal) (c : Dev nD) (X : Fin 4096 → Fin 512 → EReal) (TG : Fin 4096 → BitVec 32)
variable (hx : ∀ (r : Fin 4096) (k : Fin 512), (V c main_v0 : S4096x512.Idx → EReal) (ix2 r k) = X r k)
    (hmc : ∀ r : Fin 4096, (V c main_v3 : S4096x1.Idx → EReal) (ix2 r 0) = Cert.Spec.mag X r)
    (hmr : ∀ r : Fin 4096, (V c main_v4 : S1x4096.Idx → EReal) (ix2 0 r) = Cert.Spec.mag X r)
    (htc : ∀ r : Fin 4096, (V c main_v5 : S4096x1.Idx → BitVec 32) (ix2 r 0) = TG r)
    (htr : ∀ r : Fin 4096, (V c main_v6 : S1x4096.Idx → BitVec 32) (ix2 0 r) = TG r)
include hx hmc hmr htc htr

/-! ## One point, then a row block's two points -/

/-- At point t, row p of the accumulator gains the weights of row R = 512 (t / 2) + p against the 2048 columns of column
    block t % 2. -/
theorem point_sum (t : Fin cfg0.N) (p : Fin 512) (R : Fin 4096) (hR : R.val = 512 * (t.val / 2) + p.val)
    (acc : Vec Ideal S512x1 .f32) :
    (step0 (F := Ideal) acc (iblk0 V c 0 t) (iblk0 V c 1 t) (iblk0 V c 2 t) (iblk0 V c 3 t) (iblk0 V c 4 t) (iblk0 V c 5 t) : S512x1.Idx → EReal) (ix2 p 0)
      = (acc : S512x1.Idx → EReal) (ix2 p 0)
        + ∑ q : Fin 2048, Cert.Spec.negw X TG R ⟨2048 * (t.val % 2) + q.val, by have := q.isLt; omega⟩ := by
  rw [step0_apply]
  congr 1
  refine Finset.sum_congr rfl fun q _ => ?_
  unfold Cert.Spec.negw Cert.Spec.dist Cert.Spec.sim
  rw [blk4_eq V c TG htc t p R hR, blk5_eq V c TG htr t q ⟨2048 * (t.val % 2) + q.val, by have := q.isLt; omega⟩ rfl,
    blk2_eq V c X hmc t p R hR, blk3_eq V c X hmr t q ⟨2048 * (t.val % 2) + q.val, by have := q.isLt; omega⟩ rfl]
  congr 2
  refine Finset.sum_congr rfl fun k _ => ?_
  rw [blk0_eq V c X hx t p k R hR, blk1_eq V c X hx t q k ⟨2048 * (t.val % 2) + q.val, by have := q.isLt; omega⟩ rfl]

/-- After the second point of a row block, row p of the accumulator holds row R's sum over all 4096 columns: zero, plus the
    first 2048, plus the last 2048. -/
theorem outs_odd (t : Fin cfg0.N) (h1 : t.val % 2 = 1) (p : Fin 512) (R : Fin 4096) (hR : R.val = 512 * (t.val / 2) + p.val) :
    (outsAt0 V c t.val t.isLt : S512x1.Idx → EReal) (ix2 p 0) = Cert.Spec.rowNeg X TG R := by
  have hlt : t.val - 1 < cfg0.N := Nat.lt_of_le_of_lt (Nat.sub_le _ _) t.isLt
  have hA := outsAt0_A V c ⟨t.val - 1, hlt⟩ (by show (t.val - 1) % 2 = 0; omega)
  rw [outsAt0_B V c t (by omega), point_sum V c X TG hx hmc hmr htc htr t p R hR]
  rw [show outsAt0 V c (t.val - 1) hlt = _ from hA,
    point_sum V c X TG hx hmc hmr htc htr ⟨t.val - 1, hlt⟩ p R (by show R.val = 512 * ((t.val - 1) / 2) + p.val; omega),
    pay2_apply, zero_add]
  unfold Cert.Spec.rowNeg
  rw [Cert.Spec.sum_halves]
  congr 1
  · refine Finset.sum_congr rfl fun q _ => ?_
    congr 1; apply Fin.ext; show 2048 * ((t.val - 1) % 2) + q.val = q.val; omega
  · refine Finset.sum_congr rfl fun q _ => ?_
    congr 1; apply Fin.ext; show 2048 * (t.val % 2) + q.val = 2048 + q.val; omega

end Sums

section Final
variable (V : Ent Ideal) (c : Dev nD) (X : Fin 4096 → Fin 512 → EReal) (TG : Fin 4096 → BitVec 32)

/-- The array the write-backs compose: every row at its sum of weights. -/
def G0 : S4096x1.Idx → EReal := fun i => Cert.Spec.rowNeg X TG ⟨(i 0).val, (i 0).isLt⟩

variable (hx : ∀ (r : Fin 4096) (k : Fin 512), (V c main_v0 : S4096x512.Idx → EReal) (ix2 r k) = X r k)
    (hmc : ∀ r : Fin 4096, (V c main_v3 : S4096x1.Idx → EReal) (ix2 r 0) = Cert.Spec.mag X r)
    (hmr : ∀ r : Fin 4096, (V c main_v4 : S1x4096.Idx → EReal) (ix2 0 r) = Cert.Spec.mag X r)
    (htc : ∀ r : Fin 4096, (V c main_v5 : S4096x1.Idx → BitVec 32) (ix2 r 0) = TG r)
    (htr : ∀ r : Fin 4096, (V c main_v6 : S1x4096.Idx → BitVec 32) (ix2 0 r) = TG r)
include hx hmc hmr htc htr

/-! ## From the blocks to the array -/

/-- What a point that writes back (an odd one) writes is its row block of that array. -/
theorem flushed6_eq (t : Fin cfg0.N) (hf : (cfg0.win 6).flush t = true) :
    (dat0 V c).flushed 6 t = ((cfg0.win 6).blk t).view.read (Elt Ideal) (G0 X TG) := by
  have h1 : t.val % 2 = 1 := (flush0_6 t).mp hf
  obtain ⟨-, -, -, -, -, -, -, -, -, -, -, -, e0, e1⟩ := idx_facts0 t
  show (cfg0.win 6).cut (grid0.coords t) ((dat0 V c).after 6 t) = _
  rw [after0_6]
  funext y
  obtain ⟨p, z, rfl⟩ : ∃ (a : Fin 512) (b : Fin 1), y = ix2 a b := ⟨y 0, y 1, eq_ix2 y⟩
  obtain rfl : z = 0 := Subsingleton.elim _ _
  rw [View.read_apply]
  show (outsAt0 V c t.val t.isLt : S512x1.Idx → EReal) (ix2 p 0) = Cert.Spec.rowNeg X TG ⟨_, _⟩
  exact outs_odd V c X TG hx hmc hmr htc htr t h1 p _
    (by show win0_6.index t (0 : Fin 2) * 512 + 1 * p.val = 512 * (t.val / 2) + p.val; rw [e0]; omega)

end Final

/-- If the region finds the rows `X` in the bf16 array, their squared norms in the column and row norm arrays and the
    labels `TG` in the two label arrays, it leaves row `r`'s sum of weights in the output array. -/
theorem rowNeg_arr (V : Ent Ideal) (c : Dev nD) (X : Fin 4096 → Fin 512 → EReal) (TG : Fin 4096 → BitVec 32)
    (hx : ∀ (r : Fin 4096) (k : Fin 512), (V c main_v0 : S4096x512.Idx → EReal) (ix2 r k) = X r k)
    (hmc : ∀ r : Fin 4096, (V c main_v3 : S4096x1.Idx → EReal) (ix2 r 0) = Cert.Spec.mag X r)
    (hmr : ∀ r : Fin 4096, (V c main_v4 : S1x4096.Idx → EReal) (ix2 0 r) = Cert.Spec.mag X r)
    (htc : ∀ r : Fin 4096, (V c main_v5 : S4096x1.Idx → BitVec 32) (ix2 r 0) = TG r)
    (htr : ∀ r : Fin 4096, (V c main_v6 : S1x4096.Idx → BitVec 32) (ix2 0 r) = TG r)
    (r : Fin 4096) :
    ((dat0 V c).arrAt 6 cfg0.N : S4096x1.Idx → EReal) (ix2 r 0) = Cert.Spec.rowNeg X TG r := by
  have hN : cfg0.N = 16 := N_0
  have hr : r.val < 4096 := r.isLt
  obtain ⟨t, ht⟩ : ∃ t : Fin cfg0.N, t.val = 2 * (r.val / 512) + 1 := ⟨⟨2 * (r.val / 512) + 1, by rw [hN]; omega⟩, rfl⟩
  have hf : (cfg0.win 6).flush t = true := (flush0_6 t).mpr (by omega)
  obtain ⟨-, -, -, -, -, -, -, -, -, -, -, -, e0, e1⟩ := idx_facts0 t
  have hi : (ix2 r 0 : S4096x1.Idx) ∈ ((cfg0.win 6).blk t).view.set := by
    show _ ∈ ((View.whole main_v7).slice (win0_6.rect t)).set
    rw [View.set_slice_whole, Rect.mem_set_unit]
    intro a
    match a with
    | ⟨0, _⟩ =>
      show win0_6.index t (0 : Fin 2) * 512 ≤ r.val ∧ r.val < win0_6.index t (0 : Fin 2) * 512 + 512
      rw [e0]; omega
    | ⟨1, _⟩ =>
      show win0_6.index t (1 : Fin 2) * 1 ≤ 0 ∧ 0 < win0_6.index t (1 : Fin 2) * 1 + 1
      rw [e1]; omega
  exact (dat0 V c).arrAt_apply_of_mem 6 (G0 X TG) (flushed6_eq V c X TG hx hmc hmr htc htr) cfg0.N t (ix2 r 0) t.isLt hf hi

end Cert.KernelIdeal.Hand

end
-- ==== Proof.KI.Val1Pay.lean ====
/-
  One grid point of region 1 at an entry: the accumulator block's row p gains the sum, over the point's 512 columns, of the
  positive-pair terms computed from the point's blocks; the pair's global row and column numbers come from the point's
  row-block and column-block table words.
-/
import proofs.«418922_j57629871178314_3_alg».proof.Proof.Gen.KernelIdeal.Launch
import proofs.«418922_j57629871178314_3_alg».proof.Proof.Gen.KernelIdeal.Skeleton
import proofs.«418922_j57629871178314_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import proofs.«418922_j57629871178314_3_alg».proof.Proof.KI.R1Defs
import proofs.«418922_j57629871178314_3_alg».proof.Proof.KI.SpecLemmas
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The tile's inner products -/

theorem lhs_tile_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs_tile_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_tile_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs_tile_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- The product of a row block with a column block's rows, contracted over the 512 entries: at (p, q) the inner
    product of row p of the one with row q of the other. -/
theorem tile_matmul_apply (a b : FVec Ideal S512x512 .bf16) (p q : Fin 512) :
    matmul dot_S512x512_S512x512_S512x512_1_1_0_0_n_n none a b (constant (F := Ideal) S512x512 .f32 0x00000000#32) (ix2 p q)
      = ∑ k : Fin 512, a (ix2 p k) * b (ix2 q k) := by
  simp only [matmul]
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 p q) ((contrEquiv1 dot_S512x512_S512x512_S512x512_1_1_0_0_n_n 512 rfl rfl).symm k) = ix2 p k := funext fun ax => Fin.ext (by
    match ax with
    | ⟨0, _⟩ => exact lhs_tile_0 _ _
    | ⟨1, _⟩ => exact (lhs_tile_1 _ _).trans hk)
  have er : dot_S512x512_S512x512_S512x512_1_1_0_0_n_n.rhsIdx (ix2 p q) ((contrEquiv1 dot_S512x512_S512x512_S512x512_1_1_0_0_n_n 512 rfl rfl).symm k) = ix2 q k := funext fun ax => Fin.ext (by
    match ax with
    | ⟨0, _⟩ => exact rhs_tile_0 _ _
    | ⟨1, _⟩ => exact (rhs_tile_1 _ _).trans hk)
  rw [el, er]

/-! ## Columns and rows spread over a tile -/

section Layout
variable {α : Type}

/-- A column spread over the tile reads, at (p, q), the column at p. -/
theorem bcol_apply (v : S512x1.Idx → α) (h : S512x1.Broadcasts S512x512) (p q : Fin 512) :
    broadcastTo S512x512 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row spread over the tile reads, at (p, q), the row at q. -/
theorem brow_apply (v : S1x512.Idx → α) (h : S1x512.Broadcasts S512x512) (p q : Fin 512) :
    broadcastTo S512x512 v h (ix2 p q) = v (ix2 (0 : Fin 1) q) :=
  broadcastTo_1b_ab_apply v h p q

/-- A vector of 512 entries viewed as a column. -/
theorem scol_apply (v : S512.Idx → α) (h : S512.ShapeCasts S512x1) (p : Fin 512) :
    shapeCast S512x1 v h (ix2 p (0 : Fin 1)) = v (ValueIdx.ix1 p) := by
  refine shapeCast_apply v h (ix2 p (0 : Fin 1)) (ValueIdx.ix1 p) ?_
  rw [Shape.rowMajor_val_one, Shape.rowMajor_val_two]
  show p.val = p.val * 1 + 0
  omega

end Layout

/-! ## The tile's distances -/

/-- The distance block at (p, q): the distance of the two rows from their squared norms and inner product. -/
theorem pay3_apply (x0 x1 : FVec Ideal S512x512 .bf16) (x2 : FVec Ideal S512x1 .f32) (x3 : FVec Ideal S1x512 .f32) (p q : Fin 512) :
    k1_pay3 (F := Ideal) x0 x1 x2 x3 (ix2 p q)
      = Cert.Spec.distOf (x2 (ix2 p (0 : Fin 1))) (x3 (ix2 (0 : Fin 1) q)) (∑ k : Fin 512, x0 (ix2 p k) * x1 (ix2 q k)) := by
  unfold k1_pay3
  simp only [shapeCast_self]
  show Ideal.sqrt (max (broadcastTo S512x512 x2 _ (ix2 p q) + broadcastTo S512x512 x3 _ (ix2 p q)
      - Ideal.ofBits .f32 0x40000000#32 * matmul dot_S512x512_S512x512_S512x512_1_1_0_0_n_n none x0 x1 (constant (F := Ideal) S512x512 .f32 0x00000000#32) (ix2 p q))
      (Ideal.ofBits .f32 0x00000000#32)) = _
  rw [bcol_apply, brow_apply, tile_matmul_apply, Ideal.ofBits_zero_f32]
  rfl

/-! ## The tile's label agreement -/

/-- The label mask at (p, q): whether row p's label is column q's. -/
theorem pay4_apply (x4 : IVec S512x1 32) (x5 : IVec S1x512 32) (p q : Fin 512) :
    k1_pay4 (F := Ideal) x4 x5 (ix2 p q) = IntOp.cmpi .eq (x4 (ix2 p (0 : Fin 1))) (x5 (ix2 (0 : Fin 1) q)) := by
  unfold k1_pay4
  simp only [shapeCast_self]
  show IntOp.cmpi .eq (broadcastTo S512x512 x4 _ (ix2 p q)) (broadcastTo S512x512 x5 _ (ix2 p q)) = _
  rw [bcol_apply, brow_apply]

/-! ## The row sums of a tile -/

/-- The sum along a tile's rows, at row p: the sum over the 512 columns. -/
theorem lane_sum_apply (src : FVec Ideal S512x512 .f32) (h : S512x512.Reduces [1] S512) (hφ : FKind.Formats .f32)
    (hacc : (0x00000000#32 : BitVec FTy.f32.bits) = FKind.add.neutral .f32 hφ) (p : Fin 512) :
    multiReduction .add [1] S512 src 0x00000000#32 h hφ hacc (ValueIdx.ix1 p) = ∑ q : Fin 512, src (ix2 p q) := by
  refine (Ideal.multiReduction_add_single src 0x00000000#32 h hφ hacc (ValueIdx.ix1 p)).trans ?_
  refine Finset.sum_congr rfl fun q _ => congrArg src ?_
  funext ax
  match ax with
  | ⟨0, _⟩ => rfl
  | ⟨1, _⟩ => rfl

/-- The selector of a pair: the labels agree, the row and column numbers differ, and the row number is below the column number. -/
def selBit (a : BitVec 1) (r c : BitVec 32) : BitVec 1 :=
  IntOp.andi (IntOp.andi a (IntOp.xori (IntOp.cmpi .eq r c) 1#1)) (IntOp.cmpi .slt r c)

/-- The accumulator update at row p, the selector still a bit. -/
theorem pay1_apply (v23 : FVec Ideal S512x512 .f32) (v30 : IVec S512x512 1) (v36 v37 : BitVec 32) (v38 : IVec S512x512 32)
    (v50 : FVec Ideal S512x1 .f32) (v52 : FVec Ideal S1x512 .f32) (v66 : FVec Ideal S512x1 .f32) (p : Fin 512) :
    k1_pay1 (F := Ideal) v23 v30 v36 v37 v38 v50 v52 v66 (ix2 p (0 : Fin 1))
      = v66 (ix2 p (0 : Fin 1)) + ∑ q : Fin 512,
          Scalar.select (selBit (v30 (ix2 p q)) (IntOp.addi v37 (v38 (ix2 p q))) (IntOp.addi (Scalar.muli v36 512#32) (BitVec.ofNat 32 q.val)))
            (max (Ideal.log (v50 (ix2 p (0 : Fin 1)) + v52 (ix2 (0 : Fin 1) q)) + v23 (ix2 p q)) 0
              * max (Ideal.log (v50 (ix2 p (0 : Fin 1)) + v52 (ix2 (0 : Fin 1) q)) + v23 (ix2 p q)) 0) 0 := by
  unfold k1_pay1
  simp only [shapeCast_self]
  refine congrArg (v66 (ix2 p (0 : Fin 1)) + ·) ((scol_apply _ _ p).trans ((lane_sum_apply _ _ _ _ p).trans ?_))
  refine Finset.sum_congr rfl fun q _ => ?_
  show Scalar.select (selBit (v30 (ix2 p q)) (IntOp.addi v37 (v38 (ix2 p q)))
        (IntOp.addi (Scalar.muli v36 512#32) (iota .tc S512x512 32 [1] _ (ix2 p q))))
      (max (Ideal.log (broadcastTo S512x512 v50 _ (ix2 p q) + broadcastTo S512x512 v52 _ (ix2 p q)) + v23 (ix2 p q)) (Ideal.ofBits .f32 0x00000000#32)
        * max (Ideal.log (broadcastTo S512x512 v50 _ (ix2 p q) + broadcastTo S512x512 v52 _ (ix2 p q)) + v23 (ix2 p q)) (Ideal.ofBits .f32 0x00000000#32))
      (Ideal.ofBits .f32 0x00000000#32) = _
  rw [iota_single_apply, bcol_apply, brow_apply, Ideal.ofBits_zero_f32]

/-! ## The selector as a proposition -/

/-- The selector bit is set exactly when the labels agree and the row number is below the column number (which already
    makes the two numbers differ). -/
theorem selBit_eq_one_iff (a : BitVec 1) (r c : BitVec 32) : selBit a r c = 1#1 ↔ a = 1#1 ∧ r.slt c = true := by
  unfold selBit IntOp.andi IntOp.xori IntOp.cmpi
  by_cases he : r = c
  · subst he
    have hs : r.slt r = false := by simp [BitVec.slt]
    rcases BitVec.eq_zero_or_eq_one a with h | h <;> subst h <;> simp [hs]
  · have hb : (r == c) = false := by simpa using he
    rcases BitVec.eq_zero_or_eq_one a with h | h <;> subst h <;> cases hs : r.slt c <;> simp [hb]

/-- A block word below 8 times 512 plus an offset below 512 does not wrap. -/
theorem word_toNat (w : BitVec 32) (hw : w.toNat < 8) (p : Fin 512) :
    (IntOp.addi (Scalar.muli w 512#32) (BitVec.ofNat 32 p.val)).toNat = 512 * w.toNat + p.val := by
  unfold IntOp.addi Scalar.muli IntOp.muli
  rw [BitVec.toNat_add, BitVec.toNat_mul, BitVec.toNat_ofNat]
  have := p.isLt
  show (w.toNat * 512 % 2 ^ 32 + p.val % 2 ^ 32) % 2 ^ 32 = 512 * w.toNat + p.val
  omega

/-- On words below 2^31 the signed comparison is the comparison of the numbers. -/
theorem slt_iff_of_small (x y : BitVec 32) (hx : x.toNat < 2 ^ 31) (hy : y.toNat < 2 ^ 31) :
    x.slt y = true ↔ x.toNat < y.toNat := by
  have ex : x.toInt = x.toNat := BitVec.toInt_eq_toNat_of_lt (by omega)
  have ey : y.toInt = y.toNat := BitVec.toInt_eq_toNat_of_lt (by omega)
  simp only [BitVec.slt, decide_eq_true_eq, ex, ey]
  omega

/-- The label mask's bit is set exactly when the two labels are the same word. -/
theorem cmpi_eq_one_iff (a b : BitVec 32) : IntOp.cmpi .eq a b = 1#1 ↔ a = b := by
  unfold IntOp.cmpi
  by_cases h : a = b
  · subst h; simp
  · have hb : (a == b) = false := by simpa using h
    simp [hb, h]

/-! ## One grid point at a row of the block -/

/-- The accumulator update at row `p` of the block, at a grid point whose row-block and column-block words are below 8:
    the old entry plus the sum over the 512 columns `q` of the term of the pair (p, q), selected when the labels agree and
    the global row number 512·rb + p is below the global column number 512·cb + q. -/
theorem step1_apply (i : grid1.Coords) (hrb : (rbW (F := Ideal) i).toNat < 8) (hcb : (cbW (F := Ideal) i).toNat < 8)
    (acc : Vec Ideal S512x1 .f32) (x0 : Vec Ideal S512x512 .bf16) (x1 : Vec Ideal S512x512 .bf16) (x2 : Vec Ideal S512x1 .f32)
    (x3 : Vec Ideal S1x512 .f32) (x4 : Vec Ideal S512x1 .i32) (x5 : Vec Ideal S1x512 .i32) (x6 : Vec Ideal S512x1 .f32) (x7 : Vec Ideal S1x512 .f32)
    (p : Fin 512) :
    (step1 (F := Ideal) i acc x0 x1 x2 x3 x4 x5 x6 x7 : S512x1.Idx → EReal) (ix2 p 0)
      = (acc : S512x1.Idx → EReal) (ix2 p 0)
        + ∑ q : Fin 512, Cert.Spec.posvOf
            ((x4 : S512x1.Idx → BitVec 32) (ix2 p 0) = (x5 : S1x512.Idx → BitVec 32) (ix2 0 q)
              ∧ 512 * (rbW (F := Ideal) i).toNat + p.val < 512 * (cbW (F := Ideal) i).toNat + q.val)
            ((x6 : S512x1.Idx → EReal) (ix2 p 0)) ((x7 : S1x512.Idx → EReal) (ix2 0 q))
            (Cert.Spec.distOf ((x2 : S512x1.Idx → EReal) (ix2 p 0)) ((x3 : S1x512.Idx → EReal) (ix2 0 q))
              (∑ k : Fin 512, (x0 : S512x512.Idx → EReal) (ix2 p k) * (x1 : S512x512.Idx → EReal) (ix2 q k))) := by
  unfold step1
  refine (pay1_apply _ _ _ _ _ _ _ _ p).trans ?_
  refine congrArg ((acc : S512x1.Idx → EReal) (ix2 p 0) + ·) (Finset.sum_congr rfl fun q _ => ?_)
  have hi : iota .tc S512x512 32 [0] Facts₀.iota_S512x512_d0_w32 (ix2 p q) = BitVec.ofNat 32 p.val :=
    iota_single_apply .tc S512x512 32 0 Facts₀.iota_S512x512_d0_w32 (ix2 p q)
  rw [pay3_apply, pay4_apply, hi]
  unfold Cert.Spec.posvOf Scalar.select
  refine if_congr ((selBit_eq_one_iff _ _ _).trans (and_congr (cmpi_eq_one_iff _ _) ?_)) rfl rfl
  have hr := word_toNat _ hrb p
  have hc := word_toNat _ hcb q
  have hp := p.isLt
  have hq := q.isLt
  rw [slt_iff_of_small _ _ (by rw [hr]; omega) (by rw [hc]; omega), hr, hc]

end Cert.KernelIdeal.Hand

end
-- ==== Proof.KI.Val1Blocks.lean ====
/-
  Region 1 at the literal tile tables: the schedule. Which row block and column block each of the 36 grid points
  visits; every tile is on or above the diagonal; a run of tiles of one row block starts on its diagonal tile, and
  each later point of the run keeps the row block and moves one column block on.
-/
import proofs.«418922_j57629871178314_3_alg».proof.Proof.KI.R1Defs
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

/-! ### The schedule -/

/-- The row block the point visits. -/
def rbN (t : Fin (cfgL (F := F)).N) : ℕ := (rbW (F := F) ((cfgL (F := F)).grid.coords t)).toNat
/-- The column block the point visits. -/
def cbN (t : Fin (cfgL (F := F)).N) : ℕ := (cbW (F := F) ((cfgL (F := F)).grid.coords t)).toNat

theorem rbN_lt (t : Fin (cfgL (F := F)).N) : rbN (F := F) t < 8 :=
  -- the table's words are the same 32-bit integers at every float type: decided at bit patterns, point by point
  (by decide +kernel : ∀ t : Fin grid1.N, (rbW (F := Bits) (grid1.coords t)).toNat < 8) t
theorem cbN_lt (t : Fin (cfgL (F := F)).N) : cbN (F := F) t < 8 :=
  (by decide +kernel : ∀ t : Fin grid1.N, (cbW (F := Bits) (grid1.coords t)).toNat < 8) t
/-- Every tile is on or above the diagonal. -/
theorem rb_le_cb (t : Fin (cfgL (F := F)).N) : rbN (F := F) t ≤ cbN (F := F) t :=
  (by decide +kernel : ∀ t : Fin grid1.N, (rbW (F := Bits) (grid1.coords t)).toNat ≤ (cbW (F := Bits) (grid1.coords t)).toNat) t
/-- A run starts on its diagonal tile. -/
theorem isFirst_iff (t : Fin (cfgL (F := F)).N) :
    isFirst (F := F) ((cfgL (F := F)).grid.coords t) ↔ cbN (F := F) t = rbN (F := F) t :=
  (by decide +kernel : ∀ t : Fin grid1.N, isFirst (F := Bits) (grid1.coords t) ↔ (cbW (F := Bits) (grid1.coords t)).toNat = (rbW (F := Bits) (grid1.coords t)).toNat) t
theorem first0 (h : 0 < (cfgL (F := F)).N) : isFirst (F := F) ((cfgL (F := F)).grid.coords ⟨0, h⟩) :=
  (by decide +kernel : isFirst (F := Bits) (grid1.coords ⟨0, by decide⟩))
/-- Off a run's start the point continues the run of the point before: the same row block, the next column block. -/
theorem not_first_prev (t : Fin (cfgL (F := F)).N) (h : ¬ isFirst (F := F) ((cfgL (F := F)).grid.coords t)) :
    0 < t.val ∧ rbN (F := F) t = rbN (F := F) ⟨t.val - 1, by have := t.isLt; omega⟩
      ∧ cbN (F := F) t = cbN (F := F) ⟨t.val - 1, by have := t.isLt; omega⟩ + 1 :=
  (by decide +kernel : ∀ t : Fin grid1.N, ¬ isFirst (F := Bits) (grid1.coords t) →
      0 < t.val ∧ (rbW (F := Bits) (grid1.coords t)).toNat = (rbW (F := Bits) (grid1.coords ⟨t.val - 1, by have := t.isLt; omega⟩)).toNat ∧ (cbW (F := Bits) (grid1.coords t)).toNat = (cbW (F := Bits) (grid1.coords ⟨t.val - 1, by have := t.isLt; omega⟩)).toNat + 1) t h

end Cert.KernelIdeal.Hand

end
-- ==== Proof.KI.Val1Reads.lean ====
/-
  Region 1's input blocks at the literal tile tables, as rows and columns of the arrays: the row-side windows read the 512
  rows of the point's row block, the column-side windows the 512 rows (or columns) of its column block.
-/
import proofs.«418922_j57629871178314_3_alg».proof.Proof.KI.Val1Blocks
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

/-! ### Where each input window's block sits in its array -/

/-- The index maps at the 36 points: the row-side windows follow the row-block word, the column-side windows the
    column-block word. The words are the same 32-bit integers at every float type: decided at bit patterns. -/
theorem idx_facts1_B : ∀ t : Fin grid1.N,
    ((cfgL (F := Bits)).win 0).index t (0 : Fin 2) = (rbW (F := Bits) (grid1.coords t)).toNat ∧ ((cfgL (F := Bits)).win 0).index t (1 : Fin 2) = 0
    ∧ ((cfgL (F := Bits)).win 1).index t (0 : Fin 2) = (cbW (F := Bits) (grid1.coords t)).toNat ∧ ((cfgL (F := Bits)).win 1).index t (1 : Fin 2) = 0
    ∧ ((cfgL (F := Bits)).win 2).index t (0 : Fin 2) = (rbW (F := Bits) (grid1.coords t)).toNat ∧ ((cfgL (F := Bits)).win 2).index t (1 : Fin 2) = 0
    ∧ ((cfgL (F := Bits)).win 3).index t (0 : Fin 2) = 0 ∧ ((cfgL (F := Bits)).win 3).index t (1 : Fin 2) = (cbW (F := Bits) (grid1.coords t)).toNat
    ∧ ((cfgL (F := Bits)).win 4).index t (0 : Fin 2) = (rbW (F := Bits) (grid1.coords t)).toNat ∧ ((cfgL (F := Bits)).win 4).index t (1 : Fin 2) = 0
    ∧ ((cfgL (F := Bits)).win 5).index t (0 : Fin 2) = 0 ∧ ((cfgL (F := Bits)).win 5).index t (1 : Fin 2) = (cbW (F := Bits) (grid1.coords t)).toNat
    ∧ ((cfgL (F := Bits)).win 6).index t (0 : Fin 2) = (rbW (F := Bits) (grid1.coords t)).toNat ∧ ((cfgL (F := Bits)).win 6).index t (1 : Fin 2) = 0
    ∧ ((cfgL (F := Bits)).win 7).index t (0 : Fin 2) = 0 ∧ ((cfgL (F := Bits)).win 7).index t (1 : Fin 2) = (cbW (F := Bits) (grid1.coords t)).toNat := by
  decide +kernel

theorem idx_facts1 (t : Fin (cfgL (F := Ideal)).N) :
    ((cfgL (F := Ideal)).win 0).index t (0 : Fin 2) = rbN (F := Ideal) t ∧ ((cfgL (F := Ideal)).win 0).index t (1 : Fin 2) = 0
    ∧ ((cfgL (F := Ideal)).win 1).index t (0 : Fin 2) = cbN (F := Ideal) t ∧ ((cfgL (F := Ideal)).win 1).index t (1 : Fin 2) = 0
    ∧ ((cfgL (F := Ideal)).win 2).index t (0 : Fin 2) = rbN (F := Ideal) t ∧ ((cfgL (F := Ideal)).win 2).index t (1 : Fin 2) = 0
    ∧ ((cfgL (F := Ideal)).win 3).index t (0 : Fin 2) = 0 ∧ ((cfgL (F := Ideal)).win 3).index t (1 : Fin 2) = cbN (F := Ideal) t
    ∧ ((cfgL (F := Ideal)).win 4).index t (0 : Fin 2) = rbN (F := Ideal) t ∧ ((cfgL (F := Ideal)).win 4).index t (1 : Fin 2) = 0
    ∧ ((cfgL (F := Ideal)).win 5).index t (0 : Fin 2) = 0 ∧ ((cfgL (F := Ideal)).win 5).index t (1 : Fin 2) = cbN (F := Ideal) t
    ∧ ((cfgL (F := Ideal)).win 6).index t (0 : Fin 2) = rbN (F := Ideal) t ∧ ((cfgL (F := Ideal)).win 6).index t (1 : Fin 2) = 0
    ∧ ((cfgL (F := Ideal)).win 7).index t (0 : Fin 2) = 0 ∧ ((cfgL (F := Ideal)).win 7).index t (1 : Fin 2) = cbN (F := Ideal) t :=
  idx_facts1_B t

/-! ### The blocks the input windows read -/

section Reads
variable (V : Ent Ideal) (c : Dev nD) (t : Fin (cfgL (F := Ideal)).N)

/-- Row p of the rows block is row 512 rb + p of the array. -/
theorem iblk1_0 (p k : Fin 512) : (iblk1 V c 0 t : S512x512.Idx → EReal) (ValueIdx.ix2 p k)
    = (V c main_v0 : S4096x512.Idx → EReal) (ValueIdx.ix2 ⟨512 * rbN (F := Ideal) t + p.val, by have := rbN_lt (F := Ideal) t; omega⟩ k) := by
  obtain ⟨e0, e1, -⟩ := idx_facts1 t
  unfold iblk1
  rw [View.read_apply]
  show V c main_v0 _ = V c main_v0 _
  congr 1
  funext a; apply Fin.ext
  match a with
  | ⟨0, _⟩ => show ((cfgL (F := Ideal)).win 0).index t (0 : Fin 2) * 512 + 1 * p.val = 512 * rbN (F := Ideal) t + p.val; rw [e0]; omega
  | ⟨1, _⟩ => show ((cfgL (F := Ideal)).win 0).index t (1 : Fin 2) * 512 + 1 * k.val = k.val; rw [e1]; omega

/-- Row q of the columns block is row 512 cb + q of the array. -/
theorem iblk1_1 (q k : Fin 512) : (iblk1 V c 1 t : S512x512.Idx → EReal) (ValueIdx.ix2 q k)
    = (V c main_v0 : S4096x512.Idx → EReal) (ValueIdx.ix2 ⟨512 * cbN (F := Ideal) t + q.val, by have := cbN_lt (F := Ideal) t; omega⟩ k) := by
  obtain ⟨-, -, e0, e1, -⟩ := idx_facts1 t
  unfold iblk1
  rw [View.read_apply]
  show V c main_v0 _ = V c main_v0 _
  congr 1
  funext a; apply Fin.ext
  match a with
  | ⟨0, _⟩ => show ((cfgL (F := Ideal)).win 1).index t (0 : Fin 2) * 512 + 1 * q.val = 512 * cbN (F := Ideal) t + q.val; rw [e0]; omega
  | ⟨1, _⟩ => show ((cfgL (F := Ideal)).win 1).index t (1 : Fin 2) * 512 + 1 * k.val = k.val; rw [e1]; omega

/-! The squared norms, the labels and the row sums, as a column (at 512 rb + p) and as a row (at 512 cb + q). -/

theorem iblk1_2 (p : Fin 512) : (iblk1 V c 2 t : S512x1.Idx → EReal) (ValueIdx.ix2 p (0 : Fin 1))
    = (V c main_v3 : S4096x1.Idx → EReal) (ValueIdx.ix2 ⟨512 * rbN (F := Ideal) t + p.val, by have := rbN_lt (F := Ideal) t; omega⟩ (0 : Fin 1)) := by
  obtain ⟨-, -, -, -, e0, e1, -⟩ := idx_facts1 t
  unfold iblk1
  rw [View.read_apply]
  show V c main_v3 _ = V c main_v3 _
  congr 1
  funext a; apply Fin.ext
  match a with
  | ⟨0, _⟩ => show ((cfgL (F := Ideal)).win 2).index t (0 : Fin 2) * 512 + 1 * p.val = 512 * rbN (F := Ideal) t + p.val; rw [e0]; omega
  | ⟨1, _⟩ => show ((cfgL (F := Ideal)).win 2).index t (1 : Fin 2) * 1 + 1 * 0 = 0; rw [e1]

theorem iblk1_3 (q : Fin 512) : (iblk1 V c 3 t : S1x512.Idx → EReal) (ValueIdx.ix2 (0 : Fin 1) q)
    = (V c main_v4 : S1x4096.Idx → EReal) (ValueIdx.ix2 (0 : Fin 1) ⟨512 * cbN (F := Ideal) t + q.val, by have := cbN_lt (F := Ideal) t; omega⟩) := by
  obtain ⟨-, -, -, -, -, -, e0, e1, -⟩ := idx_facts1 t
  unfold iblk1
  rw [View.read_apply]
  show V c main_v4 _ = V c main_v4 _
  congr 1
  funext a; apply Fin.ext
  match a with
  | ⟨0, _⟩ => show ((cfgL (F := Ideal)).win 3).index t (0 : Fin 2) * 1 + 1 * 0 = 0; rw [e0]
  | ⟨1, _⟩ => show ((cfgL (F := Ideal)).win 3).index t (1 : Fin 2) * 512 + 1 * q.val = 512 * cbN (F := Ideal) t + q.val; rw [e1]; omega

theorem iblk1_4 (p : Fin 512) : (iblk1 V c 4 t : S512x1.Idx → BitVec 32) (ValueIdx.ix2 p (0 : Fin 1))
    = (V c main_v5 : S4096x1.Idx → BitVec 32) (ValueIdx.ix2 ⟨512 * rbN (F := Ideal) t + p.val, by have := rbN_lt (F := Ideal) t; omega⟩ (0 : Fin 1)) := by
  obtain ⟨-, -, -, -, -, -, -, -, e0, e1, -⟩ := idx_facts1 t
  unfold iblk1
  rw [View.read_apply]
  show V c main_v5 _ = V c main_v5 _
  congr 1
  funext a; apply Fin.ext
  match a with
  | ⟨0, _⟩ => show ((cfgL (F := Ideal)).win 4).index t (0 : Fin 2) * 512 + 1 * p.val = 512 * rbN (F := Ideal) t + p.val; rw [e0]; omega
  | ⟨1, _⟩ => show ((cfgL (F := Ideal)).win 4).index t (1 : Fin 2) * 1 + 1 * 0 = 0; rw [e1]

theorem iblk1_5 (q : Fin 512) : (iblk1 V c 5 t : S1x512.Idx → BitVec 32) (ValueIdx.ix2 (0 : Fin 1) q)
    = (V c main_v6 : S1x4096.Idx → BitVec 32) (ValueIdx.ix2 (0 : Fin 1) ⟨512 * cbN (F := Ideal) t + q.val, by have := cbN_lt (F := Ideal) t; omega⟩) := by
  obtain ⟨-, -, -, -, -, -, -, -, -, -, e0, e1, -⟩ := idx_facts1 t
  unfold iblk1
  rw [View.read_apply]
  show V c main_v6 _ = V c main_v6 _
  congr 1
  funext a; apply Fin.ext
  match a with
  | ⟨0, _⟩ => show ((cfgL (F := Ideal)).win 5).index t (0 : Fin 2) * 1 + 1 * 0 = 0; rw [e0]
  | ⟨1, _⟩ => show ((cfgL (F := Ideal)).win 5).index t (1 : Fin 2) * 512 + 1 * q.val = 512 * cbN (F := Ideal) t + q.val; rw [e1]; omega

theorem iblk1_6 (p : Fin 512) : (iblk1 V c 6 t : S512x1.Idx → EReal) (ValueIdx.ix2 p (0 : Fin 1))
    = (V c main_v7 : S4096x1.Idx → EReal) (ValueIdx.ix2 ⟨512 * rbN (F := Ideal) t + p.val, by have := rbN_lt (F := Ideal) t; omega⟩ (0 : Fin 1)) := by
  obtain ⟨-, -, -, -, -, -, -, -, -, -, -, -, e0, e1, -⟩ := idx_facts1 t
  unfold iblk1
  rw [View.read_apply]
  show V c main_v7 _ = V c main_v7 _
  congr 1
  funext a; apply Fin.ext
  match a with
  | ⟨0, _⟩ => show ((cfgL (F := Ideal)).win 6).index t (0 : Fin 2) * 512 + 1 * p.val = 512 * rbN (F := Ideal) t + p.val; rw [e0]; omega
  | ⟨1, _⟩ => show ((cfgL (F := Ideal)).win 6).index t (1 : Fin 2) * 1 + 1 * 0 = 0; rw [e1]

theorem iblk1_7 (q : Fin 512) : (iblk1 V c 7 t : S1x512.Idx → EReal) (ValueIdx.ix2 (0 : Fin 1) q)
    = (V c main_v8 : S1x4096.Idx → EReal) (ValueIdx.ix2 (0 : Fin 1) ⟨512 * cbN (F := Ideal) t + q.val, by have := cbN_lt (F := Ideal) t; omega⟩) := by
  obtain ⟨-, -, -, -, -, -, -, -, -, -, -, -, -, -, e0, e1⟩ := idx_facts1 t
  unfold iblk1
  rw [View.read_apply]
  show V c main_v8 _ = V c main_v8 _
  congr 1
  funext a; apply Fin.ext
  match a with
  | ⟨0, _⟩ => show ((cfgL (F := Ideal)).win 7).index t (0 : Fin 2) * 1 + 1 * 0 = 0; rw [e0]
  | ⟨1, _⟩ => show ((cfgL (F := Ideal)).win 7).index t (1 : Fin 2) * 512 + 1 * q.val = 512 * cbN (F := Ideal) t + q.val; rw [e1]; omega

end Reads

end Cert.KernelIdeal.Hand

end
-- ==== Proof.KI.Val1Flush.lean ====
/-
  Region 1's output window at the literal tile tables: where its block sits (rows 512 rb … 512 rb + 511 of the row-loss
  array, rb the point's row block), at which points it is written back (where a row block's run of tiles ends, on column
  block 7), that every row block has such a point, and that a point whose accumulator block agrees row by row with an
  array G writes back its block of G.
-/
import proofs.«418922_j57629871178314_3_alg».proof.Proof.KI.R1Defs
import proofs.«418922_j57629871178314_3_alg».proof.Proof.KI.Val1Blocks
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

open Idealize.ShloMosaic.ValueIdx

/-! ## The output window's schedule at the literal tables -/

/-- The output window's block index at a point: its row block, column 0. -/
theorem idx8 (t : Fin (cfgL (F := Ideal)).N) :
    ((cfgL (F := Ideal)).win 8).index t (0 : Fin 2) = rbN (F := Ideal) t ∧ ((cfgL (F := Ideal)).win 8).index t (1 : Fin 2) = 0 :=
  ⟨rfl, rfl⟩

/-- Every point's row block is one of the 8. -/
theorem rb8_lt (t : Fin (cfgL (F := Ideal)).N) : rbN (F := Ideal) t < 8 :=
  (by decide +kernel : ∀ t : Fin grid1.N, rbN (F := Ideal) t < 8) t

/-- The output block is written back exactly where a run ends: on column block 7. -/
theorem flush8_iff (t : Fin (cfgL (F := Ideal)).N) : ((cfgL (F := Ideal)).win 8).flush t = true ↔ cbN (F := Ideal) t = 7 :=
  (by decide +kernel : ∀ t : Fin grid1.N, ((cfgL (F := Ideal)).win 8).flush t = true ↔ cbN (F := Ideal) t = 7) t

/-- Every row block's run has its last point. -/
theorem flush_point (P : ℕ) (hP : P < 8) : ∃ t : Fin (cfgL (F := Ideal)).N, cbN (F := Ideal) t = 7 ∧ rbN (F := Ideal) t = P :=
  (by decide +kernel : ∀ P : Fin 8, ∃ t : Fin grid1.N, cbN (F := Ideal) t = 7 ∧ rbN (F := Ideal) t = P.val) ⟨P, hP⟩

/-! ## What a point writes back, and where -/

/-- If after point t the output block's row p holds the array G at row 512 rbN t + p, for every p, then what t writes back
    is its block of G: the block sits at rows 512 rbN t … 512 rbN t + 511, column 0. -/
theorem flushed8_eq (V : Ent Ideal) (c : Dev nD) (G : S4096x1.Idx → EReal) (t : Fin (cfgL (F := Ideal)).N)
    (h : ∀ p : Fin 512, (outsAt1 V c t.val t.isLt : S512x1.Idx → EReal) (ValueIdx.ix2 p (0 : Fin 1))
      = G (ValueIdx.ix2 ⟨512 * rbN (F := Ideal) t + p.val, by have := rb8_lt t; omega⟩ (0 : Fin 1))) :
    (dat1 V c).flushed 8 t = (((cfgL (F := Ideal)).win 8).blk t).view.read (Elt Ideal) G := by
  obtain ⟨e0, e1⟩ := idx8 t
  show ((cfgL (F := Ideal)).win 8).cut ((cfgL (F := Ideal)).grid.coords t) ((dat1 V c).after 8 t) = _
  rw [after1_8]
  funext y
  obtain ⟨p, z, rfl⟩ : ∃ (a : Fin 512) (b : Fin 1), y = ix2 a b := ⟨y 0, y 1, eq_ix2 y⟩
  obtain rfl : z = 0 := Subsingleton.elim _ _
  rw [View.read_apply]
  refine (h p).trans ?_
  show G _ = G _
  congr 1
  funext a; apply Fin.ext
  match a with
  | ⟨0, _⟩ => show 512 * rbN (F := Ideal) t + p.val = ((cfgL (F := Ideal)).win 8).index t (0 : Fin 2) * 512 + 1 * p.val; rw [e0]; omega
  | ⟨1, _⟩ => show 0 = ((cfgL (F := Ideal)).win 8).index t (1 : Fin 2) * 1 + 1 * 0; rw [e1]

/-- Row r of the array lies in the block of a point that visits row block r / 512. -/
theorem mem_blk8 (t : Fin (cfgL (F := Ideal)).N) (r : Fin 4096) (h : r.val / 512 = rbN (F := Ideal) t) :
    (ValueIdx.ix2 r (0 : Fin 1) : S4096x1.Idx) ∈ (((cfgL (F := Ideal)).win 8).blk t).view.set := by
  obtain ⟨e0, e1⟩ := idx8 t
  show _ ∈ ((View.whole main_v9).slice (((cfgL (F := Ideal)).win 8).rect t)).set
  rw [View.set_slice_whole, Rect.mem_set_unit]
  intro a
  match a with
  | ⟨0, _⟩ =>
    show ((cfgL (F := Ideal)).win 8).index t (0 : Fin 2) * 512 ≤ r.val ∧ r.val < ((cfgL (F := Ideal)).win 8).index t (0 : Fin 2) * 512 + 512
    rw [e0]; omega
  | ⟨1, _⟩ =>
    show ((cfgL (F := Ideal)).win 8).index t (1 : Fin 2) * 1 ≤ 0 ∧ 0 < ((cfgL (F := Ideal)).win 8).index t (1 : Fin 2) * 1 + 1
    rw [e1]; omega

end Cert.KernelIdeal.Hand

end
-- ==== Proof.KI.Val1.lean ====
/-
  Region 1's result: once every write-back has landed, the output array holds at row r the sum over ALL 4096 columns of
  the positive-pair terms — the tiles of r's row block from the diagonal tile rightwards added in turn onto zero, the
  columns left of the diagonal tile contributing nothing since every term there is zero.
-/
import proofs.«418922_j57629871178314_3_alg».proof.Proof.Gen.KernelIdeal.Launch
import proofs.«418922_j57629871178314_3_alg».proof.Proof.Gen.KernelIdeal.Skeleton
import proofs.«418922_j57629871178314_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import proofs.«418922_j57629871178314_3_alg».proof.Proof.KI.R1Defs
import proofs.«418922_j57629871178314_3_alg».proof.Proof.KI.Spec
import proofs.«418922_j57629871178314_3_alg».proof.Proof.KI.SpecLemmas
import proofs.«418922_j57629871178314_3_alg».proof.Proof.KI.Val1Pay
import proofs.«418922_j57629871178314_3_alg».proof.Proof.KI.Val1Blocks
import proofs.«418922_j57629871178314_3_alg».proof.Proof.KI.Val1Reads
import proofs.«418922_j57629871178314_3_alg».proof.Proof.KI.Val1Flush
import Idealize.ShloMosaic.Lib.Pipeline.Value
import Idealize.ShloMosaic.Lib.ValueIdx
import Idealize.ShloMosaic.PureOps.Ideal.Laws
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## Row sums by column blocks -/

section Sums
variable (X : Fin 4096 → Fin 512 → EReal) (TG : Fin 4096 → BitVec 32) (RN : Fin 4096 → EReal)

/-- Row `r`'s terms against the 512 columns of column block `j`. -/
def tileSum (r : Fin 4096) (j : Fin 8) : EReal :=
  ∑ q : Fin 512, Cert.Spec.posvG X TG RN r ⟨512 * j.val + q.val, by have := j.isLt; have := q.isLt; omega⟩

/-- Row `r`'s terms against the column blocks up to `J`. -/
def upto (r : Fin 4096) (J : ℕ) : EReal := ∑ j : Fin 8, if j.val ≤ J then tileSum X TG RN r j else 0

/-- A column block wholly at or left of the row's own column contributes nothing. -/
theorem tileSum_eq_zero {r : Fin 4096} {j : Fin 8} (h : 512 * (j.val + 1) ≤ r.val + 1) : tileSum X TG RN r j = 0 := by
  unfold tileSum
  refine Finset.sum_eq_zero fun q _ => Cert.Spec.posvG_eq_zero_of_le X TG RN ?_
  rw [Fin.le_def]
  have := q.isLt
  show 512 * j.val + q.val ≤ r.val
  omega

/-- Up to the row's own column block the only contribution is that block's. -/
theorem upto_first (r : Fin 4096) (P : ℕ) (hP : P < 8) (hr : 512 * P ≤ r.val) :
    upto X TG RN r P = tileSum X TG RN r ⟨P, hP⟩ := by
  unfold upto
  rw [Finset.sum_eq_single (⟨P, hP⟩ : Fin 8)]
  · rw [if_pos (le_refl P)]
  · intro j _ hj
    by_cases hjP : j.val ≤ P
    · rw [if_pos hjP]
      have hne : j.val ≠ P := fun e => hj (Fin.ext e)
      exact tileSum_eq_zero X TG RN (by omega)
    · rw [if_neg hjP]
  · intro h; exact absurd (Finset.mem_univ _) h

/-- One more column block adds its contribution. -/
theorem upto_succ (r : Fin 4096) (J : ℕ) (hJ : J + 1 < 8) :
    upto X TG RN r (J + 1) = upto X TG RN r J + tileSum X TG RN r ⟨J + 1, hJ⟩ := by
  unfold upto
  have hsplit : ∀ j : Fin 8, (if j.val ≤ J + 1 then tileSum X TG RN r j else 0)
      = (if j.val ≤ J then tileSum X TG RN r j else 0) + (if j = (⟨J + 1, hJ⟩ : Fin 8) then tileSum X TG RN r j else 0) := by
    intro j
    by_cases h1 : j.val ≤ J
    · have hne : j ≠ (⟨J + 1, hJ⟩ : Fin 8) := fun e => by have := congrArg Fin.val e; simp only at this; omega
      rw [if_pos (by omega), if_pos h1, if_neg hne, add_zero]
    · by_cases h2 : j.val = J + 1
      · have he : j = (⟨J + 1, hJ⟩ : Fin 8) := Fin.ext h2
        rw [if_pos (by omega), if_neg h1, if_pos he, zero_add]
      · have hne : j ≠ (⟨J + 1, hJ⟩ : Fin 8) := fun e => h2 (congrArg Fin.val e)
        rw [if_neg (by omega), if_neg h1, if_neg hne, add_zero]
  rw [Finset.sum_congr rfl (fun j _ => hsplit j), Finset.sum_add_distrib, Finset.sum_ite_eq' Finset.univ (⟨J + 1, hJ⟩ : Fin 8),
    if_pos (Finset.mem_univ _)]

/-- The same, the next block named by an equation. -/
theorem upto_succ' (r : Fin 4096) (J J' : ℕ) (hJ' : J' < 8) (e : J' = J + 1) :
    upto X TG RN r J' = upto X TG RN r J + tileSum X TG RN r ⟨J', hJ'⟩ := by
  subst e; exact upto_succ X TG RN r J hJ'

/-- Up to the last column block it is the whole row sum. -/
theorem upto_all (r : Fin 4096) : upto X TG RN r 7 = Cert.Spec.rowLossG X TG RN r := by
  unfold upto Cert.Spec.rowLossG
  rw [Cert.Spec.sum_blocks8]
  refine Finset.sum_congr rfl fun j _ => ?_
  rw [if_pos (by have := j.isLt; omega)]
  rfl

end Sums

/-! ## One grid point, read off the arrays -/

/-- The zero block. -/
theorem pay2_zero (i : S512x1.Idx) : (k1_pay2 (F := Ideal) : S512x1.Idx → EReal) i = 0 := by
  show Ideal.ofBits .f32 0x00000000#32 = 0
  exact Ideal.ofBits_zero_f32

section Run
variable (V : Ent Ideal) (c : Dev nD) (X : Fin 4096 → Fin 512 → EReal) (TG : Fin 4096 → BitVec 32) (RN : Fin 4096 → EReal)
  (hx : ∀ (r : Fin 4096) (k : Fin 512), (V c main_v0 : S4096x512.Idx → EReal) (ix2 r k) = X r k)
  (hmc : ∀ r : Fin 4096, (V c main_v3 : S4096x1.Idx → EReal) (ix2 r 0) = Cert.Spec.mag X r)
  (hmr : ∀ r : Fin 4096, (V c main_v4 : S1x4096.Idx → EReal) (ix2 0 r) = Cert.Spec.mag X r)
  (htc : ∀ r : Fin 4096, (V c main_v5 : S4096x1.Idx → BitVec 32) (ix2 r 0) = TG r)
  (htr : ∀ r : Fin 4096, (V c main_v6 : S1x4096.Idx → BitVec 32) (ix2 0 r) = TG r)
  (hnc : ∀ r : Fin 4096, (V c main_v7 : S4096x1.Idx → EReal) (ix2 r 0) = RN r)
  (hnr : ∀ r : Fin 4096, (V c main_v8 : S1x4096.Idx → EReal) (ix2 0 r) = RN r)

/-- The global row of row `a` of point `t`'s row block. -/
abbrev rowOf (t : Fin (cfgL (F := Ideal)).N) (a : Fin 512) : Fin 4096 :=
  ⟨512 * rbN (F := Ideal) t + a.val, by have := rbN_lt (F := Ideal) t; have := a.isLt; omega⟩

include hx hmc hmr htc htr hnc hnr in
/-- One point adds, to row `a` of the accumulator, the row's terms against the point's column block. -/
theorem point_apply (t : Fin (cfgL (F := Ideal)).N) (acc : Vec Ideal S512x1 .f32) (a : Fin 512) :
    (step1 (F := Ideal) ((cfgL (F := Ideal)).grid.coords t) acc (iblk1 V c 0 t) (iblk1 V c 1 t) (iblk1 V c 2 t) (iblk1 V c 3 t)
        (iblk1 V c 4 t) (iblk1 V c 5 t) (iblk1 V c 6 t) (iblk1 V c 7 t) : S512x1.Idx → EReal) (ix2 a 0)
      = (acc : S512x1.Idx → EReal) (ix2 a 0) + tileSum X TG RN (rowOf t a) ⟨cbN (F := Ideal) t, cbN_lt (F := Ideal) t⟩ := by
  rw [step1_apply _ (rbN_lt (F := Ideal) t) (cbN_lt (F := Ideal) t)]
  refine congrArg (_ + ·) (Finset.sum_congr rfl fun q _ => ?_)
  rw [iblk1_4, iblk1_5, iblk1_6, iblk1_7, iblk1_2, iblk1_3, htc, htr, hnc, hnr, hmc, hmr]
  simp only [iblk1_0, iblk1_1, hx]
  unfold Cert.Spec.posvG Cert.Spec.dist Cert.Spec.sim
  exact Cert.Spec.posvOf_congr (and_congr Iff.rfl Iff.rfl) _ _ _

include hx hmc hmr htc htr hnc hnr in
/-- Along a run the accumulator's row `a` holds the row's terms against the column blocks visited so far: those from the
    row's own block (where the run starts, from zero) up to the point's column block. -/
theorem outsAt1_eq : ∀ (n : ℕ) (h : n < (cfgL (F := Ideal)).N) (a : Fin 512),
    (outsAt1 V c n h : S512x1.Idx → EReal) (ix2 a 0) = upto X TG RN (rowOf ⟨n, h⟩ a) (cbN (F := Ideal) ⟨n, h⟩)
  | 0, h, a => by
    have hcb : cbN (F := Ideal) ⟨0, h⟩ = rbN (F := Ideal) ⟨0, h⟩ := by
      by_cases hf : isFirst (F := Ideal) ((cfgL (F := Ideal)).grid.coords ⟨0, h⟩)
      · exact (isFirst_iff (F := Ideal) _).mp hf
      · exact absurd (not_first_prev (F := Ideal) _ hf).1 (lt_irrefl 0)
    show (step1 (F := Ideal) ((cfgL (F := Ideal)).grid.coords ⟨0, h⟩) (k1_pay2 (F := Ideal)) _ _ _ _ _ _ _ _ : S512x1.Idx → EReal) (ix2 a 0) = _
    rw [point_apply V c X TG RN hx hmc hmr htc htr hnc hnr, pay2_zero, zero_add]
    exact (upto_first X TG RN _ (cbN (F := Ideal) ⟨0, h⟩) (cbN_lt (F := Ideal) _)
      (by show 512 * cbN (F := Ideal) _ ≤ 512 * rbN (F := Ideal) _ + a.val; rw [hcb]; exact Nat.le_add_right _ _)).symm
  | n + 1, h, a => by
    show (step1 (F := Ideal) ((cfgL (F := Ideal)).grid.coords ⟨n + 1, h⟩)
      (if isFirst (F := Ideal) ((cfgL (F := Ideal)).grid.coords ⟨n + 1, h⟩) then k1_pay2 (F := Ideal) else outsAt1 V c n (Nat.lt_of_succ_lt h))
      _ _ _ _ _ _ _ _ : S512x1.Idx → EReal) (ix2 a 0) = _
    rw [point_apply V c X TG RN hx hmc hmr htc htr hnc hnr]
    by_cases hf : isFirst (F := Ideal) ((cfgL (F := Ideal)).grid.coords ⟨n + 1, h⟩)
    · rw [if_pos hf, pay2_zero, zero_add]
      exact (upto_first X TG RN _ (cbN (F := Ideal) ⟨n + 1, h⟩) (cbN_lt (F := Ideal) _)
        (by show 512 * cbN (F := Ideal) _ ≤ 512 * rbN (F := Ideal) _ + a.val; rw [(isFirst_iff (F := Ideal) _).mp hf]; exact Nat.le_add_right _ _)).symm
    · rw [if_neg hf]
      obtain ⟨-, hr, hc⟩ := not_first_prev (F := Ideal) _ hf
      have hr' : rbN (F := Ideal) ⟨n + 1, h⟩ = rbN (F := Ideal) ⟨n, Nat.lt_of_succ_lt h⟩ := hr
      have hc' : cbN (F := Ideal) ⟨n + 1, h⟩ = cbN (F := Ideal) ⟨n, Nat.lt_of_succ_lt h⟩ + 1 := hc
      have hrow : rowOf ⟨n + 1, h⟩ a = rowOf ⟨n, Nat.lt_of_succ_lt h⟩ a := Fin.ext (by show 512 * rbN (F := Ideal) _ + a.val = 512 * rbN (F := Ideal) _ + a.val; rw [hr'])
      rw [outsAt1_eq n (Nat.lt_of_succ_lt h) a, hrow]
      exact (upto_succ' X TG RN _ _ _ (cbN_lt (F := Ideal) _) hc').symm

include hx hmc hmr htc htr hnc hnr in
/-- The output array's row `r` after the run: the flushing point of `r`'s row block covers it and wrote the whole row sum. -/
theorem rowLoss_at (r : Fin 4096) :
    ((dat1 V c).arrAt 8 (cfgL (F := Ideal)).N : S4096x1.Idx → EReal) (ix2 r 0) = Cert.Spec.rowLossG X TG RN r := by
  obtain ⟨t, hc7, hrb⟩ := flush_point (r.val / 512) (by have := r.isLt; omega)
  have hG : ∀ t, ((cfgL (F := Ideal)).win 8).flush t = true →
      (dat1 V c).flushed 8 t = (((cfgL (F := Ideal)).win 8).blk t).view.read (Elt Ideal)
        (fun i : S4096x1.Idx => Cert.Spec.rowLossG X TG RN (i 0)) := by
    intro t hf
    refine flushed8_eq V c _ t fun p => ?_
    rw [outsAt1_eq V c X TG RN hx hmc hmr htc htr hnc hnr t.val t.isLt p, (flush8_iff t).mp hf, upto_all]
  exact (dat1 V c).arrAt_apply_of_mem 8 _ hG (cfgL (F := Ideal)).N t (ix2 r 0) t.isLt ((flush8_iff t).mpr hc7)
    (mem_blk8 t r hrb.symm)

end Run

/-- If the region finds the rows `X`, their squared norms, the labels `TG` and row sums `RN` (as a column and as a row)
    in its arrays, it leaves row `r`'s sum of positive-pair terms in the output array. -/
theorem rowLoss_arr (V : Ent Ideal) (c : Dev nD) (X : Fin 4096 → Fin 512 → EReal) (TG : Fin 4096 → BitVec 32) (RN : Fin 4096 → EReal)
    (hx : ∀ (r : Fin 4096) (k : Fin 512), (V c main_v0 : S4096x512.Idx → EReal) (ix2 r k) = X r k)
    (hmc : ∀ r : Fin 4096, (V c main_v3 : S4096x1.Idx → EReal) (ix2 r 0) = Cert.Spec.mag X r)
    (hmr : ∀ r : Fin 4096, (V c main_v4 : S1x4096.Idx → EReal) (ix2 0 r) = Cert.Spec.mag X r)
    (htc : ∀ r : Fin 4096, (V c main_v5 : S4096x1.Idx → BitVec 32) (ix2 r 0) = TG r)
    (htr : ∀ r : Fin 4096, (V c main_v6 : S1x4096.Idx → BitVec 32) (ix2 0 r) = TG r)
    (hnc : ∀ r : Fin 4096, (V c main_v7 : S4096x1.Idx → EReal) (ix2 r 0) = RN r)
    (hnr : ∀ r : Fin 4096, (V c main_v8 : S1x4096.Idx → EReal) (ix2 0 r) = RN r)
    (r : Fin 4096) :
    ((dat1 V c).arrAt 8 (cfgL (F := Ideal)).N : S4096x1.Idx → EReal) (ix2 r 0) = Cert.Spec.rowLossG X TG RN r := by
  exact rowLoss_at V c X TG RN hx hmc hmr htc htr hnc hnr r

end Cert.KernelIdeal.Hand

end
-- ==== Proof.KI.KernelValue.lean ====
/-
  The kernel program's result: the last stretch of host operations divides the total of region 1's row sums by the
  count of pairs; region 1's row sums are the spec's row losses over region 0's row sums, which are the spec's row sums
  of pair weights; so the returned scalar is the spec's loss of the launched rows and labels.
-/
import proofs.«418922_j57629871178314_3_alg».proof.Proof.Gen.KernelIdeal.Launch
import proofs.«418922_j57629871178314_3_alg».proof.Proof.Gen.KernelIdeal.Skeleton
import proofs.«418922_j57629871178314_3_alg».proof.Proof.Gen.KernelIdeal.Points
import proofs.«418922_j57629871178314_3_alg».proof.Proof.Gen.KernelIdeal.Regions
import Idealize.ShloMosaic.Lib.Pipeline.FrameBody
import Idealize.ShloMosaic.Lib.Pipeline.Frame
import Idealize.ShloMosaic.Lib.Ring
import Idealize.ShloMosaic.Lib.Tactic
import proofs.«418922_j57629871178314_3_alg».proof.Proof.KI.R0Defs
import proofs.«418922_j57629871178314_3_alg».proof.Proof.KI.R1Defs
import proofs.«418922_j57629871178314_3_alg».proof.Proof.KI.Spec
import proofs.«418922_j57629871178314_3_alg».proof.Proof.KI.Fold
import proofs.«418922_j57629871178314_3_alg».proof.Proof.KI.HostLemmas
import proofs.«418922_j57629871178314_3_alg».proof.Proof.KI.Val0
import proofs.«418922_j57629871178314_3_alg».proof.Proof.KI.Val1
import proofs.«418922_j57629871178314_3_alg».proof.Proof.KI.HostVals
import Idealize.ShloMosaic.Lib.Pipeline.Value
import Idealize.ShloMosaic.Lib.ValueIdx
import Idealize.ShloMosaic.PureOps.Ideal.Laws
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (c : Dev nD)

/-- Region 0 leaves the spec's row sums of pair weights of the launched rows and labels in its output array. -/
theorem rowNeg_out (r : Fin 4096) :
    ((dat0 (V1 m) c).arrAt 6 cfg0.N : S4096x1.Idx → EReal) (ix2 r 0)
      = Cert.Spec.rowNeg (rowsOf m c) (labelsOf m c) r :=
  rowNeg_arr (V1 m) c (rowsOf m c) (labelsOf m c) (V1_v0 m c) (V1_v3 m c) (V1_v4 m c) (V1_v5 m c) (V1_v6 m c) r

/-- Region 1 leaves the spec's row losses over those row sums in its output array. -/
theorem rowLoss_out (r : Fin 4096) :
    ((dat1 (V3 m) c).arrAt 8 (cfgL (F := Ideal)).N : S4096x1.Idx → EReal) (ix2 r 0)
      = Cert.Spec.rowLossG (rowsOf m c) (labelsOf m c) (Cert.Spec.rowNeg (rowsOf m c) (labelsOf m c)) r :=
  rowLoss_arr (V3 m) c (rowsOf m c) (labelsOf m c) (Cert.Spec.rowNeg (rowsOf m c) (labelsOf m c))
    (V3_v0 m c) (V3_v3 m c) (V3_v4 m c) (V3_v5 m c) (V3_v6 m c)
    (fun r' => (congrFun (V3_v7 m c) (ix2 r' 0)).trans (rowNeg_out m c r'))
    (fun r' => (V3_v8 m c r').trans (rowNeg_out m c r')) r

/-- The scalar the kernel program returns is the spec's loss of the launched rows and labels: the total of the row
    losses divided by the count of pairs. -/
theorem kernel_value :
    (W5 (F := Ideal) m c (Proc.devRef .tc main_v20) : S_.Idx → EReal)
      = fun _ => Cert.Spec.result (rowsOf m c) (labelsOf m c) := by
  rw [W5_v20, tailFn_eq]
  funext _
  unfold Cert.Spec.result Cert.Spec.loss
  exact congrArg (fun s => Ideal.div s (((Cert.Spec.cnt (labelsOf m c)).toInt : ℝ) : EReal))
    (Finset.sum_congr rfl fun r _ => rowLoss_out m c r)

end Cert.KernelIdeal.Hand

end
-- ==== Proof.K.R0Defs.lean ====
/-
  Region 0 (the row sums of the negative-pair weights): the data the pipeline rule is applied at.
  The contents of the TensorCore's buffers when the region is entered are a parameter `V`.
  Each grid point (i, j) adds, into the 512 x 1 block of rows i, the sum over the 2048 columns of block j of
  exp(1 - dist) over the pairs of different label and non-zero distance; the block starts from zero at j = 0.
-/
import proofs.«418922_j57629871178314_3_alg».proof.Proof.Gen.Kernel.Launch
import proofs.«418922_j57629871178314_3_alg».proof.Proof.Gen.Kernel.Skeleton
import proofs.«418922_j57629871178314_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The TensorCore's buffer contents at a region's entry. -/
abbrev Ent (F : FTy → Type) [FloatOps F] := (c : Dev nD) → (b : Ref sig .tc) → Buf (Elt F) ((c : Thread nD τ).loc b)

variable (V : Ent F)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the accumulator block: `acc` plus the row sums of the selected exponentials of the
    point's input blocks (rows block, columns block, the two norm blocks, the two label blocks). -/
def step0 (acc : Vec F S512x1 .f32) (x0 : Vec F S512x512 .bf16) (x1 : Vec F S2048x512 .bf16) (x2 : Vec F S512x1 .f32)
    (x3 : Vec F S1x2048 .f32) (x4 : Vec F S512x1 .i32) (x5 : Vec F S1x2048 .i32) : Vec F S512x1 .f32 :=
  k0_pay1 (k0_pay4 x0 x1 x2 x3 x4 x5) (k0_pay5 x0 x1 x2 x3) (k0_pay6 (F := F)) acc

/-- What the output block's staging buffer holds after the body at position `n`: the step over zero at an even
    position (the first column block of a row block), over what the position before left at an odd one. -/
def outsAt0 (c : Dev nD) : (n : ℕ) → n < cfg0.N → Vec F S512x1 .f32
  | 0, hn => step0 (k0_pay2 (F := F)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn => step0 (if (n + 1) % 2 = 0 then k0_pay2 (F := F) else outsAt0 c n (Nat.lt_of_succ_lt hn))
      (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)

/-- The proof data of pipeline 0 on core `c`: the arrays as the region finds them; after the body each input's buffer at
    its block and the output's at `outsAt0`; the invariant the scoped rest and the generator register; nothing owed;
    the two windows on the one bf16 array hold a half of it each, every other window its array whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outsAt0 V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = outsAt0 V c t.val t.isLt := by dsimp only [dat0]

end Cert.Kernel.Hand

end
-- ==== Proof.K.R1Defs.lean ====
/-
  Region 1 (the per-row sums of the squared positive-pair terms over the upper-triangle tiles): the data the
  pipeline rule is applied at. The tile tables (row block, column block, first-visit flag per grid point) are
  literals of the program; the pipeline is pinned at those contents. Each grid point adds, into the 512 x 1
  block of its row block, the row sums over its 512 columns of relu(log(neg_i + neg_j) + dist)^2 on the pairs of
  equal label strictly above the diagonal; the block starts from zero where the first-visit flag is set.
-/
import proofs.«418922_j57629871178314_3_alg».proof.Proof.Gen.Kernel.Launch
import proofs.«418922_j57629871178314_3_alg».proof.Proof.Gen.Kernel.Skeleton
import proofs.«418922_j57629871178314_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import Idealize.ShloMosaic.PureOps.BitExact
import proofs.«418922_j57629871178314_3_alg».proof.Proof.K.R0Defs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The three tile tables' contents: the program's literals. -/
def tblLit : pre1.Contents (Elt F) := fun
  | 0 => fun i => lit0 (S2x18.rowMajor i)
  | 1 => fun i => lit1 (S2x18.rowMajor i)
  | 2 => fun i => lit2 (S2x18.rowMajor i)
  | ⟨_ + 3, h⟩ => absurd h (Nat.not_lt.2 (Nat.le_add_left _ _))

/-- At the literal tables every table-indexed block lies inside its array (row and column blocks are below 8). -/
theorem ok1_lit : ok1 (F := F) (tblLit (F := F)) := by
  -- the condition reads the tables' words only, the same 32-bit integers at every float type: decided at bit patterns
  exact (by decide +kernel : ok1 (F := Bits) (tblLit (F := Bits)))

/-- The pipeline's admissible table contents: the literals. -/
def adm1 : (pcfg1 (F := F)).Adm := ⟨tblLit, ok1_lit⟩

/-- Pipeline 1 pinned at the literal tables. -/
abbrev cfgL : Pipeline.Cfg sig Λ₀ := cfg1 (F := F) adm1

variable (V : Ent F)

/-- Window `w`'s block at point `t`, read off its array as the region finds it. -/
def iblk1 (c : Dev nD) (w : Fin (cfgL (F := F)).W) (t : Fin (cfgL (F := F)).N) :
    (((cfgL (F := F)).win w).xblock ((cfgL (F := F)).grid.coords t)).Idx → Elt F ((cfgL (F := F)).win w).elt :=
  (((cfgL (F := F)).win w).blk t).view.read (Elt F) (V c (Pipeline.arrRef spec1 w))

/-- The table words the body reads at a grid point: the first-visit flag, the row block, the column block. -/
def firstW (i : grid1.Coords) : BitVec 32 :=
  (tblLit (F := F)).at 2 (Rect.unit (s := S2x18) (k1_off1 i) S1x1.size (Facts₀.k1_off1_inb i)) Facts₀.numel1_S1x1
def rbW (i : grid1.Coords) : BitVec 32 :=
  (tblLit (F := F)).at 0 (Rect.unit (s := S2x18) (k1_off2 i) S1x1.size (Facts₀.k1_off2_inb i)) Facts₀.numel1_S1x1
def cbW (i : grid1.Coords) : BitVec 32 :=
  (tblLit (F := F)).at 1 (Rect.unit (s := S2x18) (k1_off2 i) S1x1.size (Facts₀.k1_off2_inb i)) Facts₀.numel1_S1x1

/-- The body's branch condition at a grid point: the first-visit flag is 1. -/
abbrev isFirst (i : grid1.Coords) : Prop :=
  Scalar.cmpi .ne (Scalar.extui (Scalar.cmpi .eq (firstW (F := F) i) 1#32)) 0#32 = 1#1

/-- One point's update of the accumulator block. -/
def step1 (i : grid1.Coords) (acc : Vec F S512x1 .f32) (x0 : Vec F S512x512 .bf16) (x1 : Vec F S512x512 .bf16) (x2 : Vec F S512x1 .f32)
    (x3 : Vec F S1x512 .f32) (x4 : Vec F S512x1 .i32) (x5 : Vec F S1x512 .i32) (x6 : Vec F S512x1 .f32) (x7 : Vec F S1x512 .f32) : Vec F S512x1 .f32 :=
  k1_pay1 (k1_pay3 x0 x1 x2 x3) (k1_pay4 (F := F) x4 x5) (cbW (F := F) i) (Scalar.muli (rbW (F := F) i) 512#32)
    (iota .tc S512x512 32 [0] Facts₀.iota_S512x512_d0_w32) x6 x7 acc

/-- What the output block's staging buffer holds after the body at position `n`: the step over zero where the
    first-visit flag is set, over what the position before left elsewhere. -/
def outsAt1 (c : Dev nD) : (n : ℕ) → n < (cfgL (F := F)).N → Vec F S512x1 .f32
  | 0, hn => step1 ((cfgL (F := F)).grid.coords ⟨0, hn⟩) (k1_pay2 (F := F)) (iblk1 V c 0 ⟨0, hn⟩) (iblk1 V c 1 ⟨0, hn⟩) (iblk1 V c 2 ⟨0, hn⟩) (iblk1 V c 3 ⟨0, hn⟩)
      (iblk1 V c 4 ⟨0, hn⟩) (iblk1 V c 5 ⟨0, hn⟩) (iblk1 V c 6 ⟨0, hn⟩) (iblk1 V c 7 ⟨0, hn⟩)
  | n + 1, hn => step1 ((cfgL (F := F)).grid.coords ⟨n + 1, hn⟩)
      (if isFirst (F := F) ((cfgL (F := F)).grid.coords ⟨n + 1, hn⟩) then k1_pay2 (F := F) else outsAt1 c n (Nat.lt_of_succ_lt hn))
      (iblk1 V c 0 ⟨n + 1, hn⟩) (iblk1 V c 1 ⟨n + 1, hn⟩) (iblk1 V c 2 ⟨n + 1, hn⟩) (iblk1 V c 3 ⟨n + 1, hn⟩)
      (iblk1 V c 4 ⟨n + 1, hn⟩) (iblk1 V c 5 ⟨n + 1, hn⟩) (iblk1 V c 6 ⟨n + 1, hn⟩) (iblk1 V c 7 ⟨n + 1, hn⟩)

/-- The proof data of pipeline 1 on core `c`. The invariant also holds the tables' halves the body loads from. -/
def dat1 (c : Dev nD) : Dat τ (Elt F) Unit ℕ (UR sig nD τ) ℕ (cfgL (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outsAt1 V c t.val t.isLt
  Φ _ := iprop(Pipeline.ΦA spec1 c ∗ Pipeline.ΦT pre1 (tblLit (F := F)) c)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq1 (c : Dev nD) (w : Fin (cfgL (F := F)).W) : (dat1 V c).A w = V c (Pipeline.arrRef spec1 w) := by
  dsimp only [dat1]

theorem after1_in (c : Dev nD) (t : Fin (cfgL (F := F)).N) :
    (dat1 V c).after 0 t = iblk1 V c 0 t ∧ (dat1 V c).after 1 t = iblk1 V c 1 t ∧ (dat1 V c).after 2 t = iblk1 V c 2 t
    ∧ (dat1 V c).after 3 t = iblk1 V c 3 t ∧ (dat1 V c).after 4 t = iblk1 V c 4 t ∧ (dat1 V c).after 5 t = iblk1 V c 5 t
    ∧ (dat1 V c).after 6 t = iblk1 V c 6 t ∧ (dat1 V c).after 7 t = iblk1 V c 7 t := by
  dsimp only [dat1]; exact ⟨rfl, rfl, rfl, rfl, rfl, rfl, rfl, rfl⟩
theorem after1_8 (c : Dev nD) (t : Fin (cfgL (F := F)).N) : (dat1 V c).after 8 t = outsAt1 V c t.val t.isLt := by dsimp only [dat1]; rfl

end Cert.Kernel.Hand

end
-- ==== Proof.K.Fold.lean ====
/-
  The contents of the TensorCore's unscoped buffers at every boundary between a stretch of host operations and a
  kernel region, folded from the launch memory: a stretch rewrites the buffers its operations write, a region
  leaves its output array at what the write-backs of all its points make of it and every other buffer as it was.
-/
import proofs.«418922_j57629871178314_3_alg».proof.Proof.Gen.Kernel.Launch
import proofs.«418922_j57629871178314_3_alg».proof.Proof.Gen.Kernel.Skeleton
import proofs.«418922_j57629871178314_3_alg».proof.Proof.Gen.Kernel.Points
import proofs.«418922_j57629871178314_3_alg».proof.Proof.Gen.Kernel.Regions
import Idealize.ShloMosaic.Lib.Pipeline.FrameBody
import Idealize.ShloMosaic.Lib.Pipeline.Frame
import Idealize.ShloMosaic.Lib.Ring
import Idealize.ShloMosaic.Lib.Tactic
import proofs.«418922_j57629871178314_3_alg».proof.Proof.K.R0Defs
import proofs.«418922_j57629871178314_3_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through the program -/

/-- Core `c`'s buffers at launch. -/
abbrev W0 : Dev nD → Valuation τ sig (Elt F) := fun c b => m (c, b)
/-- After the first stretch of host operations (region 0's entry). -/
abbrev W1 : Dev nD → Valuation τ sig (Elt F) := fun c => StableHlo.after hostOps0 (W0 m c)
/-- The same read at the TensorCore's references. -/
abbrev V1 : Ent F := fun c b => W1 m c b
/-- At region 0's exit: its output array at what the write-backs of all its points leave, every other buffer as entered. -/
def W2 (c : Dev nD) : Valuation τ sig (Elt F) :=
  Function.update (W1 m c) (Proc.devRef .tc main_v7) ((dat0 (V1 m) c).arrAt 6 cfg0.N)
abbrev V2 : Ent F := fun c b => W2 m c b
/-- After the second stretch (region 1's entry). -/
abbrev W3 : Dev nD → Valuation τ sig (Elt F) := fun c => StableHlo.after hostOps1 (W2 m c)
abbrev V3 : Ent F := fun c b => W3 m c b
/-- At region 1's exit: its output array at what the write-backs of all its points leave, every other buffer as entered. -/
def W4 (c : Dev nD) : Valuation τ sig (Elt F) :=
  Function.update (W3 m c) (Proc.devRef .tc main_v9) ((dat1 (V3 m) c).arrAt 8 (cfgL (F := F)).N)
abbrev V4 : Ent F := fun c b => W4 m c b
/-- After the last stretch: the contents the program returns with. -/
abbrev W5 : Dev nD → Valuation τ sig (Elt F) := fun c => StableHlo.after hostOps2 (W4 m c)

theorem W1_eq (c : Dev nD) : W1 m c = StableHlo.after hostOps0 (W0 m c) := rfl
theorem W3_eq (c : Dev nD) : W3 m c = StableHlo.after hostOps1 (W2 m c) := rfl
theorem W5_eq (c : Dev nD) : W5 m c = StableHlo.after hostOps2 (W4 m c) := rfl

/-- Region 0's output array at its exit. -/
theorem W2_arr (c : Dev nD) : W2 m c (Proc.devRef .tc main_v7) = (dat0 (V1 m) c).arrAt 6 cfg0.N := by
  unfold W2; exact Function.update_self ..
/-- Every other buffer is as region 0 found it. -/
theorem W2_of_ne (c : Dev nD) (r : Ref sig .tc) (h : r ≠ main_v7) : W2 m c (Proc.devRef .tc r) = W1 m c (Proc.devRef .tc r) := by
  unfold W2; exact Function.update_of_ne (StableHlo.devRef_ne_of_ne h) ..
/-- Region 1's output array at its exit. -/
theorem W4_arr (c : Dev nD) : W4 m c (Proc.devRef .tc main_v9) = (dat1 (V3 m) c).arrAt 8 (cfgL (F := F)).N := by
  unfold W4; exact Function.update_self ..
/-- Every other buffer is as region 1 found it. -/
theorem W4_of_ne (c : Dev nD) (r : Ref sig .tc) (h : r ≠ main_v9) : W4 m c (Proc.devRef .tc r) = W3 m c (Proc.devRef .tc r) := by
  unfold W4; exact Function.update_of_ne (StableHlo.devRef_ne_of_ne h) ..

/-- A buffer no operation of the first stretch writes is as launched. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h

/-- The arguments end as launched: no host operation writes one and no region has one as its output. -/
theorem W5_main_arg0 (c : Dev nD) : W5 m c (Proc.devRef .tc main_arg0) = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_of m c main_arg0 (by decide)).trans rfl
theorem W5_main_arg1 (c : Dev nD) : W5 m c (Proc.devRef .tc main_arg1) = m ((c : Thread nD τ).loc main_arg1) :=
  (W5_of m c main_arg1 (by decide)).trans <| (W4_of_ne m c main_arg1 (by decide)).trans <| (W3_of m c main_arg1 (by decide)).trans <|
    (W2_of_ne m c main_arg1 (by decide)).trans <| (W1_of m c main_arg1 (by decide)).trans rfl

end Cert.Kernel.Hand

end
-- ==== Proof.Ref.Imports.lean ====
import proofs.«418922_j57629871178314_3_alg».proof.Proof.Gen.ReferenceIdeal.Run
import proofs.«418922_j57629871178314_3_alg».proof.Proof.Gen.ReferenceIdeal.Read
-- ==== Proof.Ref.RefValue.lean ====
/-
  The reference's result is the loss of Spec: its distance guarded against the square root's derivative at zero is the
  plain square root of the clamped squared distance; its count of positive pairs, the equal-label pairs off the diagonal,
  is all equal-label pairs less the 4096 diagonal ones.
-/
import proofs.«418922_j57629871178314_3_alg».proof.Proof.Ref.Imports
import proofs.«418922_j57629871178314_3_alg».proof.Proof.KI.Spec
import proofs.«418922_j57629871178314_3_alg».proof.Proof.KI.SpecLemmas
import Idealize.ShloMosaic.Lib.ValueIdx
import Idealize.ShloMosaic.Lib.StableHlo.Predicate
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The argument array as a family of rows. -/
abbrev rowsOf (x0 : (⟨S4096x512, .f32⟩ : BufTy).Contents (Elt Ideal)) : Fin 4096 → Fin 512 → EReal := fun r k => x0 (ix2 r k)
/-- The label array as a family of words. -/
abbrev labsOf (x1 : (⟨S4096, .i32⟩ : BufTy).Contents (Elt Ideal)) : Fin 4096 → BitVec 32 := fun r => x1 (ix1 r)

theorem idx_v1 (r : Fin 4096) (k : Fin 512) : idx_main_v1 (ix1 r) k = ix2 r k :=
  funext fun a => Fin.ext (by match a with | ⟨0, _⟩ => rfl | ⟨1, _⟩ => rfl)

/-- The squared norms: the row sum of the squares from the zero word. -/
theorem mag_at (x0 : (⟨S4096x512, .f32⟩ : BufTy).Contents (Elt Ideal)) (r : Fin 4096) :
    val_main_v1 (F := Ideal) x0 (ix1 r) = Cert.Spec.mag (rowsOf x0) r := by
  rw [val_main_v1_apply, val_main_cst_apply]
  simp only [val_main_v0_apply, idx_v1, Ideal.ofBits_def, Ideal.ofBits_zero_f32, zero_add, Ideal.mulf_def, Cert.Spec.mag]

theorem idx_v3 (r c : Fin 4096) (k : Fin 512) : lidx_main_v3 (ix2 r c) k = ix2 r k :=
  funext fun a => Fin.ext (by match a with | ⟨0, _⟩ => rfl | ⟨1, _⟩ => rfl)
theorem idx_v2 (r c : Fin 4096) (k : Fin 512) : idx_main_v2 (ridx_main_v3 (ix2 r c) k) = ix2 c k :=
  funext fun a => Fin.ext (by match a with | ⟨0, _⟩ => rfl | ⟨1, _⟩ => rfl)

/-- The inner products: the contraction of the array with its transpose. -/
theorem sim_at (x0 : (⟨S4096x512, .f32⟩ : BufTy).Contents (Elt Ideal)) (r c : Fin 4096) :
    val_main_v3 (F := Ideal) x0 (ix2 r c) = Cert.Spec.sim (rowsOf x0) r c := by
  rw [val_main_v3_apply]
  simp only [val_main_v2_apply, idx_v3, idx_v2, Cert.Spec.sim]

theorem idx_v6 (r c : Fin 4096) : idx_main_v4 (idx_main_v6 (ix2 r c)) = ix1 r :=
  funext fun a => Fin.ext (by match a with | ⟨0, _⟩ => rfl)
theorem idx_v7 (r c : Fin 4096) : idx_main_v5 (idx_main_v7 (ix2 r c)) = ix1 c :=
  funext fun a => Fin.ext (by match a with | ⟨0, _⟩ => rfl)

/-- The clamped squared distances. -/
theorem dsq_at (x0 : (⟨S4096x512, .f32⟩ : BufTy).Contents (Elt Ideal)) (r c : Fin 4096) :
    val_main_v12 (F := Ideal) x0 (ix2 r c)
      = Cert.Spec.dsqOf (Cert.Spec.mag (rowsOf x0) r) (Cert.Spec.mag (rowsOf x0) c) (Cert.Spec.sim (rowsOf x0) r c) := by
  rw [val_main_v12_apply, val_main_v11_apply, val_main_v8_apply, val_main_v6_apply, val_main_v4_apply, val_main_v7_apply,
    val_main_v5_apply, val_main_v10_apply, val_main_v9_apply, val_main_cst_0_apply, val_main_call0_v0_apply,
    val_main_call0_cst_apply, idx_v6, idx_v7, mag_at, mag_at, sim_at]
  simp only [Ideal.maximumf_def, Ideal.subf_def, Ideal.addf_def, Ideal.mulf_def, Ideal.ofBits_def, Ideal.ofBits_zero_f32,
    Cert.Spec.dsqOf]

/-- A select on "greater than" is the `if` on the order. -/
theorem select_ogt {α : Type} (x y : EReal) (a b : α) :
    Scalar.select (Ideal.cmp .ogt x y) a b = if y < x then a else b := by
  unfold Scalar.select
  exact if_congr (Cert.Spec.cmp_ogt_iff x y) rfl rfl

/-- The distances: the root taken only where the clamped square is positive, zero elsewhere, is the root. -/
theorem dist_at (x0 : (⟨S4096x512, .f32⟩ : BufTy).Contents (Elt Ideal)) (r c : Fin 4096) :
    val_main_v19 (F := Ideal) x0 (ix2 r c) = Cert.Spec.dist (rowsOf x0) r c := by
  rw [val_main_v19_apply, val_main_v14_apply, val_main_v18_apply, val_main_v17_apply, val_main_v16_apply,
    val_main_v13_apply, val_main_v15_apply, val_main_cst_1_apply, val_main_cst_2_apply, val_main_call1_v1_apply,
    val_main_call1_v0_apply, val_main_cst_3_apply, val_main_call2_v1_apply, val_main_call2_v0_apply, val_main_cst_4_apply,
    dsq_at]
  simp only [Ideal.cmpf_def, Ideal.hostUnary_sqrt_def, Ideal.ofBits_def, Ideal.ofBits_zero_f32, select_ogt]
  unfold Cert.Spec.dist Cert.Spec.distOf Cert.Spec.dsqOf
  exact Cert.Spec.sqrt_guard _

/-! ### One-bit words as propositions -/

/-- A select on a bit that is set exactly when `P` holds is the `if` on `P`. -/
theorem select_of_iff {α : Type} {b : BitVec 1} {P : Prop} [Decidable P] (h : b = 1#1 ↔ P) (x y : α) :
    Scalar.select b x y = if P then x else y := by
  unfold Scalar.select
  exact if_congr h rfl rfl

/-- The conjunction of two bits is set exactly when both are. -/
theorem andi_one_iff (p q : BitVec 1) : IntOp.andi p q = 1#1 ↔ p = 1#1 ∧ q = 1#1 := by
  rcases BitVec.eq_zero_or_eq_one p with h | h <;> rcases BitVec.eq_zero_or_eq_one q with h' | h' <;>
    subst h <;> subst h' <;> decide

/-- The complement of a bit is set exactly when the bit is not. -/
theorem not_one_iff (p : BitVec 1) : ~~~p = 1#1 ↔ ¬ p = 1#1 := by
  rcases BitVec.eq_zero_or_eq_one p with h | h <;> subst h <;> decide

/-- A bit widened to 32 bits is the indicator word. -/
theorem setWidth_bit (p : BitVec 1) : p.setWidth 32 = if p = 1#1 then 1#32 else 0#32 := by
  rcases BitVec.eq_zero_or_eq_one p with h | h <;> subst h <;> decide

/-! ### The labels' comparison -/

theorem idx_v22 (r c : Fin 4096) : idx_main_v20 (idx_main_v22 (ix2 r c)) = ix1 r :=
  funext fun a => Fin.ext (by match a with | ⟨0, _⟩ => rfl)
theorem idx_v23 (r c : Fin 4096) : idx_main_v21 (idx_main_v23 (ix2 r c)) = ix1 c :=
  funext fun a => Fin.ext (by match a with | ⟨0, _⟩ => rfl)

/-- The equal-label bit of a pair. -/
theorem same_at (x1 : (⟨S4096, .i32⟩ : BufTy).Contents (Elt Ideal)) (r c : Fin 4096) :
    val_main_v24 (F := Ideal) x1 (ix2 r c) = 1#1 ↔ labsOf x1 r = labsOf x1 c := by
  rw [val_main_v24_apply, val_main_v22_apply, val_main_v20_apply, val_main_v23_apply, val_main_v21_apply, idx_v22, idx_v23]
  exact StableHlo.Predicate.cmpi_eq_iff

/-! ### The row sums of weights -/

/-- The weight of a pair: selected where the labels differ and the distance is not zero. -/
theorem negw_at (x0 : (⟨S4096x512, .f32⟩ : BufTy).Contents (Elt Ideal)) (x1 : (⟨S4096, .i32⟩ : BufTy).Contents (Elt Ideal))
    (r c : Fin 4096) :
    val_main_v39 (F := Ideal) x0 x1 (ix2 r c) = Cert.Spec.negw (rowsOf x0) (labsOf x1) r c := by
  rw [val_main_v39_apply, val_main_v35_apply, val_main_v32_apply, val_main_v34_apply, val_main_v33_apply,
    val_main_cst_5_apply, val_main_v38_apply, val_main_v37_apply, val_main_v36_apply, val_main_cst_6_apply,
    val_main_call3_v1_apply, val_main_call3_v0_apply, val_main_cst_7_apply, dist_at, Ideal.cmpf_def]
  rw [select_of_iff ((andi_one_iff _ _).trans (and_congr ((not_one_iff _).trans (not_congr (same_at x1 r c)))
    (Cert.Spec.cmp_une_iff _ _)))]
  simp only [Ideal.hostUnary_exp_def, Ideal.subf_def, Ideal.ofBits_def, Ideal.ofBits_zero_f32, Cert.Spec.negw,
    Cert.Spec.negwOf]

theorem idx_v40 (r : Fin 4096) (k : Fin 4096) : idx_main_v40 (ix1 r) k = ix2 r k :=
  funext fun a => Fin.ext (by match a with | ⟨0, _⟩ => rfl | ⟨1, _⟩ => rfl)

/-- The row sums of weights, from the zero word. -/
theorem rowNeg_at (x0 : (⟨S4096x512, .f32⟩ : BufTy).Contents (Elt Ideal)) (x1 : (⟨S4096, .i32⟩ : BufTy).Contents (Elt Ideal))
    (r : Fin 4096) :
    val_main_v40 (F := Ideal) x0 x1 (ix1 r) = Cert.Spec.rowNeg (rowsOf x0) (labsOf x1) r := by
  rw [val_main_v40_apply, val_main_cst_8_apply]
  simp only [idx_v40, negw_at, Ideal.ofBits_def, Ideal.ofBits_zero_f32, zero_add, Cert.Spec.rowNeg]

/-! ### The row and column numbers -/

/-- Row and column numbers below 4096 are equal as 32-bit words exactly when they are equal. -/
theorem ofNat_eq_iff (r c : Fin 4096) : BitVec.ofNat 32 r.val = BitVec.ofNat 32 c.val ↔ r = c := by
  constructor
  · intro h
    have := congrArg BitVec.toNat h
    simp only [BitVec.toNat_ofNat] at this
    exact Fin.ext (by have := r.isLt; have := c.isLt; omega)
  · rintro rfl; rfl

theorem toNat_ofNat_small (r : Fin 4096) : (BitVec.ofNat 32 r.val).toNat = r.val := by
  rw [BitVec.toNat_ofNat]; have := r.isLt; omega

/-- The diagonal bit of a pair: the two number arrays compared. -/
theorem eye_at (r c : Fin 4096) : val_main_v29 (F := Ideal) (ix2 r c) = 1#1 ↔ r = c := by
  rw [val_main_v29_apply, val_main_v28_apply, val_main_v25_apply, val_main_v26_apply, val_main_v27_apply, val_main_c_apply]
  rw [StableHlo.Predicate.cmpi_eq_iff]
  show BitVec.ofNat 32 r.val + 0#32 = BitVec.ofNat 32 c.val ↔ r = c
  rw [BitVec.add_zero]
  exact ofNat_eq_iff r c

/-- The off-diagonal equal-label bit of a pair. -/
theorem pos_at (x1 : (⟨S4096, .i32⟩ : BufTy).Contents (Elt Ideal)) (r c : Fin 4096) :
    val_main_v31 (F := Ideal) x1 (ix2 r c) = 1#1 ↔ labsOf x1 r = labsOf x1 c ∧ r ≠ c := by
  rw [val_main_v31_apply, val_main_v30_apply]
  exact (andi_one_iff _ _).trans (and_congr (same_at x1 r c) ((not_one_iff _).trans (not_congr (eye_at r c))))

theorem idx_v51 (r c : Fin 4096) : idx_main_v49 (idx_main_v51 (ix2 r c)) = ix1 r :=
  funext fun a => Fin.ext (by match a with | ⟨0, _⟩ => rfl)
theorem idx_v52 (r c : Fin 4096) : idx_main_v50 (idx_main_v52 (ix2 r c)) = ix1 c :=
  funext fun a => Fin.ext (by match a with | ⟨0, _⟩ => rfl)

/-- The above-the-diagonal bit of a pair: the numbers are below 2^31, so the signed order is the order. -/
theorem lt_at (r c : Fin 4096) : val_main_v53 (F := Ideal) (ix2 r c) = 1#1 ↔ r < c := by
  rw [val_main_v53_apply, val_main_v51_apply, val_main_v49_apply, val_main_v52_apply, val_main_v50_apply, idx_v51, idx_v52,
    val_main_v48_apply, val_main_v48_apply]
  show IntOp.cmpi .slt (BitVec.ofNat 32 r.val) (BitVec.ofNat 32 c.val) = 1#1 ↔ r < c
  rw [StableHlo.Predicate.slt_iff_toNat (by rw [toNat_ofNat_small]; have := r.isLt; omega)
    (by rw [toNat_ofNat_small]; have := c.isLt; omega), toNat_ofNat_small, toNat_ofNat_small]
  exact Iff.rfl

/-- The selecting bit of a pair's term: equal labels and strictly above the diagonal (which is off the diagonal). -/
theorem sel_at (x1 : (⟨S4096, .i32⟩ : BufTy).Contents (Elt Ideal)) (r c : Fin 4096) :
    val_main_v54 (F := Ideal) x1 (ix2 r c) = 1#1 ↔ labsOf x1 r = labsOf x1 c ∧ r < c := by
  rw [val_main_v54_apply]
  refine (andi_one_iff _ _).trans ((and_congr (pos_at x1 r c) (lt_at r c)).trans ?_)
  exact ⟨fun h => ⟨h.1.1, h.2⟩, fun h => ⟨⟨h.1, fun e => absurd h.2 (by rw [e]; exact lt_irrefl _)⟩, h.2⟩⟩

/-! ### The pairs' terms and the loss -/

theorem idx_v43 (r c : Fin 4096) : idx_main_v41 (idx_main_v43 (ix2 r c)) = ix1 r :=
  funext fun a => Fin.ext (by match a with | ⟨0, _⟩ => rfl)
theorem idx_v44 (r c : Fin 4096) : idx_main_v42 (idx_main_v44 (ix2 r c)) = ix1 c :=
  funext fun a => Fin.ext (by match a with | ⟨0, _⟩ => rfl)

/-- The term of a pair. -/
theorem posv_at (x0 : (⟨S4096x512, .f32⟩ : BufTy).Contents (Elt Ideal)) (x1 : (⟨S4096, .i32⟩ : BufTy).Contents (Elt Ideal))
    (r c : Fin 4096) :
    val_main_v57 (F := Ideal) x0 x1 (ix2 r c)
      = Cert.Spec.posvG (rowsOf x0) (labsOf x1) (Cert.Spec.rowNeg (rowsOf x0) (labsOf x1)) r c := by
  rw [val_main_v57_apply, val_main_v56_apply, val_main_v55_apply, val_main_v47_apply, val_main_v46_apply, val_main_v45_apply,
    val_main_v43_apply, val_main_v41_apply, val_main_v44_apply, val_main_v42_apply, idx_v43, idx_v44, rowNeg_at, rowNeg_at,
    dist_at, val_main_call4_v0_apply, val_main_call4_cst_apply, val_main_call5_v1_apply, val_main_call5_v0_apply,
    val_main_cst_9_apply]
  rw [select_of_iff (sel_at x1 r c)]
  simp only [Ideal.hostUnary_log_def, Ideal.addf_def, Ideal.mulf_def, Ideal.maximumf_def, Ideal.ofBits_def,
    Ideal.ofBits_zero_f32, Cert.Spec.posvG, Cert.Spec.posvOf]

/-- The loss's numerator: the sum over all pairs, row by row, from the zero word. -/
theorem loss_at (x0 : (⟨S4096x512, .f32⟩ : BufTy).Contents (Elt Ideal)) (x1 : (⟨S4096, .i32⟩ : BufTy).Contents (Elt Ideal))
    (i : S_.Idx) :
    val_main_v58 (F := Ideal) x0 x1 i = Cert.Spec.loss (rowsOf x0) (labsOf x1) := by
  rw [val_main_v58_apply, val_main_cst_10_apply, sum_idx2]
  simp only [posv_at, Ideal.ofBits_def, Ideal.ofBits_zero_f32, zero_add, Cert.Spec.loss, Cert.Spec.rowLossG]

/-! ### The count -/

/-- A fold of the word addition from zero is the sum. -/
theorem fold_addi_eq_sum {ι : Type} (S : Finset ι) (f : ι → BitVec 32) : S.fold IntOp.addi 0#32 f = ∑ k ∈ S, f k := by
  classical
  induction S using Finset.induction_on with
  | empty => rfl
  | insert a S ha ih => rw [Finset.fold_insert ha, Finset.sum_insert ha, ih]; rfl

/-- The count of positive pairs: the sum over all pairs of the widened off-diagonal equal-label bit. -/
theorem cnt_at (x1 : (⟨S4096, .i32⟩ : BufTy).Contents (Elt Ideal)) (i : S_.Idx) :
    val_main_v60 (F := Ideal) x1 i = Cert.Spec.cnt (labsOf x1) := by
  unfold val_main_v60
  generalize hy : val_main_v59 (F := Ideal) x1 = y
  rw [Host.reduce_eq_fold, Finset.filter_true_of_mem (fun j _ => funext fun a => a.elim0)]
  rw [show val_main_c_11 (F := Ideal) (Shape.Idx.first Facts₀.h_S_) = 0#32 from rfl, fold_addi_eq_sum, sum_idx2,
    ← Cert.Spec.cnt_offdiag]
  refine Finset.sum_congr rfl fun r _ => Finset.sum_congr rfl fun c _ => ?_
  rw [← hy, val_main_v59_apply, setWidth_bit]
  exact if_congr (pos_at x1 r c) rfl rfl

/-! ### The result -/

/-- The reference's result, as a function of the two argument arrays, is the loss. -/
theorem ref_result (x0 : (⟨S4096x512, .f32⟩ : BufTy).Contents (Elt Ideal)) (x1 : (⟨S4096, .i32⟩ : BufTy).Contents (Elt Ideal)) :
    val_main_v62 (F := Ideal) x0 x1 = fun _ => Cert.Spec.result (fun r k => x0 (ix2 r k)) (fun r => x1 (ix1 r)) := by
  funext i
  rw [val_main_v62_apply, val_main_v61_apply, loss_at, cnt_at]
  rfl

end Cert.ReferenceIdeal.RefValue

end
-- ==== Proof.KI.R1Body.lean ====
/-
  Region 1: the kernel body meets the pipeline rule's obligation at every grid point, for the data of R1Defs.
-/
import proofs.«418922_j57629871178314_3_alg».proof.Proof.Gen.KernelIdeal.Launch
import proofs.«418922_j57629871178314_3_alg».proof.Proof.Gen.KernelIdeal.Skeleton
import proofs.«418922_j57629871178314_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import Idealize.ShloMosaic.PureOps.BitExact
import proofs.«418922_j57629871178314_3_alg».proof.Proof.KI.R1Defs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The tables as the body is handed them -/

/-- Each table as the body is handed it: its whole buffer as a memref, and that memref's wholeness. -/
abbrev tbM1_0 : Memref sig .tc .smem S2x18 .i32 := Memref.whole main_c
abbrev htbM1_0 : tbM1_0.IsWhole := Memref.isWhole_whole _
abbrev tbM1_1 : Memref sig .tc .smem S2x18 .i32 := Memref.whole main_c_0
abbrev htbM1_1 : tbM1_1.IsWhole := Memref.isWhole_whole _
abbrev tbM1_2 : Memref sig .tc .smem S2x18 .i32 := Memref.whole main_c_1
abbrev htbM1_2 : tbM1_2.IsWhole := Memref.isWhole_whole _

/-- A table memref's buffer on core `c`: its contents type, and it held at half the full share at `f` (read only: the
    other half stays with the pipeline). -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare.right} f

variable (V : Ent F)

/-- The zero offsets of a rank-2 block. -/
theorem zeroOffs1 : (![0, 0] : Fin 2 → Nat) = fun _ => 0 := funext fun a => by fin_cases a <;> rfl

/-- The whole 512 x 1 block as a rectangle at zero offsets: what the body's stores and loads of the output block go through. -/
abbrev r1_8 : Rect S512x1 := Rect.unit (s := S512x1) ![0, 0] S512x1.size inb_S512x1_S512x1_0_0

/-- One store through it covers the block. -/
theorem cover1_8 (p : Vec F S512x1 .f32) (y : S512x1.Idx) :
    ∃ pc ∈ ([⟨r1_8, p⟩] : List (View.Piece (Elt F) S512x1 .f32)), y ∈ pc.1.set :=
  ⟨⟨r1_8, p⟩, List.mem_singleton_self _, (View.mem_set_unit_zero (S := S512x1) zeroOffs1 inb_S512x1_S512x1_0_0 y : y ∈ r1_8.set)⟩

/-- The word a scalar load reads from a table held at contents `xt`, at offsets `off`. -/
abbrev wd1 (c : Dev nD) (M : Memref sig .tc .smem S2x18 .i32) (off : Fin 2 → Nat) (h : ∀ a, off a + S1x1.size a ≤ S2x18.size a)
    (xt : TbBuf1 (F := F) c M) : Elt F .i32 :=
  M.view.readAt (Elt F) (Rect.unit (s := S2x18) off S1x1.size h).toLoadRect xt (Shape.Idx.first (Facts₀.numel1_S1x1.symm ▸ Nat.one_pos))

/-- The body's branch condition over the flag word. -/
abbrev cnd1 (w : BitVec 32) : Prop := Scalar.cmpi .ne (Scalar.extui (Scalar.cmpi .eq w 1#32)) 0#32 = 1#1

set_option maxHeartbeats 1000000 in
/-- The kernel body on whole staging buffers, the inputs' at read contents `x·`, the output's at `acc`, the three tables held
    at contents `xt·`: it runs to the continuation holding the inputs and the tables as they were and the output block at one
    accumulator update of the inputs, the row and column block words read off the tables — over zero where the flag word is 1,
    over `acc` elsewhere. The one store covers the block, so what it leaves is its payload; each load of a whole buffer reads
    the contents. -/
theorem sound_kernel1 (c : Dev nD) (E : Set ℕ) (i : grid1.Coords)
    (arg5 : Memref sig .tc .vmem S512x512 .bf16) (harg5 : arg5.IsWhole) (arg6 : Memref sig .tc .vmem S512x512 .bf16) (harg6 : arg6.IsWhole)
    (arg7 : Memref sig .tc .vmem S512x1 .f32) (harg7 : arg7.IsWhole) (arg8 : Memref sig .tc .vmem S1x512 .f32) (harg8 : arg8.IsWhole)
    (arg9 : Memref sig .tc .vmem S512x1 .i32) (harg9 : arg9.IsWhole) (arg10 : Memref sig .tc .vmem S1x512 .i32) (harg10 : arg10.IsWhole)
    (arg11 : Memref sig .tc .vmem S512x1 .f32) (harg11 : arg11.IsWhole) (arg12 : Memref sig .tc .vmem S1x512 .f32) (harg12 : arg12.IsWhole)
    (arg13 : Memref sig .tc .vmem S512x1 .f32) (harg13 : arg13.IsWhole)
    (x0 : Vec F S512x512 .bf16) (x1 : Vec F S512x512 .bf16) (x2 : Vec F S512x1 .f32) (x3 : Vec F S1x512 .f32)
    (x4 : Vec F S512x1 .i32) (x5 : Vec F S1x512 .i32) (x6 : Vec F S512x1 .f32) (x7 : Vec F S1x512 .f32) (acc : Vec F S512x1 .f32)
    (xt0 : TbBuf1 (F := F) c tbM1_0) (xt1 : TbBuf1 (F := F) c tbM1_1) (xt2 : TbBuf1 (F := F) c tbM1_2)
    (K : PUnit → sProp 𝕄) :
    iprop(owns (c : Thread nD τ) arg5 fullShare x0 ∗ owns (c : Thread nD τ) arg6 fullShare x1 ∗ owns (c : Thread nD τ) arg7 fullShare x2
        ∗ owns (c : Thread nD τ) arg8 fullShare x3 ∗ owns (c : Thread nD τ) arg9 fullShare x4 ∗ owns (c : Thread nD τ) arg10 fullShare x5
        ∗ owns (c : Thread nD τ) arg11 fullShare x6 ∗ owns (c : Thread nD τ) arg12 fullShare x7
        ∗ owns (c : Thread nD τ) arg13 fullShare acc
        ∗ tbPt1 c tbM1_0 xt0 ∗ tbPt1 c tbM1_1 xt1 ∗ tbPt1 c tbM1_2 xt2
        ∗ (iprop(owns (c : Thread nD τ) arg5 fullShare x0 ∗ owns (c : Thread nD τ) arg6 fullShare x1 ∗ owns (c : Thread nD τ) arg7 fullShare x2
            ∗ owns (c : Thread nD τ) arg8 fullShare x3 ∗ owns (c : Thread nD τ) arg9 fullShare x4 ∗ owns (c : Thread nD τ) arg10 fullShare x5
            ∗ owns (c : Thread nD τ) arg11 fullShare x6 ∗ owns (c : Thread nD τ) arg12 fullShare x7
            ∗ owns (c : Thread nD τ) arg13 fullShare
                (k1_pay1 (k1_pay3 x0 x1 x2 x3) (k1_pay4 (F := F) x4 x5) (wd1 c tbM1_1 (k1_off2 i) (Facts₀.k1_off2_inb i) xt1)
                  (Scalar.muli (wd1 c tbM1_0 (k1_off2 i) (Facts₀.k1_off2_inb i) xt0) 512#32)
                  (iota .tc S512x512 32 [0] Facts₀.iota_S512x512_d0_w32) x6 x7
                  (if cnd1 (wd1 c tbM1_2 (k1_off1 i) (Facts₀.k1_off1_inb i) xt2) then k1_pay2 (F := F) else acc))
            ∗ tbPt1 c tbM1_0 xt0 ∗ tbPt1 c tbM1_1 xt1 ∗ tbPt1 c tbM1_2 xt2) -∗ K ⟨⟩))
      ⊢ wp frame (wpE (defs₀ (F := F)) Variants.none c none) E
          (cc1__loss_kernel i tbM1_0 htbM1_0 tbM1_1 htbM1_1 tbM1_2 htbM1_2 arg5 harg5 arg6 harg6 arg7 harg7 arg8 harg8 arg9 harg9 arg10 harg10 arg11 harg11 arg12 harg12 arg13 harg13) K := by
  simp only [cc1__loss_kernel_eq_skeleton]; unfold cc1__loss_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT0, HT1, HT2, Hk⟩
  obtain rfl := harg5.eq_unread hf0; obtain rfl := harg6.eq_unread hf1; obtain rfl := harg7.eq_unread hf2; obtain rfl := harg8.eq_unread hf3
  obtain rfl := harg9.eq_unread hf4; obtain rfl := harg10.eq_unread hf5; obtain rfl := harg11.eq_unread hf6; obtain rfl := harg12.eq_unread hf7
  obtain rfl := harg13.eq_unread hf8
  sl_exec
  sl_step
  iapply Hk
  isplitl [H0]; · iexists _; isplitr; · ipureintro; exact harg5.read_unread _
                  iexact H0
  isplitl [H1]; · iexists _; isplitr; · ipureintro; exact harg6.read_unread _
                  iexact H1
  isplitl [H2]; · iexists _; isplitr; · ipureintro; exact harg7.read_unread _
                  iexact H2
  isplitl [H3]; · iexists _; isplitr; · ipureintro; exact harg8.read_unread _
                  iexact H3
  isplitl [H4]; · iexists _; isplitr; · ipureintro; exact harg9.read_unread _
                  iexact H4
  isplitl [H5]; · iexists _; isplitr; · ipureintro; exact harg10.read_unread _
                  iexact H5
  isplitl [H6]; · iexists _; isplitr; · ipureintro; exact harg11.read_unread _
                  iexact H6
  isplitl [H7]; · iexists _; isplitr; · ipureintro; exact harg12.read_unread _
                  iexact H7
  isplitl [H8]
  · iexists _; isplitr
    swap; · iexact H8
    ipureintro
    sl_unfold_run_names
    refine (View.read_writes_eq_canon _ _ _ (cover1_8 _)).trans ?_
    refine (View.canon_unit_zero (S := S512x1) zeroOffs1 inb_S512x1_S512x1_0_0 _).trans ?_
    by_cases hc : cnd1 (wd1 c tbM1_2 (k1_off1 i) (Facts₀.k1_off1_inb i) xt2)
    · simp only [dif_pos hc, if_pos hc]
      rw [View.readAt_eq_ld arg13.view, View.read_writes_eq_canon _ _ _ (cover1_8 _), View.canon_unit_zero (S := S512x1) zeroOffs1]
      simp only [View.readAt_eq_ld, harg5.read_unread, harg6.read_unread, harg7.read_unread, harg8.read_unread, harg9.read_unread,
        harg10.read_unread, harg11.read_unread, harg12.read_unread,
        View.ld_unit_zero (S := S512x512) zeroOffs1, View.ld_unit_zero (S := S512x1) zeroOffs1, View.ld_unit_zero (S := S1x512) zeroOffs1]
      rfl
    · simp only [dif_neg hc, if_neg hc]
      simp only [View.readAt_eq_ld, harg5.read_unread, harg6.read_unread, harg7.read_unread, harg8.read_unread, harg9.read_unread,
        harg10.read_unread, harg11.read_unread, harg12.read_unread, harg13.read_unread,
        View.ld_unit_zero (S := S512x512) zeroOffs1, View.ld_unit_zero (S := S512x1) zeroOffs1, View.ld_unit_zero (S := S1x512) zeroOffs1]
      rfl
  isplitl [HT0]; · iexact HT0
  isplitl [HT1]; · iexact HT1
  iexact HT2

/-! ## The tables' halves, the table words -/

/-- The invariant's table halves, table by table: one half-share points-to per table, at the literal contents. -/
theorem PhiT1_eq (c : Dev nD) : (Pipeline.ΦT pre1 (tblLit (F := F)) c : sProp 𝕄)
    = iprop(tbPt1 c tbM1_0 (tblLit (F := F) 0) ∗ tbPt1 c tbM1_1 (tblLit (F := F) 1) ∗ tbPt1 c tbM1_2 (tblLit (F := F) 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- At the literal contents the words the body loads are the table words of `R1Defs`: the flag, the row block, the column block. -/
theorem wd1_first (c : Dev nD) (i : grid1.Coords) :
    wd1 (F := F) c tbM1_2 (k1_off1 i) (Facts₀.k1_off1_inb i) (tblLit (F := F) 2) = firstW (F := F) i := rfl
theorem wd1_rb (c : Dev nD) (i : grid1.Coords) :
    wd1 (F := F) c tbM1_0 (k1_off2 i) (Facts₀.k1_off2_inb i) (tblLit (F := F) 0) = rbW (F := F) i := rfl
theorem wd1_cb (c : Dev nD) (i : grid1.Coords) :
    wd1 (F := F) c tbM1_1 (k1_off2 i) (Facts₀.k1_off2_inb i) (tblLit (F := F) 1) = cbW (F := F) i := rfl

/-! ## The schedule of the output window at the literal tables -/

/-- At the literal tables a point whose first-visit flag is not set is not the first point, and the point before it did not
    write the output block back: the row block did not change. The table words are the same 32-bit integers at every float
    type, so the 36 points are decided at bit patterns. -/
theorem kept1_8 (t : Fin (cfgL (F := F)).N) (h : ¬ isFirst (F := F) ((cfgL (F := F)).grid.coords t)) :
    t.val ≠ 0 ∧ ((cfgL (F := F)).win 8).flush ⟨t.val - 1, Nat.lt_of_le_of_lt (Nat.sub_le _ _) t.isLt⟩ = false :=
  (by decide +kernel : ∀ t : Fin (cfgL (F := Bits)).N, ¬ isFirst (F := Bits) ((cfgL (F := Bits)).grid.coords t) →
    t.val ≠ 0 ∧ ((cfgL (F := Bits)).win 8).flush ⟨t.val - 1, Nat.lt_of_le_of_lt (Nat.sub_le _ _) t.isLt⟩ = false) t h

/-! ## What each window's buffer holds when the body runs -/

/-- Each input window's current staging buffer holds its block at every point, fetched there or not: unfetched, the block
    index has not moved. -/
theorem before1_0 (c : Dev nD) (t : Fin (cfgL (F := F)).N) (d) : (dat1 V c).before 0 t d = iblk1 V c 0 t :=
  ((dat1 V c).before_in_eq_fetched 0 rfl (fun _ => rfl) (fun _ _ _ => rfl)
    (fun t => by rw [(after1_in V c t).1]; unfold Dat.blockOf iblk1; rw [A_eq1]; try rfl) t d).trans
    (by unfold Dat.fetched Dat.blockOf iblk1; rw [A_eq1]; try rfl)

theorem before1_1 (c : Dev nD) (t : Fin (cfgL (F := F)).N) (d) : (dat1 V c).before 1 t d = iblk1 V c 1 t :=
  ((dat1 V c).before_in_eq_fetched 1 rfl (fun _ => rfl) (fun _ _ _ => rfl)
    (fun t => by rw [(after1_in V c t).2.1]; unfold Dat.blockOf iblk1; rw [A_eq1]; try rfl) t d).trans
    (by unfold Dat.fetched Dat.blockOf iblk1; rw [A_eq1]; try rfl)
theorem before1_2 (c : Dev nD) (t : Fin (cfgL (F := F)).N) (d) : (dat1 V c).before 2 t d = iblk1 V c 2 t :=
  ((dat1 V c).before_in_eq_fetched 2 rfl (fun _ => rfl) (fun _ _ _ => rfl)
    (fun t => by rw [(after1_in V c t).2.2.1]; unfold Dat.blockOf iblk1; rw [A_eq1]; try rfl) t d).trans
    (by unfold Dat.fetched Dat.blockOf iblk1; rw [A_eq1]; try rfl)
theorem before1_3 (c : Dev nD) (t : Fin (cfgL (F := F)).N) (d) : (dat1 V c).before 3 t d = iblk1 V c 3 t :=
  ((dat1 V c).before_in_eq_fetched 3 rfl (fun _ => rfl) (fun _ _ _ => rfl)
    (fun t => by rw [(after1_in V c t).2.2.2.1]; unfold Dat.blockOf iblk1; rw [A_eq1]; try rfl) t d).trans
    (by unfold Dat.fetched Dat.blockOf iblk1; rw [A_eq1]; try rfl)
theorem before1_4 (c : Dev nD) (t : Fin (cfgL (F := F)).N) (d) : (dat1 V c).before 4 t d = iblk1 V c 4 t :=
  ((dat1 V c).before_in_eq_fetched 4 rfl (fun _ => rfl) (fun _ _ _ => rfl)
    (fun t => by rw [(after1_in V c t).2.2.2.2.1]; unfold Dat.blockOf iblk1; rw [A_eq1]; try rfl) t d).trans
    (by unfold Dat.fetched Dat.blockOf iblk1; rw [A_eq1]; try rfl)
theorem before1_5 (c : Dev nD) (t : Fin (cfgL (F := F)).N) (d) : (dat1 V c).before 5 t d = iblk1 V c 5 t :=
  ((dat1 V c).before_in_eq_fetched 5 rfl (fun _ => rfl) (fun _ _ _ => rfl)
    (fun t => by rw [(after1_in V c t).2.2.2.2.2.1]; unfold Dat.blockOf iblk1; rw [A_eq1]; try rfl) t d).trans
    (by unfold Dat.fetched Dat.blockOf iblk1; rw [A_eq1]; try rfl)
theorem before1_6 (c : Dev nD) (t : Fin (cfgL (F := F)).N) (d) : (dat1 V c).before 6 t d = iblk1 V c 6 t :=
  ((dat1 V c).before_in_eq_fetched 6 rfl (fun _ => rfl) (fun _ _ _ => rfl)
    (fun t => by rw [(after1_in V c t).2.2.2.2.2.2.1]; unfold Dat.blockOf iblk1; rw [A_eq1]; try rfl) t d).trans
    (by unfold Dat.fetched Dat.blockOf iblk1; rw [A_eq1]; try rfl)
theorem before1_7 (c : Dev nD) (t : Fin (cfgL (F := F)).N) (d) : (dat1 V c).before 7 t d = iblk1 V c 7 t :=
  ((dat1 V c).before_in_eq_fetched 7 rfl (fun _ => rfl) (fun _ _ _ => rfl)
    (fun t => by rw [(after1_in V c t).2.2.2.2.2.2.2]; unfold Dat.blockOf iblk1; rw [A_eq1]; try rfl) t d).trans
    (by unfold Dat.fetched Dat.blockOf iblk1; rw [A_eq1]; try rfl)

/-- Where the flag is not set the output window's buffer holds what the body left at the point before. -/
theorem before1_8 (c : Dev nD) (t : Fin (cfgL (F := F)).N) (h : ¬ isFirst (F := F) ((cfgL (F := F)).grid.coords t)) (d) :
    (dat1 V c).before 8 t d = outsAt1 V c (t.val - 1) (Nat.lt_of_le_of_lt (Nat.sub_le _ _) t.isLt) := by
  obtain ⟨ht, hfl⟩ := kept1_8 t h
  rw [Dat.before_out_kept _ 8 rfl t ht hfl (fun _ => rfl) (fun _ _ => rfl)]
  exact after1_8 V c _

/-- The recursion of `outsAt1` at any point, over any accumulator that is the point before's where the flag is not set. -/
theorem outsAt1_step (c : Dev nD) (t : Fin (cfgL (F := F)).N) (acc : Vec F S512x1 .f32)
    (hacc : ¬ isFirst (F := F) ((cfgL (F := F)).grid.coords t) → acc = outsAt1 V c (t.val - 1) (Nat.lt_of_le_of_lt (Nat.sub_le _ _) t.isLt)) :
    outsAt1 V c t.val t.isLt = step1 ((cfgL (F := F)).grid.coords t)
      (if isFirst (F := F) ((cfgL (F := F)).grid.coords t) then k1_pay2 (F := F) else acc)
      (iblk1 V c 0 t) (iblk1 V c 1 t) (iblk1 V c 2 t) (iblk1 V c 3 t) (iblk1 V c 4 t) (iblk1 V c 5 t) (iblk1 V c 6 t) (iblk1 V c 7 t) := by
  obtain ⟨n, hn⟩ := t
  cases n with
  | zero =>
    have h0 : isFirst (F := F) ((cfgL (F := F)).grid.coords ⟨0, hn⟩) := by
      by_contra h; exact (kept1_8 ⟨0, hn⟩ h).1 rfl
    rw [if_pos h0]; rfl
  | succ n =>
    rw [outsAt1]
    by_cases h : isFirst (F := F) ((cfgL (F := F)).grid.coords ⟨n + 1, hn⟩)
    · rw [if_pos h, if_pos h]
    · have ha : acc = outsAt1 V c n (Nat.lt_of_succ_lt hn) := hacc h
      rw [if_neg h, if_neg h, ha]

/-! ## The body obligation at a point -/

/-- The kernel body at point `t`, on what the pipeline calls it with: the tables' memrefs and each window's current staging buffer. -/
abbrev bodyAt1 (t : Fin (cfgL (F := F)).N) : Prog (TpuEff nD τ sig (Elt F) Λ₀ .tc) PUnit :=
  cc1__loss_kernel (grid1.coords t) tbM1_0 htbM1_0 tbM1_1 htbM1_1 tbM1_2 htbM1_2
    (spec1_0.stage ((cfgL (F := F)).slots t 0)) (Facts₀.hstage1_0 (((cfgL (F := F)).slots t 0).cast Facts₀.nbuf1_0))
    (spec1_1.stage ((cfgL (F := F)).slots t 1)) (Facts₀.hstage1_1 (((cfgL (F := F)).slots t 1).cast Facts₀.nbuf1_1))
    (spec1_2.stage ((cfgL (F := F)).slots t 2)) (Facts₀.hstage1_2 (((cfgL (F := F)).slots t 2).cast Facts₀.nbuf1_2))
    (spec1_3.stage ((cfgL (F := F)).slots t 3)) (Facts₀.hstage1_3 (((cfgL (F := F)).slots t 3).cast Facts₀.nbuf1_3))
    (spec1_4.stage ((cfgL (F := F)).slots t 4)) (Facts₀.hstage1_4 (((cfgL (F := F)).slots t 4).cast Facts₀.nbuf1_4))
    (spec1_5.stage ((cfgL (F := F)).slots t 5)) (Facts₀.hstage1_5 (((cfgL (F := F)).slots t 5).cast Facts₀.nbuf1_5))
    (spec1_6.stage ((cfgL (F := F)).slots t 6)) (Facts₀.hstage1_6 (((cfgL (F := F)).slots t 6).cast Facts₀.nbuf1_6))
    (spec1_7.stage ((cfgL (F := F)).slots t 7)) (Facts₀.hstage1_7 (((cfgL (F := F)).slots t 7).cast Facts₀.nbuf1_7))
    (spec1_8.stage ((cfgL (F := F)).slots t 8)) (Facts₀.hstage1_8 (((cfgL (F := F)).slots t 8).cast Facts₀.nbuf1_8))

/-- What the body is called with at point `t`, the windows one by one, -/
def bodyPre1 (c : Dev nD) (t : Fin (cfgL (F := F)).N) : sProp 𝕄 :=
  iprop((dat1 V c).Φ t.castSucc ∗ (dat1 V c).owesAt () t.castSucc
    ∗ (∃ d, owns (c : Thread nD τ) (spec1_0.stage ((cfgL (F := F)).slots t 0)) fullShare ((dat1 V c).before 0 t d))
    ∗ (∃ d, owns (c : Thread nD τ) (spec1_1.stage ((cfgL (F := F)).slots t 1)) fullShare ((dat1 V c).before 1 t d))
    ∗ (∃ d, owns (c : Thread nD τ) (spec1_2.stage ((cfgL (F := F)).slots t 2)) fullShare ((dat1 V c).before 2 t d))
    ∗ (∃ d, owns (c : Thread nD τ) (spec1_3.stage ((cfgL (F := F)).slots t 3)) fullShare ((dat1 V c).before 3 t d))
    ∗ (∃ d, owns (c : Thread nD τ) (spec1_4.stage ((cfgL (F := F)).slots t 4)) fullShare ((dat1 V c).before 4 t d))
    ∗ (∃ d, owns (c : Thread nD τ) (spec1_5.stage ((cfgL (F := F)).slots t 5)) fullShare ((dat1 V c).before 5 t d))
    ∗ (∃ d, owns (c : Thread nD τ) (spec1_6.stage ((cfgL (F := F)).slots t 6)) fullShare ((dat1 V c).before 6 t d))
    ∗ (∃ d, owns (c : Thread nD τ) (spec1_7.stage ((cfgL (F := F)).slots t 7)) fullShare ((dat1 V c).before 7 t d))
    ∗ (∃ d, owns (c : Thread nD τ) (spec1_8.stage ((cfgL (F := F)).slots t 8)) fullShare ((dat1 V c).before 8 t d)))

/-- and what it returns. -/
def bodyPost1 (c : Dev nD) (t : Fin (cfgL (F := F)).N) : sProp 𝕄 :=
  iprop((dat1 V c).Φ t.succ ∗ (dat1 V c).owesAt () t.succ
    ∗ owns (c : Thread nD τ) (spec1_0.stage ((cfgL (F := F)).slots t 0)) fullShare ((dat1 V c).after 0 t)
    ∗ owns (c : Thread nD τ) (spec1_1.stage ((cfgL (F := F)).slots t 1)) fullShare ((dat1 V c).after 1 t)
    ∗ owns (c : Thread nD τ) (spec1_2.stage ((cfgL (F := F)).slots t 2)) fullShare ((dat1 V c).after 2 t)
    ∗ owns (c : Thread nD τ) (spec1_3.stage ((cfgL (F := F)).slots t 3)) fullShare ((dat1 V c).after 3 t)
    ∗ owns (c : Thread nD τ) (spec1_4.stage ((cfgL (F := F)).slots t 4)) fullShare ((dat1 V c).after 4 t)
    ∗ owns (c : Thread nD τ) (spec1_5.stage ((cfgL (F := F)).slots t 5)) fullShare ((dat1 V c).after 5 t)
    ∗ owns (c : Thread nD τ) (spec1_6.stage ((cfgL (F := F)).slots t 6)) fullShare ((dat1 V c).after 6 t)
    ∗ owns (c : Thread nD τ) (spec1_7.stage ((cfgL (F := F)).slots t 7)) fullShare ((dat1 V c).after 7 t)
    ∗ owns (c : Thread nD τ) (spec1_8.stage ((cfgL (F := F)).slots t 8)) fullShare ((dat1 V c).after 8 t))

set_option maxHeartbeats 1000000 in
/-- The body at any point: each input's buffer holds its block; the output's holds anything where the flag is set and what
    the point before left elsewhere; the tables' halves pass through read only; so the kernel's triple applies and its
    result is `outsAt1` by that function's recursion. -/
theorem sound_body1 (c : Dev nD) (t : Fin (cfgL (F := F)).N) :
    bodyPre1 V c t ⊢ wp frame (wpE (defs₀ (F := F)) Variants.none c none) Set.univ (bodyAt1 (F := F) t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    (after1_in V c t).1, (after1_in V c t).2.1, (after1_in V c t).2.2.1, (after1_in V c t).2.2.2.1, (after1_in V c t).2.2.2.2.1,
    (after1_in V c t).2.2.2.2.2.1, (after1_in V c t).2.2.2.2.2.2.1, (after1_in V c t).2.2.2.2.2.2.2, after1_8]
  rw [show (dat1 V c).Φ t.castSucc = iprop(Pipeline.ΦA spec1 c ∗ Pipeline.ΦT pre1 (tblLit (F := F)) c) from rfl, PhiT1_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hk := sound_kernel1 (F := F) c Set.univ (grid1.coords t)
    _ (Facts₀.hstage1_0 (((cfgL (F := F)).slots t 0).cast Facts₀.nbuf1_0)) _ (Facts₀.hstage1_1 (((cfgL (F := F)).slots t 1).cast Facts₀.nbuf1_1)) _ (Facts₀.hstage1_2 (((cfgL (F := F)).slots t 2).cast Facts₀.nbuf1_2)) _ (Facts₀.hstage1_3 (((cfgL (F := F)).slots t 3).cast Facts₀.nbuf1_3)) _ (Facts₀.hstage1_4 (((cfgL (F := F)).slots t 4).cast Facts₀.nbuf1_4)) _ (Facts₀.hstage1_5 (((cfgL (F := F)).slots t 5).cast Facts₀.nbuf1_5)) _ (Facts₀.hstage1_6 (((cfgL (F := F)).slots t 6).cast Facts₀.nbuf1_6)) _ (Facts₀.hstage1_7 (((cfgL (F := F)).slots t 7).cast Facts₀.nbuf1_7)) _ (Facts₀.hstage1_8 (((cfgL (F := F)).slots t 8).cast Facts₀.nbuf1_8))
    (iblk1 V c 0 t) (iblk1 V c 1 t) (iblk1 V c 2 t) (iblk1 V c 3 t) (iblk1 V c 4 t) (iblk1 V c 5 t) (iblk1 V c 6 t) (iblk1 V c 7 t)
    ((dat1 V c).before 8 t d8) (tblLit (F := F) 0) (tblLit (F := F) 1) (tblLit (F := F) 2)
  rw [wd1_first, wd1_rb, wd1_cb] at hk
  iapply (hk _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT0]; · iexact HT0
  isplitl [HT1]; · iexact HT1
  isplitl [HT2]; · iexact HT2
  iintro ⟨H0, H1, H2, H3, H4, H5, H6, H7, H8, HT0, HT1, HT2⟩
  isplitl [HΦ HT0 HT1 HT2]
  · isplitl [HΦ]; · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [outsAt1_step V c t ((dat1 V c).before 8 t d8) (fun h => before1_8 V c t h d8)]
  unfold step1
  iexact H8

/-- At every point the body, handed each input window's block, the tables' halves and the output block as the point
    before left it, returns the inputs unchanged and the output block at `outsAt1`. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the whole program: the contents of the TensorCore's unscoped buffers at every boundary between a
  stretch of host operations and a kernel region, folded from the launch memory, and the launch theorem over the
  five segments of the program, read at the end at every unscoped buffer.
-/
import proofs.«418922_j57629871178314_3_alg».proof.Proof.Gen.KernelIdeal.Launch
import proofs.«418922_j57629871178314_3_alg».proof.Proof.Gen.KernelIdeal.Skeleton
import proofs.«418922_j57629871178314_3_alg».proof.Proof.Gen.KernelIdeal.Points
import proofs.«418922_j57629871178314_3_alg».proof.Proof.Gen.KernelIdeal.Regions
import Idealize.ShloMosaic.Lib.Pipeline.FrameBody
import Idealize.ShloMosaic.Lib.Pipeline.Frame
import Idealize.ShloMosaic.Lib.Pipeline.FrameSuffix
import Idealize.ShloMosaic.Lib.Pipeline.Regions
import Idealize.ShloMosaic.Lib.Pipeline.Kit
import Idealize.ShloMosaic.Lib.Ring
import Idealize.ShloMosaic.Lib.Tactic
import proofs.«418922_j57629871178314_3_alg».proof.Proof.KI.Fold
import proofs.«418922_j57629871178314_3_alg».proof.Proof.KI.R0Body
import proofs.«418922_j57629871178314_3_alg».proof.Proof.KI.R1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays of a region among the unscoped buffers

In both regions windows 0 and 1 read one array (the bf16 copy of the first argument), each holding a half of it;
every other window holds its array whole. -/

section Arrays

variable (V : Ent F)

/-- The buffers behind region 0's arrays, listed. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_v3) ↦{fullShare} V' main_v3)
          ∗ (((c : Thread nD τ).loc main_v4) ↦{fullShare} V' main_v4) ∗ (((c : Thread nD τ).loc main_v5) ↦{fullShare} V' main_v5)
          ∗ (((c : Thread nD τ).loc main_v6) ↦{fullShare} V' main_v6) ∗ (((c : Thread nD τ).loc main_v7) ↦{fullShare} V' main_v7)) := by
  unfold Pipeline.arrBufs
  exact bigSep_eq_bigSepL_of_eq [main_v0, main_v3, main_v4, main_v5, main_v6, main_v7] (by decide) (by decide) _

/-- Region 0's arrays at the contents `V'` names, one window at a time. -/
theorem arrays0_eq (c : Dev nD) (V' : (b : Ref sig .tc) → Buf (Elt F) ((c : Thread nD τ).loc b)) :
    ((dat0 V c).arrays fun w => V' (Pipeline.arrRef spec0 w) : sProp 𝕄)
      = iprop((((c : Thread nD τ).loc main_v0) ↦{fullShare.left} V' main_v0) ∗ (((c : Thread nD τ).loc main_v0) ↦{fullShare.right} V' main_v0)
          ∗ (((c : Thread nD τ).loc main_v3) ↦{fullShare} V' main_v3)
          ∗ (((c : Thread nD τ).loc main_v4) ↦{fullShare} V' main_v4) ∗ (((c : Thread nD τ).loc main_v5) ↦{fullShare} V' main_v5)
          ∗ (((c : Thread nD τ).loc main_v6) ↦{fullShare} V' main_v6) ∗ (((c : Thread nD τ).loc main_v7) ↦{fullShare} V' main_v7)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-- ENTRY of region 0: the buffers behind its arrays, each whole, make its arrays — the shared one dealt in halves. -/
theorem split0 (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊢ (dat0 V c).arrays fun w => V' (Pipeline.arrRef spec0 w) := by
  rw [arrBufs0_eq, arrays0_eq]
  iintro ⟨H0, H3, H4, H5, H6, H7⟩
  ihave H0' := (pointsTo_share (PosShare.mem_left_op_right fullShare)).1 $$ H0
  icases H0' with ⟨H0l, H0r⟩
  isplitl [H0l]; · iexact H0l
  isplitl [H0r]; · iexact H0r
  isplitl [H3]; · iexact H3
  isplitl [H4]; · iexact H4
  isplitl [H5]; · iexact H5
  isplitl [H6]; · iexact H6
  iexact H7

/-- EXIT of region 0: its arrays give back the buffers behind them, each whole — the two halves of the shared one joined. -/
theorem join0 (c : Dev nD) (V' : (b : Ref sig .tc) → Buf (Elt F) ((c : Thread nD τ).loc b)) :
    ((dat0 V c).arrays fun w => V' (Pipeline.arrRef spec0 w) : sProp 𝕄)
      ⊢ Pipeline.arrBufs (Ix := Unit) (Name := ℕ) (U := UR sig nD τ) (Lvl := ℕ) spec0 c V' := by
  rw [arrBufs0_eq, arrays0_eq]
  iintro ⟨H0l, H0r, H3, H4, H5, H6, H7⟩
  isplitl [H0l H0r]
  · iapply (pointsTo_share (PosShare.mem_left_op_right fullShare)).2
    isplitl [H0l]; · iexact H0l
    iexact H0r
  isplitl [H3]; · iexact H3
  isplitl [H4]; · iexact H4
  isplitl [H5]; · iexact H5
  isplitl [H6]; · iexact H6
  iexact H7

end Arrays

section Arrays1

variable (V : Ent F)

/-- The buffers behind region 1's arrays, listed. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0) ↦{fullShare} V' main_v0) ∗ (((c : Thread nD τ).loc main_v3) ↦{fullShare} V' main_v3)
          ∗ (((c : Thread nD τ).loc main_v4) ↦{fullShare} V' main_v4) ∗ (((c : Thread nD τ).loc main_v5) ↦{fullShare} V' main_v5)
          ∗ (((c : Thread nD τ).loc main_v6) ↦{fullShare} V' main_v6) ∗ (((c : Thread nD τ).loc main_v7) ↦{fullShare} V' main_v7)
          ∗ (((c : Thread nD τ).loc main_v8) ↦{fullShare} V' main_v8) ∗ (((c : Thread nD τ).loc main_v9) ↦{fullShare} V' main_v9)) := by
  unfold Pipeline.arrBufs
  exact bigSep_eq_bigSepL_of_eq [main_v0, main_v3, main_v4, main_v5, main_v6, main_v7, main_v8, main_v9] (by decide) (by decide) _

/-- Region 1's arrays at the contents `V'` names, one window at a time. -/
theorem arrays1_eq (c : Dev nD) (V' : (b : Ref sig .tc) → Buf (Elt F) ((c : Thread nD τ).loc b)) :
    ((dat1 V c).arrays fun w => V' (Pipeline.arrRef spec1 w) : sProp 𝕄)
      = iprop((((c : Thread nD τ).loc main_v0) ↦{fullShare.left} V' main_v0) ∗ (((c : Thread nD τ).loc main_v0) ↦{fullShare.right} V' main_v0)
          ∗ (((c : Thread nD τ).loc main_v3) ↦{fullShare} V' main_v3)
          ∗ (((c : Thread nD τ).loc main_v4) ↦{fullShare} V' main_v4) ∗ (((c : Thread nD τ).loc main_v5) ↦{fullShare} V' main_v5)
          ∗ (((c : Thread nD τ).loc main_v6) ↦{fullShare} V' main_v6) ∗ (((c : Thread nD τ).loc main_v7) ↦{fullShare} V' main_v7)
          ∗ (((c : Thread nD τ).loc main_v8) ↦{fullShare} V' main_v8) ∗ (((c : Thread nD τ).loc main_v9) ↦{fullShare} V' main_v9)) := by
  unfold Dat.arrays
  rw [bigSep_W1]
  rw [(arr_whole1 0).set_eq_univ, (arr_whole1 2).set_eq_univ, (arr_whole1 3).set_eq_univ,
    (arr_whole1 4).set_eq_univ, (arr_whole1 5).set_eq_univ, (arr_whole1 6).set_eq_univ, (arr_whole1 7).set_eq_univ, (arr_whole1 8).set_eq_univ]
  rfl

/-- ENTRY of region 1: the buffers behind its arrays, each whole, make its arrays — the shared one dealt in halves. -/
theorem split1 (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      ⊢ (dat1 V c).arrays fun w => V' (Pipeline.arrRef spec1 w) := by
  rw [arrBufs1_eq, arrays1_eq]
  iintro ⟨H0, H3, H4, H5, H6, H7, H8, H9⟩
  ihave H0' := (pointsTo_share (PosShare.mem_left_op_right fullShare)).1 $$ H0
  icases H0' with ⟨H0l, H0r⟩
  isplitl [H0l]; · iexact H0l
  isplitl [H0r]; · iexact H0r
  isplitl [H3]; · iexact H3
  isplitl [H4]; · iexact H4
  isplitl [H5]; · iexact H5
  isplitl [H6]; · iexact H6
  isplitl [H7]; · iexact H7
  isplitl [H8]; · iexact H8
  iexact H9

/-- EXIT of region 1: its arrays give back the buffers behind them, each whole — the two halves of the shared one joined. -/
theorem join1 (c : Dev nD) (V' : (b : Ref sig .tc) → Buf (Elt F) ((c : Thread nD τ).loc b)) :
    ((dat1 V c).arrays fun w => V' (Pipeline.arrRef spec1 w) : sProp 𝕄)
      ⊢ Pipeline.arrBufs (Ix := Unit) (Name := ℕ) (U := UR sig nD τ) (Lvl := ℕ) spec1 c V' := by
  rw [arrBufs1_eq, arrays1_eq]
  iintro ⟨H0l, H0r, H3, H4, H5, H6, H7, H8, H9⟩
  isplitl [H0l H0r]
  · iapply (pointsTo_share (PosShare.mem_left_op_right fullShare)).2
    isplitl [H0l]; · iexact H0l
    iexact H0r
  isplitl [H3]; · iexact H3
  isplitl [H4]; · iexact H4
  isplitl [H5]; · iexact H5
  isplitl [H6]; · iexact H6
  isplitl [H7]; · iexact H7
  isplitl [H8]; · iexact H8
  iexact H9

end Arrays1

/-! ## The unscoped buffers around a region -/

/-- A core's unscoped buffers are the buffers behind a pipeline's arrays, shared or not, and the rest. -/
theorem ub_split {gr W : Nat} (win : Fin W → Pipeline.WinSpec sig gr) (hun : ∀ w, (Pipeline.arrRef win w).isScoped = false)
    (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs win c V' ∗ Pipeline.unscopedRest win c V') := by
  classical
  have hA : Finset.univ.image (Pipeline.arrRef win) ⊆ Finset.univ.filter fun b : Ref sig .tc => ¬ b.isScoped := fun b hb => by
    obtain ⟨w, -, rfl⟩ := Finset.mem_image.mp hb
    exact Finset.mem_filter.mpr ⟨Finset.mem_univ _, by simp [hun w]⟩
  unfold unscopedBufs Pipeline.unscopedRest Pipeline.arrBufs
  rw [bigSep_sdiff_split hA]
  rfl

/-- The buffers a stretch after a region with prefetched tables runs within — the arrays' and the bypassing ones —
    held at a valuation: the buffers behind the arrays, shared or not, and the bypassing rest. -/
theorem held_tailRefs₀ {gr W : Nat} (pre : Pipeline.Prefetch sig) (win : Fin W → Pipeline.WinSpec sig gr) (c : Dev nD)
    (Wv : Valuation τ sig (Elt F)) :
    (StableHlo.held (c : Thread nD τ) (Pipeline.tailRefs sig pre win) Wv : sProp 𝕄)
      = iprop(Pipeline.arrBufs win c (fun b => Wv (Proc.devRef .tc b)) ∗ Pipeline.unscopedRestP pre win c (fun b => Wv (Proc.devRef .tc b))) := by
  classical
  have hdisj : Disjoint (Finset.univ.image (Pipeline.arrRef win)) (Pipeline.restRefsP sig pre win) :=
    Finset.disjoint_left.mpr fun b hb hr => (Finset.mem_sdiff.mp (Finset.mem_sdiff.mp hr).1).2 hb
  unfold StableHlo.held Pipeline.tailRefs Pipeline.arrBufs Pipeline.unscopedRestP
  rw [bigSep_map, bigSep_union hdisj]
  rfl

/-- Region 0 changes no buffer that bypasses it. -/
theorem rest0_congr (c : Dev nD) :
    (Pipeline.unscopedRest (Ix := Unit) (Name := ℕ) (U := UR sig nD τ) (Lvl := ℕ) spec0 c (V2 m c) : sProp 𝕄)
      = Pipeline.unscopedRest spec0 c (V1 m c) := by
  unfold Pipeline.unscopedRest
  exact bigSep_congr fun b hb => by
    have hne : b ≠ main_v7 := fun e => (Finset.mem_sdiff.mp hb).2 (e ▸ Finset.mem_image.mpr ⟨6, Finset.mem_univ _, rfl⟩)
    rw [show V2 m c b = V1 m c b from W2_of_ne m c b hne]

/-- Region 1 changes no buffer that bypasses it. -/
theorem rest1_congr (c : Dev nD) :
    (Pipeline.unscopedRestP (Ix := Unit) (Name := ℕ) (U := UR sig nD τ) (Lvl := ℕ) pre1 spec1 c (V4 m c) : sProp 𝕄)
      = Pipeline.unscopedRestP pre1 spec1 c (V3 m c) := by
  unfold Pipeline.unscopedRestP
  exact bigSep_congr fun b hb => by
    have hne : b ≠ main_v9 := fun e => (Finset.mem_sdiff.mp (Finset.mem_sdiff.mp hb).1).2 (e ▸ Finset.mem_image.mpr ⟨8, Finset.mem_univ _, rfl⟩)
    rw [show V4 m c b = V3 m c b from W4_of_ne m c b hne]

/-- At region 0's exit each of its arrays holds what the valuation after it names: an input what it held, the output
    what the write-backs leave. -/
theorem hF0 (c : Dev nD) : ∀ w : Fin 7, (dat0 (V1 m) c).arrAt w cfg0.N = V2 m c (Pipeline.arrRef spec0 w)
  | 0 => ((dat0 (V1 m) c).arrAt_in 0 rfl _).trans (W2_of_ne m c main_v0 (by decide)).symm
  | 1 => ((dat0 (V1 m) c).arrAt_in 1 rfl _).trans (W2_of_ne m c main_v0 (by decide)).symm
  | 2 => ((dat0 (V1 m) c).arrAt_in 2 rfl _).trans (W2_of_ne m c main_v3 (by decide)).symm
  | 3 => ((dat0 (V1 m) c).arrAt_in 3 rfl _).trans (W2_of_ne m c main_v4 (by decide)).symm
  | 4 => ((dat0 (V1 m) c).arrAt_in 4 rfl _).trans (W2_of_ne m c main_v5 (by decide)).symm
  | 5 => ((dat0 (V1 m) c).arrAt_in 5 rfl _).trans (W2_of_ne m c main_v6 (by decide)).symm
  | 6 => (W2_arr m c).symm
  | ⟨_ + 7, h⟩ => absurd h (Nat.not_lt.2 (Nat.le_add_left _ _))

/-- The same at region 1's exit. -/
theorem hF1 (c : Dev nD) : ∀ w : Fin 9, (dat1 (V3 m) c).arrAt w (cfgL (F := F)).N = V4 m c (Pipeline.arrRef spec1 w)
  | 0 => ((dat1 (V3 m) c).arrAt_in 0 rfl _).trans (W4_of_ne m c main_v0 (by decide)).symm
  | 1 => ((dat1 (V3 m) c).arrAt_in 1 rfl _).trans (W4_of_ne m c main_v0 (by decide)).symm
  | 2 => ((dat1 (V3 m) c).arrAt_in 2 rfl _).trans (W4_of_ne m c main_v3 (by decide)).symm
  | 3 => ((dat1 (V3 m) c).arrAt_in 3 rfl _).trans (W4_of_ne m c main_v4 (by decide)).symm
  | 4 => ((dat1 (V3 m) c).arrAt_in 4 rfl _).trans (W4_of_ne m c main_v5 (by decide)).symm
  | 5 => ((dat1 (V3 m) c).arrAt_in 5 rfl _).trans (W4_of_ne m c main_v6 (by decide)).symm
  | 6 => ((dat1 (V3 m) c).arrAt_in 6 rfl _).trans (W4_of_ne m c main_v7 (by decide)).symm
  | 7 => ((dat1 (V3 m) c).arrAt_in 7 rfl _).trans (W4_of_ne m c main_v8 (by decide)).symm
  | 8 => (W4_arr m c).symm
  | ⟨_ + 9, h⟩ => absurd h (Nat.not_lt.2 (Nat.le_add_left _ _))

/-! ## The tile tables: written once by the first stretch, never after -/

theorem W1_tbl (c : Dev nD) : ∀ k : Fin 3, V1 m c (pre1.ref k) = tblLit (F := F) k
  | 0 => by show StableHlo.after hostOps0 (fun b => m (c, b)) (Proc.devRef .tc main_c) = _; after_results; rfl
  | 1 => by show StableHlo.after hostOps0 (fun b => m (c, b)) (Proc.devRef .tc main_c_0) = _; after_results; rfl
  | 2 => by show StableHlo.after hostOps0 (fun b => m (c, b)) (Proc.devRef .tc main_c_1) = _; after_results; rfl
  | ⟨_ + 3, h⟩ => absurd h (Nat.not_lt.2 (Nat.le_add_left _ _))

theorem W3_tbl (c : Dev nD) : ∀ k : Fin 3, V3 m c (pre1.ref k) = tblLit (F := F) k
  | 0 => (W3_of m c main_c (by decide)).trans ((W2_of_ne m c main_c (by decide)).trans (W1_tbl m c 0))
  | 1 => (W3_of m c main_c_0 (by decide)).trans ((W2_of_ne m c main_c_0 (by decide)).trans (W1_tbl m c 1))
  | 2 => (W3_of m c main_c_1 (by decide)).trans ((W2_of_ne m c main_c_1 (by decide)).trans (W1_tbl m c 2))
  | ⟨_ + 3, h⟩ => absurd h (Nat.not_lt.2 (Nat.le_add_left _ _))

theorem W5_tbl (c : Dev nD) : ∀ k : Fin 3, W5 m c (Proc.devRef .tc (pre1.ref k)) = tblLit (F := F) k
  | 0 => (W5_of m c main_c (by decide)).trans ((W4_of_ne m c main_c (by decide)).trans (W3_tbl m c 0))
  | 1 => (W5_of m c main_c_0 (by decide)).trans ((W4_of_ne m c main_c_0 (by decide)).trans (W3_tbl m c 1))
  | 2 => (W5_of m c main_c_1 (by decide)).trans ((W4_of_ne m c main_c_1 (by decide)).trans (W3_tbl m c 2))
  | ⟨_ + 3, h⟩ => absurd h (Nat.not_lt.2 (Nat.le_add_left _ _))

/-! ## The proof data family and the thread state -/

/-- The prefetched tables' admissible contents: pipeline 0 has no table, pipeline 1 the program's literals. -/
abbrev adm : (p : Fin 2) → (pcfgs (F := F) p).Adm
  | ⟨0, _⟩ => cfg0.toPCfg_adm
  | ⟨1, _⟩ => adm1

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- After region 1 also the tables' halves its invariant gives back. -/
abbrev R' (c : Dev nD) : sProp 𝕄 := iprop(Pipeline.ΦT (U := UR sig nD τ) pre1 (tblLit (F := F)) c ∗ R (F := F) c)

/-- A host stretch as a segment over a set of buffers held whole, a rest riding along. -/
abbrev hseg (S : Finset (DevRef τ sig)) (ops : List (HloOp τ sig (Elt F))) (hS : ∀ op ∈ ops, op.bufs ⊆ S)
    (hfresh : ops.Forall fun op => op.fresh = ∅) (W : Dev nD → Valuation τ sig (Elt F)) (Rr : Dev nD → sProp 𝕄) :
    Pipeline.HostSeg (Name := ℕ) (U := UR sig nD τ) (pcfgs (F := F)) defs₀ 𝒱₀ L lv :=
  Pipeline.HostSeg.ofOps _ _ _ _ _ S ops hS (fun op h => (List.forall_iff_forall_mem.mp hfresh) op h) W Rr

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No operation of the last stretch touches a tile table. -/
theorem hostOps2_tail : ∀ op ∈ (hostOps2 : List (HloOp τ sig (Elt F))), op.bufs ⊆ Pipeline.tailRefs sig pre1 spec1 := by
  have h : (hostOps2 : List (HloOp τ sig (Elt F))).Forall fun op => ∀ k : Fin 3, Proc.devRef (τ := τ) .tc (pre1.ref k) ∉ op.bufs := by
    simp only [List.Forall, StableHlo.nullary_bufs, StableHlo.unary_bufs, StableHlo.binary_bufs, Finset.mem_insert, Finset.mem_singleton, not_or]
    refine ⟨?_, ?_, ?_, ?_, ?_, ?_, ?_, ?_, ?_, ?_, ?_, ?_, ?_, ?_⟩ <;> intro k <;> fin_cases k <;>
      (repeat' apply And.intro) <;> exact StableHlo.devRef_ne_of_ne (by decide)
  exact fun op hop => Pipeline.sub_tailRefs pre1 spec1 op ((List.forall_iff_forall_mem.mp hostOps2_sub) op hop)
    ((List.forall_iff_forall_mem.mp h) op hop)

/-! ## The regions as segments -/

set_option backward.isDefEq.respectTransparency.types false in
/-- REGION 0 over the thread state: entered from every unscoped buffer at `W1`, left at `W2`. Its arrays are split out of
    the unscoped buffers, the shared one dealt in halves, and joined back at the exit contents; the generator
    register goes into the class invariant and comes back; nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W1 m c) : sProp 𝕄)
        ⊢ iprop((pdats m 0 c).arrays ((pdats m 0 c).arrAt · 0) ∗ Pipeline.unscopedRest spec0 c (V1 m c)) := by
      rw [← Pipeline.unscopedBufs_held (Ix := Unit) (Name := ℕ) (U := UR sig nD τ) (Lvl := ℕ) c (W1 m c),
        ub_split spec0 winFacts₀0.arr_unscoped c (V1 m c)]
      exact sep_mono (split0 (V1 m) c (V1 m c)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1 m c))
        ⊢ (StableHlo.held (c : Thread nD τ) (Pipeline.ucRefs τ sig) (W2 m c) : sProp 𝕄) := by
      rw [← Pipeline.unscopedBufs_held (Ix := Unit) (Name := ℕ) (U := UR sig nD τ) (Lvl := ℕ) c (W2 m c),
        ub_split spec0 winFacts₀0.arr_unscoped c (V2 m c), rest0_congr m c,
        show ((pdats m 0 c).arrAt · cfg0.N) = fun w => V2 m c (Pipeline.arrRef spec0 w) from funext (hF0 m c)]
      exact sep_mono (join0 (V1 m) c (V2 m c)) .rfl
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, the tile tables among them at the
    program's literals; left with the arrays' buffers and the bypassing ones at `W4` and the tables at the half its
    invariant gives back (the other half stays behind: nothing after the region writes a table). Its arrays are
    split out as in region 0; the tables go whole into the invariant, which keeps the body's half. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.tailRefs sig pre1 spec1) (W4 m c) ∗ R' c)
  X c := iprop(∃ r, prngReg c r)
  Y c := iprop((∃ r, prngReg c r) ∗ Pipeline.ΦT (U := UR sig nD τ) pre1 (tblLit (F := F)) c)
  Z c := Pipeline.unscopedRestP (Ix := Unit) (Name := ℕ) (U := UR sig nD τ) (Lvl := ℕ) pre1 spec1 c (V3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0)
            ∗ Pipeline.prefHeld pre1 c (fun _ => fullShare) (tblLit (F := F)) ∗ Pipeline.unscopedRestP pre1 spec1 c (V3 m c)) := by
      rw [← Pipeline.unscopedBufs_held (Ix := Unit) (Name := ℕ) (U := UR sig nD τ) (Lvl := ℕ) c (W3 m c),
        ub_split spec1 winFacts₀1.arr_unscoped c (V3 m c), Pipeline.unscopedRest_split preFacts1 c (V3 m c),
        show (fun k => V3 m c (pre1.ref k)) = tblLit (F := F) from funext (W3_tbl m c)]
      exact sep_mono (split1 (V3 m) c (V3 m c)) .rfl
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ Pipeline.ΦT pre1 (tblLit (F := F)) c) from rfl]; unfold Pipeline.ΦA
    refine (show iprop((∃ r, prngReg c r) ∗ Pipeline.prefHeld pre1 c (fun _ => fullShare) (tblLit (F := F))
        ∗ Pipeline.scopedRest (Ix := Unit) (Name := ℕ) (U := UR sig nD τ) (Lvl := ℕ) (Val := Elt F) spec1 c) ⊢ _ from ?_)
    iintro ⟨Hp, Hpf, Hr⟩
    ihave Hpf2 := (Pipeline.prefHeld_share pre1 c (PosShare.mem_left_op_right fullShare) (tblLit (F := F))).1 $$ Hpf
    icases Hpf2 with ⟨-, Hpfr⟩
    isplitl [Hr Hp]
    · isplitl [Hr]; · iexact Hr
      iexact Hp
    iexact Hpfr
  hout c := by
    rw [Pipeline.ownSems0_none, show (pdats m 1 c).Φ (Fin.last _) = iprop(Pipeline.ΦA spec1 c ∗ Pipeline.ΦT pre1 (tblLit (F := F)) c) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin : iprop((pdats m 1 c).arrays ((pdats m 1 c).arrAt · (cfgL (F := F)).N) ∗ Pipeline.unscopedRestP pre1 spec1 c (V3 m c))
        ⊢ (StableHlo.held (c : Thread nD τ) (Pipeline.tailRefs sig pre1 spec1) (W4 m c) : sProp 𝕄) := by
      rw [held_tailRefs₀ pre1 spec1 c (W4 m c), rest1_congr m c,
        show ((pdats m 1 c).arrAt · (cfgL (F := F)).N) = fun w => V4 m c (Pipeline.arrRef spec1 w) from funext (hF1 m c)]
      exact sep_mono (join1 (V3 m) c (V4 m c)) .rfl
    iintro ⟨Ha, HO, ⟨HY, Hpf⟩, Hrest⟩
    imodintro
    isplitl [Ha Hrest]
    · iapply hjoin; isplitl [Ha] <;> iassumption
    isplitl [Hpf]; · iexact Hpf
    isplitl [HY]; · iexact HY
    unfold Pipeline.Dat.owesAt Pipeline.owesWithin
    icases HO with ⟨%W, -, HO⟩; iexists W; iexact HO

/-! ## The program as segments, and the launch -/

/-- An unscoped buffer is one a stretch after a region with tables may touch, or one of the tables. -/
theorem uc_cases {gr W : Nat} (pre : Pipeline.Prefetch sig) (win : Fin W → Pipeline.WinSpec sig gr) (b : DevRef τ sig)
    (hb : b ∈ Pipeline.ucRefs τ sig) : b ∈ Pipeline.tailRefs sig pre win ∨ ∃ k, b = Proc.devRef .tc (pre.ref k) := by
  classical
  simp only [Pipeline.tailRefs, Pipeline.ucRefs, StableHlo.tcRefs, Pipeline.restRefsP, Pipeline.restRefs, Finset.mem_map, Finset.mem_filter,
    Finset.mem_union, Finset.mem_sdiff, Finset.mem_image, Finset.mem_univ, true_and, Function.Embedding.coeFn_mk] at hb ⊢
  obtain ⟨⟨r, rfl⟩, hr⟩ := hb
  by_cases hk : ∃ k, pre.ref k = r
  · obtain ⟨k, rfl⟩ := hk; exact Or.inr ⟨k, rfl⟩
  · refine Or.inl ⟨r, ?_, rfl⟩
    by_cases h : ∃ w, Pipeline.arrRef win w = r
    · exact Or.inl h
    · exact Or.inr ⟨⟨hr, h⟩, hk⟩

/-- The program's five segments in order: a host segment per stretch from its boundary's contents, a region per kernel. -/
abbrev segs : List (Pipeline.Seg (pcfgs (F := F)) adm (pdats m) () defs₀ 𝒱₀ L lv) :=
  [ .host (hseg (Pipeline.ucRefs τ sig) hostOps0 (fun op h => Pipeline.sub_ucRefs op ((List.forall_iff_forall_mem.mp hostOps0_sub) op h)) hostOps0_fresh (W0 m) R),
    .region (reg0 m),
    .host (hseg (Pipeline.ucRefs τ sig) hostOps1 (fun op h => Pipeline.sub_ucRefs op ((List.forall_iff_forall_mem.mp hostOps1_sub) op h)) hostOps1_fresh (W2 m) R),
    .region (reg1 m),
    .host (hseg (Pipeline.tailRefs sig pre1 spec1) hostOps2 hostOps2_tail hostOps2_fresh (W4 m) R') ]

/-- The last thread state without the `owes`: the arrays' and the bypassing buffers at the last contents, the
    tables at their half, the generator register at some state. -/
abbrev Tₙ (c : Dev nD) : sProp 𝕄 :=
  iprop(StableHlo.held (c : Thread nD τ) (Pipeline.tailRefs sig pre1 spec1) (W5 m c)
    ∗ Pipeline.ΦT (U := UR sig nD τ) pre1 (tblLit (F := F)) c ∗ ∃ r, prngReg c r)

set_option backward.isDefEq.respectTransparency.types false in
/-- THE RUN: from any memory with zero counters, every weakly fair execution of the program on the TensorCore
    terminates, nothing faulting, and every final memory satisfies whatever follows from its holding each unscoped
    buffer at the last contents of the fold. -/
theorem run_of (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = W5 m c b) → Q (⟨⟩, s)) :
    θ_run defs (onTc (τ := τ) (main (F := F))) ⟨m, fun _ => 0, ρ⟩ Q :=
  Pipeline.θ_run_regions_kit (pcfgs (F := F)) adm (pdats m) () (cellOf_inj adm) emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      refine (show iprop(StableHlo.held (c : Thread nD τ) (Pipeline.tailRefs sig pre1 spec1) (W5 m c) ∗ R' (F := F) c) ⊢ _ from ?_)
      iintro ⟨Hh, Hpf, Hp, HO⟩
      isplitl [Hh Hpf Hp]
      · isplitl [Hh]; · iexact Hh
        isplitl [Hpf]; · iexact Hpf
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => (∀ b ∈ Pipeline.tailRefs sig pre1 spec1, s.mem ((c : Thread nD τ).1, b) = W5 m c b)
        ∧ ∀ k, s.mem ((c : Thread nD τ).loc (pre1.ref k)) = tblLit (F := F) k)
    (hfin := fun c s' => by
      refine (show iprop((StableHlo.held (c : Thread nD τ) (Pipeline.tailRefs sig pre1 spec1) (W5 m c)
          ∗ Pipeline.prefHeld (Ix := Unit) (Name := ℕ) (U := UR sig nD τ) (Lvl := ℕ) pre1 c (fun _ => fullShare.right) (tblLit (F := F))
          ∗ ∃ r, prngReg c r) ∗ SI s') ⊢ _ from ?_)
      unfold StableHlo.held Pipeline.prefHeld
      iintro ⟨⟨Hh, Hpf, -⟩, HSI⟩
      ihave Hr := (pointsTo_read_all (Pipeline.tailRefs sig pre1 spec1) (fun b => ((c : Thread nD τ).1, b)) (W5 m c) s') $$ [Hh HSI]
      · isplitl [Hh] <;> iassumption
      icases Hr with ⟨%h, HSI⟩
      ihave Hq := (pointsTo_read_all Finset.univ (fun k => (c : Thread nD τ).loc (pre1.ref k)) (tblLit (F := F)) s' fullShare.right) $$ [Hpf HSI]
      · isplitl [Hpf]; · iexact Hpf
        iexact HSI
      icases Hq with ⟨%hq, HSI⟩
      imodintro
      isplitr; · ipureintro; exact ⟨h, fun k => hq k (Finset.mem_univ k)⟩
      iexact HSI)
    (hQ := fun s h => hQ s fun c b hb => by
      rcases uc_cases pre1 spec1 b hb with hb | ⟨k, rfl⟩
      · exact (h c).1 b hb
      · exact ((h c).2 k).trans (W5_tbl m c k).symm)

/-- The run read at every unscoped buffer. -/
theorem run (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W5 m c b) :=
  run_of m ρ fun _ h => h

/-- The run read at the two arguments, which end as launched, and at the result, which ends at the fold's value. -/
theorem run_args (ρ : Dev nD → PrngReg) : θ_run defs (onTc (τ := τ) (main (F := F))) ⟨m, fun _ => 0, ρ⟩
    (fun r => ∀ c : Dev nD,
      r.2.mem ((c : Thread nD τ).loc main_v20) = W5 m c (Proc.devRef .tc main_v20)
      ∧ r.2.mem ((c : Thread nD τ).loc main_arg0) = m ((c : Thread nD τ).loc main_arg0)
      ∧ r.2.mem ((c : Thread nD τ).loc main_arg1) = m ((c : Thread nD τ).loc main_arg1)) :=
  run_of m ρ fun s h c =>
    ⟨h c _ (mem_uc main_v20 (by decide)),
     (h c _ (mem_uc main_arg0 (by decide))).trans (W5_main_arg0 m c),
     (h c _ (mem_uc main_arg1 (by decide))).trans (W5_main_arg1 m c)⟩

end Cert.KernelIdeal.Hand

end
-- ==== Proof.K.R0Body.lean ====
/-
  Region 0: the kernel body meets the pipeline rule's obligation at every grid point, for the data of R0Defs.
  The body branches on the column-block coordinate: at the first column block of a row block it stores zero in the
  output block before accumulating, at the second it accumulates over what the first left. Each case is run once on
  arbitrary whole staging buffers; the point-level statement selects the case from the position's parity.
-/
import proofs.«418922_j57629871178314_3_alg».proof.Proof.Gen.Kernel.Launch
import proofs.«418922_j57629871178314_3_alg».proof.Proof.Gen.Kernel.Skeleton
import proofs.«418922_j57629871178314_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
import proofs.«418922_j57629871178314_3_alg».proof.Proof.K.R0Defs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch, and the body on any staging buffers -/

/-- The body's branch: grid coordinate 1 is zero. -/
abbrev cond0 (i : grid0.Coords) : Prop := (Scalar.cmpi .ne (Scalar.extui (Scalar.cmpi .eq (BitVec.ofNat 32 (i 1).val) 0#32)) 0#32) = 1#1

/-- It holds at the even positions of the 8 x 2 grid: the first column block of each row block. -/
theorem hcond0 : ∀ t : Fin cfg0.N, cond0 (grid0.coords t) ↔ t.val % 2 = 0 :=
  (by decide +kernel : ∀ t : Fin grid0.N, cond0 (grid0.coords t) ↔ t.val % 2 = 0)

/-- The zero offsets of a rank-2 rectangle. -/
theorem zeroOff0 : (![0, 0] : Fin 2 → Nat) = fun _ => 0 := funext fun a => by fin_cases a <;> rfl

/-- A store through the whole 512 x 1 rectangle, last, covers the block. -/
theorem cover0_6 (p : Vec F S512x1 .f32) (L : List (View.Piece (Elt F) S512x1 .f32)) (y : S512x1.Idx) :
    ∃ pc ∈ ((⟨Rect.unit (s := S512x1) ![0, 0] S512x1.size inb_S512x1_S512x1_0_0, p⟩ : View.Piece (Elt F) S512x1 .f32) :: L), y ∈ pc.1.set :=
  ⟨_, List.mem_cons_self, View.mem_set_unit_zero (S := S512x1) zeroOff0 inb_S512x1_S512x1_0_0 y⟩

set_option maxHeartbeats 1000000 in
/-- The body where the branch is not taken (an odd position): on whole staging buffers, the inputs' at their contents and
    the output's at `xo`, it runs to the continuation holding the inputs' as they were and the output's at the step over `xo`:
    the one store covers the block, and its payload reads the six loads and the output's load. -/
theorem sound_kernel0_B (c : Dev nD) (E : Set ℕ) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (hc : ¬cond0 i)
    (x0 : Vec F S512x512 .bf16) (x1 : Vec F S2048x512 .bf16) (x2 : Vec F S512x1 .f32) (x3 : Vec F S1x2048 .f32) (x4 : Vec F S512x1 .i32) (x5 : Vec F S1x2048 .i32) (xo : Vec F S512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (step0 xo x0 x1 x2 x3 x4 x5)) -∗ K ⟨⟩))
      ⊢ wp frame (wpE (defs₀ (F := F)) Variants.none c none) E (cc0__row_neg_kernel i arg2 harg2 arg3 harg3 arg4 harg4 arg5 harg5 arg6 harg6 arg7 harg7 arg8 harg8) K := by
  simp only [cc0__row_neg_kernel_eq_skeleton]; unfold cc0__row_neg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact H6
  ipureintro
  rw [View.read_writes_eq_canon _ _ _ (cover0_6 _ _)]
  sl_unfold_words
  rw [View.canon_unit_zero (S := S512x1) zeroOff0]
  simp only [step0, View.readAt_eq_ld, harg2.read_unread, harg3.read_unread, harg4.read_unread, harg5.read_unread, harg6.read_unread, harg7.read_unread, harg8.read_unread,
    View.ld_unit_zero (S := S512x512) zeroOff0, View.ld_unit_zero (S := S2048x512) zeroOff0, View.ld_unit_zero (S := S1x2048) zeroOff0, View.ld_unit_zero (S := S512x1) zeroOff0]

set_option maxHeartbeats 1000000 in
/-- The body where the branch is taken (an even position): the output's buffer, at any contents, is stored zero, read
    back, and stored the step over zero; the last store covers the block. -/
theorem sound_kernel0_A (c : Dev nD) (E : Set ℕ) (i : grid0.Coords) (arg2 : Memref sig .tc .vmem S512x512 .bf16) (harg2 : arg2.IsWhole) (arg3 : Memref sig .tc .vmem S2048x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S512x1 .f32) (harg8 : arg8.IsWhole) (hc : cond0 i)
    (x0 : Vec F S512x512 .bf16) (x1 : Vec F S2048x512 .bf16) (x2 : Vec F S512x1 .f32) (x3 : Vec F S1x2048 .f32) (x4 : Vec F S512x1 .i32) (x5 : Vec F S1x2048 .i32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (step0 (k0_pay2 (F := F)) x0 x1 x2 x3 x4 x5)) -∗ K ⟨⟩))
      ⊢ wp frame (wpE (defs₀ (F := F)) Variants.none c none) E (cc0__row_neg_kernel i arg2 harg2 arg3 harg3 arg4 harg4 arg5 harg5 arg6 harg6 arg7 harg7 arg8 harg8) K := by
  simp only [cc0__row_neg_kernel_eq_skeleton]; unfold cc0__row_neg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact H6
  ipureintro
  rw [View.read_writes_eq_canon _ _ _ (cover0_6 _ _)]
  sl_unfold_words
  rw [View.canon_cons_unit_zero (S := S512x1) zeroOff0, View.readCov_unit_zero (S := S512x1) _ zeroOff0]
  simp only [step0, View.readAt_eq_ld, harg2.read_unread, harg3.read_unread, harg4.read_unread, harg5.read_unread, harg6.read_unread, harg7.read_unread,
    View.ld_unit_zero (S := S512x512) zeroOff0, View.ld_unit_zero (S := S2048x512) zeroOff0, View.ld_unit_zero (S := S1x2048) zeroOff0, View.ld_unit_zero (S := S512x1) zeroOff0]

variable (V : Ent F)

/-! ## What the buffers hold when the body is called -/

/-- Each input window's current staging buffer holds its block at every point, fetched there or not: an input whose block
    index has not moved was left in place by the body. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-- The accumulation at an even position: the step over zero. -/
theorem outsAt0_A (c : Dev nD) (t : Fin cfg0.N) (h0 : t.val % 2 = 0) :
    outsAt0 V c t.val t.isLt = step0 (k0_pay2 (F := F)) (iblk0 V c 0 t) (iblk0 V c 1 t) (iblk0 V c 2 t) (iblk0 V c 3 t) (iblk0 V c 4 t) (iblk0 V c 5 t) := by
  obtain ⟨n, hn⟩ := t
  cases n with
  | zero => rfl
  | succ n => dsimp only at h0; rw [outsAt0, if_pos h0]

/-- The accumulation at an odd position: the step over what the position before left. -/
theorem outsAt0_B (c : Dev nD) (t : Fin cfg0.N) (h0 : ¬t.val % 2 = 0) :
    outsAt0 V c t.val t.isLt = step0 (outsAt0 V c (t.val - 1) (Nat.lt_of_le_of_lt (Nat.sub_le _ _) t.isLt)) (iblk0 V c 0 t) (iblk0 V c 1 t) (iblk0 V c 2 t) (iblk0 V c 3 t) (iblk0 V c 4 t) (iblk0 V c 5 t) := by
  obtain ⟨n, hn⟩ := t
  cases n with
  | zero => exact absurd (Nat.zero_mod _) h0
  | succ n => dsimp only at h0; rw [outsAt0, if_neg h0]; rfl

/-- At an odd position the output's current staging buffer holds what the body left at the position before: the position
    is not the first, the block is written back at odd positions only, and the window is live and uncut. -/
theorem before0_6_B (c : Dev nD) (t : Fin cfg0.N) (h0 : ¬t.val % 2 = 0) (d) :
    (dat0 V c).before 6 t d = outsAt0 V c (t.val - 1) (Nat.lt_of_le_of_lt (Nat.sub_le _ _) t.isLt) := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  exact after0_6 V c _

/-! ## The body obligation, at a generic point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks; at an even position the branch is taken and the output's
    buffer, whatever it held, ends at the step over zero; at an odd one it held what the position before left and ends at
    the step over that. The invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val % 2 = 0
  · rw [outsAt0_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ (grid0.coords t) _ _ _ _ _ _ _ _ _ _ _ _ _ _ ((hcond0 t).mpr h0) (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outsAt0_B V c t h0]
    simp only [before0_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords t) _ _ _ _ _ _ _ _ _ _ _ _ _ _ (fun h => h0 ((hcond0 t).mp h)) (iblk0 V c 0 t) (iblk0 V c 1 t) (iblk0 V c 2 t) (iblk0 V c 3 t) (iblk0 V c 4 t) (iblk0 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- At every point the body, handed each input window's block and the output block as the point before left it,
    returns the inputs unchanged and the output block at `outsAt0`. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Body.lean ====
/-
  Region 1: the kernel body meets the pipeline rule's obligation at every grid point, for the data of R1Defs.
-/
import proofs.«418922_j57629871178314_3_alg».proof.Proof.Gen.Kernel.Launch
import proofs.«418922_j57629871178314_3_alg».proof.Proof.Gen.Kernel.Skeleton
import proofs.«418922_j57629871178314_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import Idealize.ShloMosaic.PureOps.BitExact
import proofs.«418922_j57629871178314_3_alg».proof.Proof.K.R1Defs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The tables as the body is handed them -/

/-- Each table as the body is handed it: its whole buffer as a memref, and that memref's wholeness. -/
abbrev tbM1_0 : Memref sig .tc .smem S2x18 .i32 := Memref.whole main_c
abbrev htbM1_0 : tbM1_0.IsWhole := Memref.isWhole_whole _
abbrev tbM1_1 : Memref sig .tc .smem S2x18 .i32 := Memref.whole main_c_0
abbrev htbM1_1 : tbM1_1.IsWhole := Memref.isWhole_whole _
abbrev tbM1_2 : Memref sig .tc .smem S2x18 .i32 := Memref.whole main_c_1
abbrev htbM1_2 : tbM1_2.IsWhole := Memref.isWhole_whole _

/-- A table memref's buffer on core `c`: its contents type, and it held at half the full share at `f` (read only: the
    other half stays with the pipeline). -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare.right} f

variable (V : Ent F)

/-- The zero offsets of a rank-2 block. -/
theorem zeroOffs1 : (![0, 0] : Fin 2 → Nat) = fun _ => 0 := funext fun a => by fin_cases a <;> rfl

/-- The whole 512 x 1 block as a rectangle at zero offsets: what the body's stores and loads of the output block go through. -/
abbrev r1_8 : Rect S512x1 := Rect.unit (s := S512x1) ![0, 0] S512x1.size inb_S512x1_S512x1_0_0

/-- One store through it covers the block. -/
theorem cover1_8 (p : Vec F S512x1 .f32) (y : S512x1.Idx) :
    ∃ pc ∈ ([⟨r1_8, p⟩] : List (View.Piece (Elt F) S512x1 .f32)), y ∈ pc.1.set :=
  ⟨⟨r1_8, p⟩, List.mem_singleton_self _, (View.mem_set_unit_zero (S := S512x1) zeroOffs1 inb_S512x1_S512x1_0_0 y : y ∈ r1_8.set)⟩

/-- The word a scalar load reads from a table held at contents `xt`, at offsets `off`. -/
abbrev wd1 (c : Dev nD) (M : Memref sig .tc .smem S2x18 .i32) (off : Fin 2 → Nat) (h : ∀ a, off a + S1x1.size a ≤ S2x18.size a)
    (xt : TbBuf1 (F := F) c M) : Elt F .i32 :=
  M.view.readAt (Elt F) (Rect.unit (s := S2x18) off S1x1.size h).toLoadRect xt (Shape.Idx.first (Facts₀.numel1_S1x1.symm ▸ Nat.one_pos))

/-- The body's branch condition over the flag word. -/
abbrev cnd1 (w : BitVec 32) : Prop := Scalar.cmpi .ne (Scalar.extui (Scalar.cmpi .eq w 1#32)) 0#32 = 1#1

set_option maxHeartbeats 1000000 in
/-- The kernel body on whole staging buffers, the inputs' at read contents `x·`, the output's at `acc`, the three tables held
    at contents `xt·`: it runs to the continuation holding the inputs and the tables as they were and the output block at one
    accumulator update of the inputs, the row and column block words read off the tables — over zero where the flag word is 1,
    over `acc` elsewhere. The one store covers the block, so what it leaves is its payload; each load of a whole buffer reads
    the contents. -/
theorem sound_kernel1 (c : Dev nD) (E : Set ℕ) (i : grid1.Coords)
    (arg5 : Memref sig .tc .vmem S512x512 .bf16) (harg5 : arg5.IsWhole) (arg6 : Memref sig .tc .vmem S512x512 .bf16) (harg6 : arg6.IsWhole)
    (arg7 : Memref sig .tc .vmem S512x1 .f32) (harg7 : arg7.IsWhole) (arg8 : Memref sig .tc .vmem S1x512 .f32) (harg8 : arg8.IsWhole)
    (arg9 : Memref sig .tc .vmem S512x1 .i32) (harg9 : arg9.IsWhole) (arg10 : Memref sig .tc .vmem S1x512 .i32) (harg10 : arg10.IsWhole)
    (arg11 : Memref sig .tc .vmem S512x1 .f32) (harg11 : arg11.IsWhole) (arg12 : Memref sig .tc .vmem S1x512 .f32) (harg12 : arg12.IsWhole)
    (arg13 : Memref sig .tc .vmem S512x1 .f32) (harg13 : arg13.IsWhole)
    (x0 : Vec F S512x512 .bf16) (x1 : Vec F S512x512 .bf16) (x2 : Vec F S512x1 .f32) (x3 : Vec F S1x512 .f32)
    (x4 : Vec F S512x1 .i32) (x5 : Vec F S1x512 .i32) (x6 : Vec F S512x1 .f32) (x7 : Vec F S1x512 .f32) (acc : Vec F S512x1 .f32)
    (xt0 : TbBuf1 (F := F) c tbM1_0) (xt1 : TbBuf1 (F := F) c tbM1_1) (xt2 : TbBuf1 (F := F) c tbM1_2)
    (K : PUnit → sProp 𝕄) :
    iprop(owns (c : Thread nD τ) arg5 fullShare x0 ∗ owns (c : Thread nD τ) arg6 fullShare x1 ∗ owns (c : Thread nD τ) arg7 fullShare x2
        ∗ owns (c : Thread nD τ) arg8 fullShare x3 ∗ owns (c : Thread nD τ) arg9 fullShare x4 ∗ owns (c : Thread nD τ) arg10 fullShare x5
        ∗ owns (c : Thread nD τ) arg11 fullShare x6 ∗ owns (c : Thread nD τ) arg12 fullShare x7
        ∗ owns (c : Thread nD τ) arg13 fullShare acc
        ∗ tbPt1 c tbM1_0 xt0 ∗ tbPt1 c tbM1_1 xt1 ∗ tbPt1 c tbM1_2 xt2
        ∗ (iprop(owns (c : Thread nD τ) arg5 fullShare x0 ∗ owns (c : Thread nD τ) arg6 fullShare x1 ∗ owns (c : Thread nD τ) arg7 fullShare x2
            ∗ owns (c : Thread nD τ) arg8 fullShare x3 ∗ owns (c : Thread nD τ) arg9 fullShare x4 ∗ owns (c : Thread nD τ) arg10 fullShare x5
            ∗ owns (c : Thread nD τ) arg11 fullShare x6 ∗ owns (c : Thread nD τ) arg12 fullShare x7
            ∗ owns (c : Thread nD τ) arg13 fullShare
                (k1_pay1 (k1_pay3 x0 x1 x2 x3) (k1_pay4 (F := F) x4 x5) (wd1 c tbM1_1 (k1_off2 i) (Facts₀.k1_off2_inb i) xt1)
                  (Scalar.muli (wd1 c tbM1_0 (k1_off2 i) (Facts₀.k1_off2_inb i) xt0) 512#32)
                  (iota .tc S512x512 32 [0] Facts₀.iota_S512x512_d0_w32) x6 x7
                  (if cnd1 (wd1 c tbM1_2 (k1_off1 i) (Facts₀.k1_off1_inb i) xt2) then k1_pay2 (F := F) else acc))
            ∗ tbPt1 c tbM1_0 xt0 ∗ tbPt1 c tbM1_1 xt1 ∗ tbPt1 c tbM1_2 xt2) -∗ K ⟨⟩))
      ⊢ wp frame (wpE (defs₀ (F := F)) Variants.none c none) E
          (cc1__loss_kernel i tbM1_0 htbM1_0 tbM1_1 htbM1_1 tbM1_2 htbM1_2 arg5 harg5 arg6 harg6 arg7 harg7 arg8 harg8 arg9 harg9 arg10 harg10 arg11 harg11 arg12 harg12 arg13 harg13) K := by
  simp only [cc1__loss_kernel_eq_skeleton]; unfold cc1__loss_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT0, HT1, HT2, Hk⟩
  obtain rfl := harg5.eq_unread hf0; obtain rfl := harg6.eq_unread hf1; obtain rfl := harg7.eq_unread hf2; obtain rfl := harg8.eq_unread hf3
  obtain rfl := harg9.eq_unread hf4; obtain rfl := harg10.eq_unread hf5; obtain rfl := harg11.eq_unread hf6; obtain rfl := harg12.eq_unread hf7
  obtain rfl := harg13.eq_unread hf8
  sl_exec
  sl_step
  iapply Hk
  isplitl [H0]; · iexists _; isplitr; · ipureintro; exact harg5.read_unread _
                  iexact H0
  isplitl [H1]; · iexists _; isplitr; · ipureintro; exact harg6.read_unread _
                  iexact H1
  isplitl [H2]; · iexists _; isplitr; · ipureintro; exact harg7.read_unread _
                  iexact H2
  isplitl [H3]; · iexists _; isplitr; · ipureintro; exact harg8.read_unread _
                  iexact H3
  isplitl [H4]; · iexists _; isplitr; · ipureintro; exact harg9.read_unread _
                  iexact H4
  isplitl [H5]; · iexists _; isplitr; · ipureintro; exact harg10.read_unread _
                  iexact H5
  isplitl [H6]; · iexists _; isplitr; · ipureintro; exact harg11.read_unread _
                  iexact H6
  isplitl [H7]; · iexists _; isplitr; · ipureintro; exact harg12.read_unread _
                  iexact H7
  isplitl [H8]
  · iexists _; isplitr
    swap; · iexact H8
    ipureintro
    sl_unfold_run_names
    refine (View.read_writes_eq_canon _ _ _ (cover1_8 _)).trans ?_
    refine (View.canon_unit_zero (S := S512x1) zeroOffs1 inb_S512x1_S512x1_0_0 _).trans ?_
    by_cases hc : cnd1 (wd1 c tbM1_2 (k1_off1 i) (Facts₀.k1_off1_inb i) xt2)
    · simp only [dif_pos hc, if_pos hc]
      rw [View.readAt_eq_ld arg13.view, View.read_writes_eq_canon _ _ _ (cover1_8 _), View.canon_unit_zero (S := S512x1) zeroOffs1]
      simp only [View.readAt_eq_ld, harg5.read_unread, harg6.read_unread, harg7.read_unread, harg8.read_unread, harg9.read_unread,
        harg10.read_unread, harg11.read_unread, harg12.read_unread,
        View.ld_unit_zero (S := S512x512) zeroOffs1, View.ld_unit_zero (S := S512x1) zeroOffs1, View.ld_unit_zero (S := S1x512) zeroOffs1]
      rfl
    · simp only [dif_neg hc, if_neg hc]
      simp only [View.readAt_eq_ld, harg5.read_unread, harg6.read_unread, harg7.read_unread, harg8.read_unread, harg9.read_unread,
        harg10.read_unread, harg11.read_unread, harg12.read_unread, harg13.read_unread,
        View.ld_unit_zero (S := S512x512) zeroOffs1, View.ld_unit_zero (S := S512x1) zeroOffs1, View.ld_unit_zero (S := S1x512) zeroOffs1]
      rfl
  isplitl [HT0]; · iexact HT0
  isplitl [HT1]; · iexact HT1
  iexact HT2

/-! ## The tables' halves, the table words -/

/-- The invariant's table halves, table by table: one half-share points-to per table, at the literal contents. -/
theorem PhiT1_eq (c : Dev nD) : (Pipeline.ΦT pre1 (tblLit (F := F)) c : sProp 𝕄)
    = iprop(tbPt1 c tbM1_0 (tblLit (F := F) 0) ∗ tbPt1 c tbM1_1 (tblLit (F := F) 1) ∗ tbPt1 c tbM1_2 (tblLit (F := F) 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- At the literal contents the words the body loads are the table words of `R1Defs`: the flag, the row block, the column block. -/
theorem wd1_first (c : Dev nD) (i : grid1.Coords) :
    wd1 (F := F) c tbM1_2 (k1_off1 i) (Facts₀.k1_off1_inb i) (tblLit (F := F) 2) = firstW (F := F) i := rfl
theorem wd1_rb (c : Dev nD) (i : grid1.Coords) :
    wd1 (F := F) c tbM1_0 (k1_off2 i) (Facts₀.k1_off2_inb i) (tblLit (F := F) 0) = rbW (F := F) i := rfl
theorem wd1_cb (c : Dev nD) (i : grid1.Coords) :
    wd1 (F := F) c tbM1_1 (k1_off2 i) (Facts₀.k1_off2_inb i) (tblLit (F := F) 1) = cbW (F := F) i := rfl

/-! ## The schedule of the output window at the literal tables -/

/-- At the literal tables a point whose first-visit flag is not set is not the first point, and the point before it did not
    write the output block back: the row block did not change. The table words are the same 32-bit integers at every float
    type, so the 36 points are decided at bit patterns. -/
theorem kept1_8 (t : Fin (cfgL (F := F)).N) (h : ¬ isFirst (F := F) ((cfgL (F := F)).grid.coords t)) :
    t.val ≠ 0 ∧ ((cfgL (F := F)).win 8).flush ⟨t.val - 1, Nat.lt_of_le_of_lt (Nat.sub_le _ _) t.isLt⟩ = false :=
  (by decide +kernel : ∀ t : Fin (cfgL (F := Bits)).N, ¬ isFirst (F := Bits) ((cfgL (F := Bits)).grid.coords t) →
    t.val ≠ 0 ∧ ((cfgL (F := Bits)).win 8).flush ⟨t.val - 1, Nat.lt_of_le_of_lt (Nat.sub_le _ _) t.isLt⟩ = false) t h

/-! ## What each window's buffer holds when the body runs -/

/-- Each input window's current staging buffer holds its block at every point, fetched there or not: unfetched, the block
    index has not moved. -/
theorem before1_0 (c : Dev nD) (t : Fin (cfgL (F := F)).N) (d) : (dat1 V c).before 0 t d = iblk1 V c 0 t :=
  ((dat1 V c).before_in_eq_fetched 0 rfl (fun _ => rfl) (fun _ _ _ => rfl)
    (fun t => by rw [(after1_in V c t).1]; unfold Dat.blockOf iblk1; rw [A_eq1]; try rfl) t d).trans
    (by unfold Dat.fetched Dat.blockOf iblk1; rw [A_eq1]; try rfl)

theorem before1_1 (c : Dev nD) (t : Fin (cfgL (F := F)).N) (d) : (dat1 V c).before 1 t d = iblk1 V c 1 t :=
  ((dat1 V c).before_in_eq_fetched 1 rfl (fun _ => rfl) (fun _ _ _ => rfl)
    (fun t => by rw [(after1_in V c t).2.1]; unfold Dat.blockOf iblk1; rw [A_eq1]; try rfl) t d).trans
    (by unfold Dat.fetched Dat.blockOf iblk1; rw [A_eq1]; try rfl)
theorem before1_2 (c : Dev nD) (t : Fin (cfgL (F := F)).N) (d) : (dat1 V c).before 2 t d = iblk1 V c 2 t :=
  ((dat1 V c).before_in_eq_fetched 2 rfl (fun _ => rfl) (fun _ _ _ => rfl)
    (fun t => by rw [(after1_in V c t).2.2.1]; unfold Dat.blockOf iblk1; rw [A_eq1]; try rfl) t d).trans
    (by unfold Dat.fetched Dat.blockOf iblk1; rw [A_eq1]; try rfl)
theorem before1_3 (c : Dev nD) (t : Fin (cfgL (F := F)).N) (d) : (dat1 V c).before 3 t d = iblk1 V c 3 t :=
  ((dat1 V c).before_in_eq_fetched 3 rfl (fun _ => rfl) (fun _ _ _ => rfl)
    (fun t => by rw [(after1_in V c t).2.2.2.1]; unfold Dat.blockOf iblk1; rw [A_eq1]; try rfl) t d).trans
    (by unfold Dat.fetched Dat.blockOf iblk1; rw [A_eq1]; try rfl)
theorem before1_4 (c : Dev nD) (t : Fin (cfgL (F := F)).N) (d) : (dat1 V c).before 4 t d = iblk1 V c 4 t :=
  ((dat1 V c).before_in_eq_fetched 4 rfl (fun _ => rfl) (fun _ _ _ => rfl)
    (fun t => by rw [(after1_in V c t).2.2.2.2.1]; unfold Dat.blockOf iblk1; rw [A_eq1]; try rfl) t d).trans
    (by unfold Dat.fetched Dat.blockOf iblk1; rw [A_eq1]; try rfl)
theorem before1_5 (c : Dev nD) (t : Fin (cfgL (F := F)).N) (d) : (dat1 V c).before 5 t d = iblk1 V c 5 t :=
  ((dat1 V c).before_in_eq_fetched 5 rfl (fun _ => rfl) (fun _ _ _ => rfl)
    (fun t => by rw [(after1_in V c t).2.2.2.2.2.1]; unfold Dat.blockOf iblk1; rw [A_eq1]; try rfl) t d).trans
    (by unfold Dat.fetched Dat.blockOf iblk1; rw [A_eq1]; try rfl)
theorem before1_6 (c : Dev nD) (t : Fin (cfgL (F := F)).N) (d) : (dat1 V c).before 6 t d = iblk1 V c 6 t :=
  ((dat1 V c).before_in_eq_fetched 6 rfl (fun _ => rfl) (fun _ _ _ => rfl)
    (fun t => by rw [(after1_in V c t).2.2.2.2.2.2.1]; unfold Dat.blockOf iblk1; rw [A_eq1]; try rfl) t d).trans
    (by unfold Dat.fetched Dat.blockOf iblk1; rw [A_eq1]; try rfl)
theorem before1_7 (c : Dev nD) (t : Fin (cfgL (F := F)).N) (d) : (dat1 V c).before 7 t d = iblk1 V c 7 t :=
  ((dat1 V c).before_in_eq_fetched 7 rfl (fun _ => rfl) (fun _ _ _ => rfl)
    (fun t => by rw [(after1_in V c t).2.2.2.2.2.2.2]; unfold Dat.blockOf iblk1; rw [A_eq1]; try rfl) t d).trans
    (by unfold Dat.fetched Dat.blockOf iblk1; rw [A_eq1]; try rfl)

/-- Where the flag is not set the output window's buffer holds what the body left at the point before. -/
theorem before1_8 (c : Dev nD) (t : Fin (cfgL (F := F)).N) (h : ¬ isFirst (F := F) ((cfgL (F := F)).grid.coords t)) (d) :
    (dat1 V c).before 8 t d = outsAt1 V c (t.val - 1) (Nat.lt_of_le_of_lt (Nat.sub_le _ _) t.isLt) := by
  obtain ⟨ht, hfl⟩ := kept1_8 t h
  rw [Dat.before_out_kept _ 8 rfl t ht hfl (fun _ => rfl) (fun _ _ => rfl)]
  exact after1_8 V c _

/-- The recursion of `outsAt1` at any point, over any accumulator that is the point before's where the flag is not set. -/
theorem outsAt1_step (c : Dev nD) (t : Fin (cfgL (F := F)).N) (acc : Vec F S512x1 .f32)
    (hacc : ¬ isFirst (F := F) ((cfgL (F := F)).grid.coords t) → acc = outsAt1 V c (t.val - 1) (Nat.lt_of_le_of_lt (Nat.sub_le _ _) t.isLt)) :
    outsAt1 V c t.val t.isLt = step1 ((cfgL (F := F)).grid.coords t)
      (if isFirst (F := F) ((cfgL (F := F)).grid.coords t) then k1_pay2 (F := F) else acc)
      (iblk1 V c 0 t) (iblk1 V c 1 t) (iblk1 V c 2 t) (iblk1 V c 3 t) (iblk1 V c 4 t) (iblk1 V c 5 t) (iblk1 V c 6 t) (iblk1 V c 7 t) := by
  obtain ⟨n, hn⟩ := t
  cases n with
  | zero =>
    have h0 : isFirst (F := F) ((cfgL (F := F)).grid.coords ⟨0, hn⟩) := by
      by_contra h; exact (kept1_8 ⟨0, hn⟩ h).1 rfl
    rw [if_pos h0]; rfl
  | succ n =>
    rw [outsAt1]
    by_cases h : isFirst (F := F) ((cfgL (F := F)).grid.coords ⟨n + 1, hn⟩)
    · rw [if_pos h, if_pos h]
    · have ha : acc = outsAt1 V c n (Nat.lt_of_succ_lt hn) := hacc h
      rw [if_neg h, if_neg h, ha]

/-! ## The body obligation at a point -/

/-- The kernel body at point `t`, on what the pipeline calls it with: the tables' memrefs and each window's current staging buffer. -/
abbrev bodyAt1 (t : Fin (cfgL (F := F)).N) : Prog (TpuEff nD τ sig (Elt F) Λ₀ .tc) PUnit :=
  cc1__loss_kernel (grid1.coords t) tbM1_0 htbM1_0 tbM1_1 htbM1_1 tbM1_2 htbM1_2
    (spec1_0.stage ((cfgL (F := F)).slots t 0)) (Facts₀.hstage1_0 (((cfgL (F := F)).slots t 0).cast Facts₀.nbuf1_0))
    (spec1_1.stage ((cfgL (F := F)).slots t 1)) (Facts₀.hstage1_1 (((cfgL (F := F)).slots t 1).cast Facts₀.nbuf1_1))
    (spec1_2.stage ((cfgL (F := F)).slots t 2)) (Facts₀.hstage1_2 (((cfgL (F := F)).slots t 2).cast Facts₀.nbuf1_2))
    (spec1_3.stage ((cfgL (F := F)).slots t 3)) (Facts₀.hstage1_3 (((cfgL (F := F)).slots t 3).cast Facts₀.nbuf1_3))
    (spec1_4.stage ((cfgL (F := F)).slots t 4)) (Facts₀.hstage1_4 (((cfgL (F := F)).slots t 4).cast Facts₀.nbuf1_4))
    (spec1_5.stage ((cfgL (F := F)).slots t 5)) (Facts₀.hstage1_5 (((cfgL (F := F)).slots t 5).cast Facts₀.nbuf1_5))
    (spec1_6.stage ((cfgL (F := F)).slots t 6)) (Facts₀.hstage1_6 (((cfgL (F := F)).slots t 6).cast Facts₀.nbuf1_6))
    (spec1_7.stage ((cfgL (F := F)).slots t 7)) (Facts₀.hstage1_7 (((cfgL (F := F)).slots t 7).cast Facts₀.nbuf1_7))
    (spec1_8.stage ((cfgL (F := F)).slots t 8)) (Facts₀.hstage1_8 (((cfgL (F := F)).slots t 8).cast Facts₀.nbuf1_8))

/-- What the body is called with at point `t`, the windows one by one, -/
def bodyPre1 (c : Dev nD) (t : Fin (cfgL (F := F)).N) : sProp 𝕄 :=
  iprop((dat1 V c).Φ t.castSucc ∗ (dat1 V c).owesAt () t.castSucc
    ∗ (∃ d, owns (c : Thread nD τ) (spec1_0.stage ((cfgL (F := F)).slots t 0)) fullShare ((dat1 V c).before 0 t d))
    ∗ (∃ d, owns (c : Thread nD τ) (spec1_1.stage ((cfgL (F := F)).slots t 1)) fullShare ((dat1 V c).before 1 t d))
    ∗ (∃ d, owns (c : Thread nD τ) (spec1_2.stage ((cfgL (F := F)).slots t 2)) fullShare ((dat1 V c).before 2 t d))
    ∗ (∃ d, owns (c : Thread nD τ) (spec1_3.stage ((cfgL (F := F)).slots t 3)) fullShare ((dat1 V c).before 3 t d))
    ∗ (∃ d, owns (c : Thread nD τ) (spec1_4.stage ((cfgL (F := F)).slots t 4)) fullShare ((dat1 V c).before 4 t d))
    ∗ (∃ d, owns (c : Thread nD τ) (spec1_5.stage ((cfgL (F := F)).slots t 5)) fullShare ((dat1 V c).before 5 t d))
    ∗ (∃ d, owns (c : Thread nD τ) (spec1_6.stage ((cfgL (F := F)).slots t 6)) fullShare ((dat1 V c).before 6 t d))
    ∗ (∃ d, owns (c : Thread nD τ) (spec1_7.stage ((cfgL (F := F)).slots t 7)) fullShare ((dat1 V c).before 7 t d))
    ∗ (∃ d, owns (c : Thread nD τ) (spec1_8.stage ((cfgL (F := F)).slots t 8)) fullShare ((dat1 V c).before 8 t d)))

/-- and what it returns. -/
def bodyPost1 (c : Dev nD) (t : Fin (cfgL (F := F)).N) : sProp 𝕄 :=
  iprop((dat1 V c).Φ t.succ ∗ (dat1 V c).owesAt () t.succ
    ∗ owns (c : Thread nD τ) (spec1_0.stage ((cfgL (F := F)).slots t 0)) fullShare ((dat1 V c).after 0 t)
    ∗ owns (c : Thread nD τ) (spec1_1.stage ((cfgL (F := F)).slots t 1)) fullShare ((dat1 V c).after 1 t)
    ∗ owns (c : Thread nD τ) (spec1_2.stage ((cfgL (F := F)).slots t 2)) fullShare ((dat1 V c).after 2 t)
    ∗ owns (c : Thread nD τ) (spec1_3.stage ((cfgL (F := F)).slots t 3)) fullShare ((dat1 V c).after 3 t)
    ∗ owns (c : Thread nD τ) (spec1_4.stage ((cfgL (F := F)).slots t 4)) fullShare ((dat1 V c).after 4 t)
    ∗ owns (c : Thread nD τ) (spec1_5.stage ((cfgL (F := F)).slots t 5)) fullShare ((dat1 V c).after 5 t)
    ∗ owns (c : Thread nD τ) (spec1_6.stage ((cfgL (F := F)).slots t 6)) fullShare ((dat1 V c).after 6 t)
    ∗ owns (c : Thread nD τ) (spec1_7.stage ((cfgL (F := F)).slots t 7)) fullShare ((dat1 V c).after 7 t)
    ∗ owns (c : Thread nD τ) (spec1_8.stage ((cfgL (F := F)).slots t 8)) fullShare ((dat1 V c).after 8 t))

set_option maxHeartbeats 1000000 in
/-- The body at any point: each input's buffer holds its block; the output's holds anything where the flag is set and what
    the point before left elsewhere; the tables' halves pass through read only; so the kernel's triple applies and its
    result is `outsAt1` by that function's recursion. -/
theorem sound_body1 (c : Dev nD) (t : Fin (cfgL (F := F)).N) :
    bodyPre1 V c t ⊢ wp frame (wpE (defs₀ (F := F)) Variants.none c none) Set.univ (bodyAt1 (F := F) t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    (after1_in V c t).1, (after1_in V c t).2.1, (after1_in V c t).2.2.1, (after1_in V c t).2.2.2.1, (after1_in V c t).2.2.2.2.1,
    (after1_in V c t).2.2.2.2.2.1, (after1_in V c t).2.2.2.2.2.2.1, (after1_in V c t).2.2.2.2.2.2.2, after1_8]
  rw [show (dat1 V c).Φ t.castSucc = iprop(Pipeline.ΦA spec1 c ∗ Pipeline.ΦT pre1 (tblLit (F := F)) c) from rfl, PhiT1_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hk := sound_kernel1 (F := F) c Set.univ (grid1.coords t)
    _ (Facts₀.hstage1_0 (((cfgL (F := F)).slots t 0).cast Facts₀.nbuf1_0)) _ (Facts₀.hstage1_1 (((cfgL (F := F)).slots t 1).cast Facts₀.nbuf1_1)) _ (Facts₀.hstage1_2 (((cfgL (F := F)).slots t 2).cast Facts₀.nbuf1_2)) _ (Facts₀.hstage1_3 (((cfgL (F := F)).slots t 3).cast Facts₀.nbuf1_3)) _ (Facts₀.hstage1_4 (((cfgL (F := F)).slots t 4).cast Facts₀.nbuf1_4)) _ (Facts₀.hstage1_5 (((cfgL (F := F)).slots t 5).cast Facts₀.nbuf1_5)) _ (Facts₀.hstage1_6 (((cfgL (F := F)).slots t 6).cast Facts₀.nbuf1_6)) _ (Facts₀.hstage1_7 (((cfgL (F := F)).slots t 7).cast Facts₀.nbuf1_7)) _ (Facts₀.hstage1_8 (((cfgL (F := F)).slots t 8).cast Facts₀.nbuf1_8))
    (iblk1 V c 0 t) (iblk1 V c 1 t) (iblk1 V c 2 t) (iblk1 V c 3 t) (iblk1 V c 4 t) (iblk1 V c 5 t) (iblk1 V c 6 t) (iblk1 V c 7 t)
    ((dat1 V c).before 8 t d8) (tblLit (F := F) 0) (tblLit (F := F) 1) (tblLit (F := F) 2)
  rw [wd1_first, wd1_rb, wd1_cb] at hk
  iapply (hk _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT0]; · iexact HT0
  isplitl [HT1]; · iexact HT1
  isplitl [HT2]; · iexact HT2
  iintro ⟨H0, H1, H2, H3, H4, H5, H6, H7, H8, HT0, HT1, HT2⟩
  isplitl [HΦ HT0 HT1 HT2]
  · isplitl [HΦ]; · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [outsAt1_step V c t ((dat1 V c).before 8 t d8) (fun h => before1_8 V c t h d8)]
  unfold step1
  iexact H8

/-- At every point the body, handed each input window's block, the tables' halves and the output block as the point
    before left it, returns the inputs unchanged and the output block at `outsAt1`. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the whole program: the contents of the TensorCore's unscoped buffers at every boundary between a
  stretch of host operations and a kernel region, folded from the launch memory, and the launch theorem over the
  five segments of the program, read at the end at every unscoped buffer.
-/
import proofs.«418922_j57629871178314_3_alg».proof.Proof.Gen.Kernel.Launch
import proofs.«418922_j57629871178314_3_alg».proof.Proof.Gen.Kernel.Skeleton
import proofs.«418922_j57629871178314_3_alg».proof.Proof.Gen.Kernel.Points
import proofs.«418922_j57629871178314_3_alg».proof.Proof.Gen.Kernel.Regions
import Idealize.ShloMosaic.Lib.Pipeline.FrameBody
import Idealize.ShloMosaic.Lib.Pipeline.Frame
import Idealize.ShloMosaic.Lib.Pipeline.FrameSuffix
import Idealize.ShloMosaic.Lib.Pipeline.Regions
import Idealize.ShloMosaic.Lib.Pipeline.Kit
import Idealize.ShloMosaic.Lib.Ring
import Idealize.ShloMosaic.Lib.Tactic
import proofs.«418922_j57629871178314_3_alg».proof.Proof.K.Fold
import proofs.«418922_j57629871178314_3_alg».proof.Proof.K.R0Body
import proofs.«418922_j57629871178314_3_alg».proof.Proof.K.R1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arrays of a region among the unscoped buffers

In both regions windows 0 and 1 read one array (the bf16 copy of the first argument), each holding a half of it;
every other window holds its array whole. -/

section Arrays

variable (V : Ent F)

/-- The buffers behind region 0's arrays, listed. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_v3) ↦{fullShare} V' main_v3)
          ∗ (((c : Thread nD τ).loc main_v4) ↦{fullShare} V' main_v4) ∗ (((c : Thread nD τ).loc main_v5) ↦{fullShare} V' main_v5)
          ∗ (((c : Thread nD τ).loc main_v6) ↦{fullShare} V' main_v6) ∗ (((c : Thread nD τ).loc main_v7) ↦{fullShare} V' main_v7)) := by
  unfold Pipeline.arrBufs
  exact bigSep_eq_bigSepL_of_eq [main_v0, main_v3, main_v4, main_v5, main_v6, main_v7] (by decide) (by decide) _

/-- Region 0's arrays at the contents `V'` names, one window at a time. -/
theorem arrays0_eq (c : Dev nD) (V' : (b : Ref sig .tc) → Buf (Elt F) ((c : Thread nD τ).loc b)) :
    ((dat0 V c).arrays fun w => V' (Pipeline.arrRef spec0 w) : sProp 𝕄)
      = iprop((((c : Thread nD τ).loc main_v0) ↦{fullShare.left} V' main_v0) ∗ (((c : Thread nD τ).loc main_v0) ↦{fullShare.right} V' main_v0)
          ∗ (((c : Thread nD τ).loc main_v3) ↦{fullShare} V' main_v3)
          ∗ (((c : Thread nD τ).loc main_v4) ↦{fullShare} V' main_v4) ∗ (((c : Thread nD τ).loc main_v5) ↦{fullShare} V' main_v5)
          ∗ (((c : Thread nD τ).loc main_v6) ↦{fullShare} V' main_v6) ∗ (((c : Thread nD τ).loc main_v7) ↦{fullShare} V' main_v7)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-- ENTRY of region 0: the buffers behind its arrays, each whole, make its arrays — the shared one dealt in halves. -/
theorem split0 (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊢ (dat0 V c).arrays fun w => V' (Pipeline.arrRef spec0 w) := by
  rw [arrBufs0_eq, arrays0_eq]
  iintro ⟨H0, H3, H4, H5, H6, H7⟩
  ihave H0' := (pointsTo_share (PosShare.mem_left_op_right fullShare)).1 $$ H0
  icases H0' with ⟨H0l, H0r⟩
  isplitl [H0l]; · iexact H0l
  isplitl [H0r]; · iexact H0r
  isplitl [H3]; · iexact H3
  isplitl [H4]; · iexact H4
  isplitl [H5]; · iexact H5
  isplitl [H6]; · iexact H6
  iexact H7

/-- EXIT of region 0: its arrays give back the buffers behind them, each whole — the two halves of the shared one joined. -/
theorem join0 (c : Dev nD) (V' : (b : Ref sig .tc) → Buf (Elt F) ((c : Thread nD τ).loc b)) :
    ((dat0 V c).arrays fun w => V' (Pipeline.arrRef spec0 w) : sProp 𝕄)
      ⊢ Pipeline.arrBufs (Ix := Unit) (Name := ℕ) (U := UR sig nD τ) (Lvl := ℕ) spec0 c V' := by
  rw [arrBufs0_eq, arrays0_eq]
  iintro ⟨H0l, H0r, H3, H4, H5, H6, H7⟩
  isplitl [H0l H0r]
  · iapply (pointsTo_share (PosShare.mem_left_op_right fullShare)).2
    isplitl [H0l]; · iexact H0l
    iexact H0r
  isplitl [H3]; · iexact H3
  isplitl [H4]; · iexact H4
  isplitl [H5]; · iexact H5
  isplitl [H6]; · iexact H6
  iexact H7

end Arrays

section Arrays1

variable (V : Ent F)

/-- The buffers behind region 1's arrays, listed. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0) ↦{fullShare} V' main_v0) ∗ (((c : Thread nD τ).loc main_v3) ↦{fullShare} V' main_v3)
          ∗ (((c : Thread nD τ).loc main_v4) ↦{fullShare} V' main_v4) ∗ (((c : Thread nD τ).loc main_v5) ↦{fullShare} V' main_v5)
          ∗ (((c : Thread nD τ).loc main_v6) ↦{fullShare} V' main_v6) ∗ (((c : Thread nD τ).loc main_v7) ↦{fullShare} V' main_v7)
          ∗ (((c : Thread nD τ).loc main_v8) ↦{fullShare} V' main_v8) ∗ (((c : Thread nD τ).loc main_v9) ↦{fullShare} V' main_v9)) := by
  unfold Pipeline.arrBufs
  exact bigSep_eq_bigSepL_of_eq [main_v0, main_v3, main_v4, main_v5, main_v6, main_v7, main_v8, main_v9] (by decide) (by decide) _

/-- Region 1's arrays at the contents `V'` names, one window at a time. -/
theorem arrays1_eq (c : Dev nD) (V' : (b : Ref sig .tc) → Buf (Elt F) ((c : Thread nD τ).loc b)) :
    ((dat1 V c).arrays fun w => V' (Pipeline.arrRef spec1 w) : sProp 𝕄)
      = iprop((((c : Thread nD τ).loc main_v0) ↦{fullShare.left} V' main_v0) ∗ (((c : Thread nD τ).loc main_v0) ↦{fullShare.right} V' main_v0)
          ∗ (((c : Thread nD τ).loc main_v3) ↦{fullShare} V' main_v3)
          ∗ (((c : Thread nD τ).loc main_v4) ↦{fullShare} V' main_v4) ∗ (((c : Thread nD τ).loc main_v5) ↦{fullShare} V' main_v5)
          ∗ (((c : Thread nD τ).loc main_v6) ↦{fullShare} V' main_v6) ∗ (((c : Thread nD τ).loc main_v7) ↦{fullShare} V' main_v7)
          ∗ (((c : Thread nD τ).loc main_v8) ↦{fullShare} V' main_v8) ∗ (((c : Thread nD τ).loc main_v9) ↦{fullShare} V' main_v9)) := by
  unfold Dat.arrays
  rw [bigSep_W1]
  rw [(arr_whole1 0).set_eq_univ, (arr_whole1 2).set_eq_univ, (arr_whole1 3).set_eq_univ,
    (arr_whole1 4).set_eq_univ, (arr_whole1 5).set_eq_univ, (arr_whole1 6).set_eq_univ, (arr_whole1 7).set_eq_univ, (arr_whole1 8).set_eq_univ]
  rfl

/-- ENTRY of region 1: the buffers behind its arrays, each whole, make its arrays — the shared one dealt in halves. -/
theorem split1 (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      ⊢ (dat1 V c).arrays fun w => V' (Pipeline.arrRef spec1 w) := by
  rw [arrBufs1_eq, arrays1_eq]
  iintro ⟨H0, H3, H4, H5, H6, H7, H8, H9⟩
  ihave H0' := (pointsTo_share (PosShare.mem_left_op_right fullShare)).1 $$ H0
  icases H0' with ⟨H0l, H0r⟩
  isplitl [H0l]; · iexact H0l
  isplitl [H0r]; · iexact H0r
  isplitl [H3]; · iexact H3
  isplitl [H4]; · iexact H4
  isplitl [H5]; · iexact H5
  isplitl [H6]; · iexact H6
  isplitl [H7]; · iexact H7
  isplitl [H8]; · iexact H8
  iexact H9

/-- EXIT of region 1: its arrays give back the buffers behind them, each whole — the two halves of the shared one joined. -/
theorem join1 (c : Dev nD) (V' : (b : Ref sig .tc) → Buf (Elt F) ((c : Thread nD τ).loc b)) :
    ((dat1 V c).arrays fun w => V' (Pipeline.arrRef spec1 w) : sProp 𝕄)
      ⊢ Pipeline.arrBufs (Ix := Unit) (Name := ℕ) (U := UR sig nD τ) (Lvl := ℕ) spec1 c V' := by
  rw [arrBufs1_eq, arrays1_eq]
  iintro ⟨H0l, H0r, H3, H4, H5, H6, H7, H8, H9⟩
  isplitl [H0l H0r]
  · iapply (pointsTo_share (PosShare.mem_left_op_right fullShare)).2
    isplitl [H0l]; · iexact H0l
    iexact H0r
  isplitl [H3]; · iexact H3
  isplitl [H4]; · iexact H4
  isplitl [H5]; · iexact H5
  isplitl [H6]; · iexact H6
  isplitl [H7]; · iexact H7
  isplitl [H8]; · iexact H8
  iexact H9

end Arrays1

/-! ## The unscoped buffers around a region -/

/-- A core's unscoped buffers are the buffers behind a pipeline's arrays, shared or not, and the rest. -/
theorem ub_split {gr W : Nat} (win : Fin W → Pipeline.WinSpec sig gr) (hun : ∀ w, (Pipeline.arrRef win w).isScoped = false)
    (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs win c V' ∗ Pipeline.unscopedRest win c V') := by
  classical
  have hA : Finset.univ.image (Pipeline.arrRef win) ⊆ Finset.univ.filter fun b : Ref sig .tc => ¬ b.isScoped := fun b hb => by
    obtain ⟨w, -, rfl⟩ := Finset.mem_image.mp hb
    exact Finset.mem_filter.mpr ⟨Finset.mem_univ _, by simp [hun w]⟩
  unfold unscopedBufs Pipeline.unscopedRest Pipeline.arrBufs
  rw [bigSep_sdiff_split hA]
  rfl

/-- The buffers a stretch after a region with prefetched tables runs within — the arrays' and the bypassing ones —
    held at a valuation: the buffers behind the arrays, shared or not, and the bypassing rest. -/
theorem held_tailRefs₀ {gr W : Nat} (pre : Pipeline.Prefetch sig) (win : Fin W → Pipeline.WinSpec sig gr) (c : Dev nD)
    (Wv : Valuation τ sig (Elt F)) :
    (StableHlo.held (c : Thread nD τ) (Pipeline.tailRefs sig pre win) Wv : sProp 𝕄)
      = iprop(Pipeline.arrBufs win c (fun b => Wv (Proc.devRef .tc b)) ∗ Pipeline.unscopedRestP pre win c (fun b => Wv (Proc.devRef .tc b))) := by
  classical
  have hdisj : Disjoint (Finset.univ.image (Pipeline.arrRef win)) (Pipeline.restRefsP sig pre win) :=
    Finset.disjoint_left.mpr fun b hb hr => (Finset.mem_sdiff.mp (Finset.mem_sdiff.mp hr).1).2 hb
  unfold StableHlo.held Pipeline.tailRefs Pipeline.arrBufs Pipeline.unscopedRestP
  rw [bigSep_map, bigSep_union hdisj]
  rfl

/-- Region 0 changes no buffer that bypasses it. -/
theorem rest0_congr (c : Dev nD) :
    (Pipeline.unscopedRest (Ix := Unit) (Name := ℕ) (U := UR sig nD τ) (Lvl := ℕ) spec0 c (V2 m c) : sProp 𝕄)
      = Pipeline.unscopedRest spec0 c (V1 m c) := by
  unfold Pipeline.unscopedRest
  exact bigSep_congr fun b hb => by
    have hne : b ≠ main_v7 := fun e => (Finset.mem_sdiff.mp hb).2 (e ▸ Finset.mem_image.mpr ⟨6, Finset.mem_univ _, rfl⟩)
    rw [show V2 m c b = V1 m c b from W2_of_ne m c b hne]

/-- Region 1 changes no buffer that bypasses it. -/
theorem rest1_congr (c : Dev nD) :
    (Pipeline.unscopedRestP (Ix := Unit) (Name := ℕ) (U := UR sig nD τ) (Lvl := ℕ) pre1 spec1 c (V4 m c) : sProp 𝕄)
      = Pipeline.unscopedRestP pre1 spec1 c (V3 m c) := by
  unfold Pipeline.unscopedRestP
  exact bigSep_congr fun b hb => by
    have hne : b ≠ main_v9 := fun e => (Finset.mem_sdiff.mp (Finset.mem_sdiff.mp hb).1).2 (e ▸ Finset.mem_image.mpr ⟨8, Finset.mem_univ _, rfl⟩)
    rw [show V4 m c b = V3 m c b from W4_of_ne m c b hne]

/-- At region 0's exit each of its arrays holds what the valuation after it names: an input what it held, the output
    what the write-backs leave. -/
theorem hF0 (c : Dev nD) : ∀ w : Fin 7, (dat0 (V1 m) c).arrAt w cfg0.N = V2 m c (Pipeline.arrRef spec0 w)
  | 0 => ((dat0 (V1 m) c).arrAt_in 0 rfl _).trans (W2_of_ne m c main_v0 (by decide)).symm
  | 1 => ((dat0 (V1 m) c).arrAt_in 1 rfl _).trans (W2_of_ne m c main_v0 (by decide)).symm
  | 2 => ((dat0 (V1 m) c).arrAt_in 2 rfl _).trans (W2_of_ne m c main_v3 (by decide)).symm
  | 3 => ((dat0 (V1 m) c).arrAt_in 3 rfl _).trans (W2_of_ne m c main_v4 (by decide)).symm
  | 4 => ((dat0 (V1 m) c).arrAt_in 4 rfl _).trans (W2_of_ne m c main_v5 (by decide)).symm
  | 5 => ((dat0 (V1 m) c).arrAt_in 5 rfl _).trans (W2_of_ne m c main_v6 (by decide)).symm
  | 6 => (W2_arr m c).symm
  | ⟨_ + 7, h⟩ => absurd h (Nat.not_lt.2 (Nat.le_add_left _ _))

/-- The same at region 1's exit. -/
theorem hF1 (c : Dev nD) : ∀ w : Fin 9, (dat1 (V3 m) c).arrAt w (cfgL (F := F)).N = V4 m c (Pipeline.arrRef spec1 w)
  | 0 => ((dat1 (V3 m) c).arrAt_in 0 rfl _).trans (W4_of_ne m c main_v0 (by decide)).symm
  | 1 => ((dat1 (V3 m) c).arrAt_in 1 rfl _).trans (W4_of_ne m c main_v0 (by decide)).symm
  | 2 => ((dat1 (V3 m) c).arrAt_in 2 rfl _).trans (W4_of_ne m c main_v3 (by decide)).symm
  | 3 => ((dat1 (V3 m) c).arrAt_in 3 rfl _).trans (W4_of_ne m c main_v4 (by decide)).symm
  | 4 => ((dat1 (V3 m) c).arrAt_in 4 rfl _).trans (W4_of_ne m c main_v5 (by decide)).symm
  | 5 => ((dat1 (V3 m) c).arrAt_in 5 rfl _).trans (W4_of_ne m c main_v6 (by decide)).symm
  | 6 => ((dat1 (V3 m) c).arrAt_in 6 rfl _).trans (W4_of_ne m c main_v7 (by decide)).symm
  | 7 => ((dat1 (V3 m) c).arrAt_in 7 rfl _).trans (W4_of_ne m c main_v8 (by decide)).symm
  | 8 => (W4_arr m c).symm
  | ⟨_ + 9, h⟩ => absurd h (Nat.not_lt.2 (Nat.le_add_left _ _))

/-! ## The tile tables: written once by the first stretch, never after -/

theorem W1_tbl (c : Dev nD) : ∀ k : Fin 3, V1 m c (pre1.ref k) = tblLit (F := F) k
  | 0 => by show StableHlo.after hostOps0 (fun b => m (c, b)) (Proc.devRef .tc main_c) = _; after_results; rfl
  | 1 => by show StableHlo.after hostOps0 (fun b => m (c, b)) (Proc.devRef .tc main_c_0) = _; after_results; rfl
  | 2 => by show StableHlo.after hostOps0 (fun b => m (c, b)) (Proc.devRef .tc main_c_1) = _; after_results; rfl
  | ⟨_ + 3, h⟩ => absurd h (Nat.not_lt.2 (Nat.le_add_left _ _))

theorem W3_tbl (c : Dev nD) : ∀ k : Fin 3, V3 m c (pre1.ref k) = tblLit (F := F) k
  | 0 => (W3_of m c main_c (by decide)).trans ((W2_of_ne m c main_c (by decide)).trans (W1_tbl m c 0))
  | 1 => (W3_of m c main_c_0 (by decide)).trans ((W2_of_ne m c main_c_0 (by decide)).trans (W1_tbl m c 1))
  | 2 => (W3_of m c main_c_1 (by decide)).trans ((W2_of_ne m c main_c_1 (by decide)).trans (W1_tbl m c 2))
  | ⟨_ + 3, h⟩ => absurd h (Nat.not_lt.2 (Nat.le_add_left _ _))

theorem W5_tbl (c : Dev nD) : ∀ k : Fin 3, W5 m c (Proc.devRef .tc (pre1.ref k)) = tblLit (F := F) k
  | 0 => (W5_of m c main_c (by decide)).trans ((W4_of_ne m c main_c (by decide)).trans (W3_tbl m c 0))
  | 1 => (W5_of m c main_c_0 (by decide)).trans ((W4_of_ne m c main_c_0 (by decide)).trans (W3_tbl m c 1))
  | 2 => (W5_of m c main_c_1 (by decide)).trans ((W4_of_ne m c main_c_1 (by decide)).trans (W3_tbl m c 2))
  | ⟨_ + 3, h⟩ => absurd h (Nat.not_lt.2 (Nat.le_add_left _ _))

/-! ## The proof data family and the thread state -/

/-- The prefetched tables' admissible contents: pipeline 0 has no table, pipeline 1 the program's literals. -/
abbrev adm : (p : Fin 2) → (pcfgs (F := F) p).Adm
  | ⟨0, _⟩ => cfg0.toPCfg_adm
  | ⟨1, _⟩ => adm1

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- After region 1 also the tables' halves its invariant gives back. -/
abbrev R' (c : Dev nD) : sProp 𝕄 := iprop(Pipeline.ΦT (U := UR sig nD τ) pre1 (tblLit (F := F)) c ∗ R (F := F) c)

/-- A host stretch as a segment over a set of buffers held whole, a rest riding along. -/
abbrev hseg (S : Finset (DevRef τ sig)) (ops : List (HloOp τ sig (Elt F))) (hS : ∀ op ∈ ops, op.bufs ⊆ S)
    (hfresh : ops.Forall fun op => op.fresh = ∅) (W : Dev nD → Valuation τ sig (Elt F)) (Rr : Dev nD → sProp 𝕄) :
    Pipeline.HostSeg (Name := ℕ) (U := UR sig nD τ) (pcfgs (F := F)) defs₀ 𝒱₀ L lv :=
  Pipeline.HostSeg.ofOps _ _ _ _ _ S ops hS (fun op h => (List.forall_iff_forall_mem.mp hfresh) op h) W Rr

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No operation of the last stretch touches a tile table. -/
theorem hostOps2_tail : ∀ op ∈ (hostOps2 : List (HloOp τ sig (Elt F))), op.bufs ⊆ Pipeline.tailRefs sig pre1 spec1 := by
  have h : (hostOps2 : List (HloOp τ sig (Elt F))).Forall fun op => ∀ k : Fin 3, Proc.devRef (τ := τ) .tc (pre1.ref k) ∉ op.bufs := by
    simp only [List.Forall, StableHlo.nullary_bufs, StableHlo.unary_bufs, StableHlo.binary_bufs, Finset.mem_insert, Finset.mem_singleton, not_or]
    refine ⟨?_, ?_, ?_, ?_, ?_, ?_, ?_, ?_, ?_, ?_, ?_, ?_, ?_, ?_⟩ <;> intro k <;> fin_cases k <;>
      (repeat' apply And.intro) <;> exact StableHlo.devRef_ne_of_ne (by decide)
  exact fun op hop => Pipeline.sub_tailRefs pre1 spec1 op ((List.forall_iff_forall_mem.mp hostOps2_sub) op hop)
    ((List.forall_iff_forall_mem.mp h) op hop)

/-! ## The regions as segments -/

set_option backward.isDefEq.respectTransparency.types false in
/-- REGION 0 over the thread state: entered from every unscoped buffer at `W1`, left at `W2`. Its arrays are split out of
    the unscoped buffers, the shared one dealt in halves, and joined back at the exit contents; the generator
    register goes into the class invariant and comes back; nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W1 m c) : sProp 𝕄)
        ⊢ iprop((pdats m 0 c).arrays ((pdats m 0 c).arrAt · 0) ∗ Pipeline.unscopedRest spec0 c (V1 m c)) := by
      rw [← Pipeline.unscopedBufs_held (Ix := Unit) (Name := ℕ) (U := UR sig nD τ) (Lvl := ℕ) c (W1 m c),
        ub_split spec0 winFacts₀0.arr_unscoped c (V1 m c)]
      exact sep_mono (split0 (V1 m) c (V1 m c)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1 m c))
        ⊢ (StableHlo.held (c : Thread nD τ) (Pipeline.ucRefs τ sig) (W2 m c) : sProp 𝕄) := by
      rw [← Pipeline.unscopedBufs_held (Ix := Unit) (Name := ℕ) (U := UR sig nD τ) (Lvl := ℕ) c (W2 m c),
        ub_split spec0 winFacts₀0.arr_unscoped c (V2 m c), rest0_congr m c,
        show ((pdats m 0 c).arrAt · cfg0.N) = fun w => V2 m c (Pipeline.arrRef spec0 w) from funext (hF0 m c)]
      exact sep_mono (join0 (V1 m) c (V2 m c)) .rfl
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, the tile tables among them at the
    program's literals; left with the arrays' buffers and the bypassing ones at `W4` and the tables at the half its
    invariant gives back (the other half stays behind: nothing after the region writes a table). Its arrays are
    split out as in region 0; the tables go whole into the invariant, which keeps the body's half. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.tailRefs sig pre1 spec1) (W4 m c) ∗ R' c)
  X c := iprop(∃ r, prngReg c r)
  Y c := iprop((∃ r, prngReg c r) ∗ Pipeline.ΦT (U := UR sig nD τ) pre1 (tblLit (F := F)) c)
  Z c := Pipeline.unscopedRestP (Ix := Unit) (Name := ℕ) (U := UR sig nD τ) (Lvl := ℕ) pre1 spec1 c (V3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0)
            ∗ Pipeline.prefHeld pre1 c (fun _ => fullShare) (tblLit (F := F)) ∗ Pipeline.unscopedRestP pre1 spec1 c (V3 m c)) := by
      rw [← Pipeline.unscopedBufs_held (Ix := Unit) (Name := ℕ) (U := UR sig nD τ) (Lvl := ℕ) c (W3 m c),
        ub_split spec1 winFacts₀1.arr_unscoped c (V3 m c), Pipeline.unscopedRest_split preFacts1 c (V3 m c),
        show (fun k => V3 m c (pre1.ref k)) = tblLit (F := F) from funext (W3_tbl m c)]
      exact sep_mono (split1 (V3 m) c (V3 m c)) .rfl
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ Pipeline.ΦT pre1 (tblLit (F := F)) c) from rfl]; unfold Pipeline.ΦA
    refine (show iprop((∃ r, prngReg c r) ∗ Pipeline.prefHeld pre1 c (fun _ => fullShare) (tblLit (F := F))
        ∗ Pipeline.scopedRest (Ix := Unit) (Name := ℕ) (U := UR sig nD τ) (Lvl := ℕ) (Val := Elt F) spec1 c) ⊢ _ from ?_)
    iintro ⟨Hp, Hpf, Hr⟩
    ihave Hpf2 := (Pipeline.prefHeld_share pre1 c (PosShare.mem_left_op_right fullShare) (tblLit (F := F))).1 $$ Hpf
    icases Hpf2 with ⟨-, Hpfr⟩
    isplitl [Hr Hp]
    · isplitl [Hr]; · iexact Hr
      iexact Hp
    iexact Hpfr
  hout c := by
    rw [Pipeline.ownSems0_none, show (pdats m 1 c).Φ (Fin.last _) = iprop(Pipeline.ΦA spec1 c ∗ Pipeline.ΦT pre1 (tblLit (F := F)) c) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin : iprop((pdats m 1 c).arrays ((pdats m 1 c).arrAt · (cfgL (F := F)).N) ∗ Pipeline.unscopedRestP pre1 spec1 c (V3 m c))
        ⊢ (StableHlo.held (c : Thread nD τ) (Pipeline.tailRefs sig pre1 spec1) (W4 m c) : sProp 𝕄) := by
      rw [held_tailRefs₀ pre1 spec1 c (W4 m c), rest1_congr m c,
        show ((pdats m 1 c).arrAt · (cfgL (F := F)).N) = fun w => V4 m c (Pipeline.arrRef spec1 w) from funext (hF1 m c)]
      exact sep_mono (join1 (V3 m) c (V4 m c)) .rfl
    iintro ⟨Ha, HO, ⟨HY, Hpf⟩, Hrest⟩
    imodintro
    isplitl [Ha Hrest]
    · iapply hjoin; isplitl [Ha] <;> iassumption
    isplitl [Hpf]; · iexact Hpf
    isplitl [HY]; · iexact HY
    unfold Pipeline.Dat.owesAt Pipeline.owesWithin
    icases HO with ⟨%W, -, HO⟩; iexists W; iexact HO

/-! ## The program as segments, and the launch -/

/-- An unscoped buffer is one a stretch after a region with tables may touch, or one of the tables. -/
theorem uc_cases {gr W : Nat} (pre : Pipeline.Prefetch sig) (win : Fin W → Pipeline.WinSpec sig gr) (b : DevRef τ sig)
    (hb : b ∈ Pipeline.ucRefs τ sig) : b ∈ Pipeline.tailRefs sig pre win ∨ ∃ k, b = Proc.devRef .tc (pre.ref k) := by
  classical
  simp only [Pipeline.tailRefs, Pipeline.ucRefs, StableHlo.tcRefs, Pipeline.restRefsP, Pipeline.restRefs, Finset.mem_map, Finset.mem_filter,
    Finset.mem_union, Finset.mem_sdiff, Finset.mem_image, Finset.mem_univ, true_and, Function.Embedding.coeFn_mk] at hb ⊢
  obtain ⟨⟨r, rfl⟩, hr⟩ := hb
  by_cases hk : ∃ k, pre.ref k = r
  · obtain ⟨k, rfl⟩ := hk; exact Or.inr ⟨k, rfl⟩
  · refine Or.inl ⟨r, ?_, rfl⟩
    by_cases h : ∃ w, Pipeline.arrRef win w = r
    · exact Or.inl h
    · exact Or.inr ⟨⟨hr, h⟩, hk⟩

/-- The program's five segments in order: a host segment per stretch from its boundary's contents, a region per kernel. -/
abbrev segs : List (Pipeline.Seg (pcfgs (F := F)) adm (pdats m) () defs₀ 𝒱₀ L lv) :=
  [ .host (hseg (Pipeline.ucRefs τ sig) hostOps0 (fun op h => Pipeline.sub_ucRefs op ((List.forall_iff_forall_mem.mp hostOps0_sub) op h)) hostOps0_fresh (W0 m) R),
    .region (reg0 m),
    .host (hseg (Pipeline.ucRefs τ sig) hostOps1 (fun op h => Pipeline.sub_ucRefs op ((List.forall_iff_forall_mem.mp hostOps1_sub) op h)) hostOps1_fresh (W2 m) R),
    .region (reg1 m),
    .host (hseg (Pipeline.tailRefs sig pre1 spec1) hostOps2 hostOps2_tail hostOps2_fresh (W4 m) R') ]

/-- The last thread state without the `owes`: the arrays' and the bypassing buffers at the last contents, the
    tables at their half, the generator register at some state. -/
abbrev Tₙ (c : Dev nD) : sProp 𝕄 :=
  iprop(StableHlo.held (c : Thread nD τ) (Pipeline.tailRefs sig pre1 spec1) (W5 m c)
    ∗ Pipeline.ΦT (U := UR sig nD τ) pre1 (tblLit (F := F)) c ∗ ∃ r, prngReg c r)

set_option backward.isDefEq.respectTransparency.types false in
/-- THE RUN: from any memory with zero counters, every weakly fair execution of the program on the TensorCore
    terminates, nothing faulting, and every final memory satisfies whatever follows from its holding each unscoped
    buffer at the last contents of the fold. -/
theorem run_of (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = W5 m c b) → Q (⟨⟩, s)) :
    θ_run defs (onTc (τ := τ) (main (F := F))) ⟨m, fun _ => 0, ρ⟩ Q :=
  Pipeline.θ_run_regions_kit (pcfgs (F := F)) adm (pdats m) () (cellOf_inj adm) emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      refine (show iprop(StableHlo.held (c : Thread nD τ) (Pipeline.tailRefs sig pre1 spec1) (W5 m c) ∗ R' (F := F) c) ⊢ _ from ?_)
      iintro ⟨Hh, Hpf, Hp, HO⟩
      isplitl [Hh Hpf Hp]
      · isplitl [Hh]; · iexact Hh
        isplitl [Hpf]; · iexact Hpf
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => (∀ b ∈ Pipeline.tailRefs sig pre1 spec1, s.mem ((c : Thread nD τ).1, b) = W5 m c b)
        ∧ ∀ k, s.mem ((c : Thread nD τ).loc (pre1.ref k)) = tblLit (F := F) k)
    (hfin := fun c s' => by
      refine (show iprop((StableHlo.held (c : Thread nD τ) (Pipeline.tailRefs sig pre1 spec1) (W5 m c)
          ∗ Pipeline.prefHeld (Ix := Unit) (Name := ℕ) (U := UR sig nD τ) (Lvl := ℕ) pre1 c (fun _ => fullShare.right) (tblLit (F := F))
          ∗ ∃ r, prngReg c r) ∗ SI s') ⊢ _ from ?_)
      unfold StableHlo.held Pipeline.prefHeld
      iintro ⟨⟨Hh, Hpf, -⟩, HSI⟩
      ihave Hr := (pointsTo_read_all (Pipeline.tailRefs sig pre1 spec1) (fun b => ((c : Thread nD τ).1, b)) (W5 m c) s') $$ [Hh HSI]
      · isplitl [Hh] <;> iassumption
      icases Hr with ⟨%h, HSI⟩
      ihave Hq := (pointsTo_read_all Finset.univ (fun k => (c : Thread nD τ).loc (pre1.ref k)) (tblLit (F := F)) s' fullShare.right) $$ [Hpf HSI]
      · isplitl [Hpf]; · iexact Hpf
        iexact HSI
      icases Hq with ⟨%hq, HSI⟩
      imodintro
      isplitr; · ipureintro; exact ⟨h, fun k => hq k (Finset.mem_univ k)⟩
      iexact HSI)
    (hQ := fun s h => hQ s fun c b hb => by
      rcases uc_cases pre1 spec1 b hb with hb | ⟨k, rfl⟩
      · exact (h c).1 b hb
      · exact ((h c).2 k).trans (W5_tbl m c k).symm)

/-- The run read at every unscoped buffer. -/
theorem run (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W5 m c b) :=
  run_of m ρ fun _ h => h

/-- The run read at the two arguments, which end as launched, and at the result, which ends at the fold's value. -/
theorem run_args (ρ : Dev nD → PrngReg) : θ_run defs (onTc (τ := τ) (main (F := F))) ⟨m, fun _ => 0, ρ⟩
    (fun r => ∀ c : Dev nD,
      r.2.mem ((c : Thread nD τ).loc main_v20) = W5 m c (Proc.devRef .tc main_v20)
      ∧ r.2.mem ((c : Thread nD τ).loc main_arg0) = m ((c : Thread nD τ).loc main_arg0)
      ∧ r.2.mem ((c : Thread nD τ).loc main_arg1) = m ((c : Thread nD τ).loc main_arg1)) :=
  run_of m ρ fun s h c =>
    ⟨h c _ (mem_uc main_v20 (by decide)),
     (h c _ (mem_uc main_arg0 (by decide))).trans (W5_main_arg0 m c),
     (h c _ (mem_uc main_arg1 (by decide))).trans (W5_main_arg1 m c)⟩

end Cert.Kernel.Hand

end
-- ==== Proof.lean ====
/-
  The certificate's claim. Both programs compute ONE function of the two arguments, the loss of Proof/KI/Spec.lean
  (`Cert.Spec.result`: the sum over the pairs of equal label above the diagonal of the squared clamped log-sum-plus-distance
  terms, divided by the count of ordered pairs of distinct rows of equal label):
    the kernel program — its two regions' row sums read off the pipeline's write-backs (the row sums of pair weights, then
      the row sums of the positive-pair terms over them) and its last host operations' quotient — returns it
      (`Cert.KernelIdeal.Hand.kernel_value`);
    the reference program's composed term of the arguments is it (`Cert.ReferenceIdeal.RefValue.ref_result`).
  So from memories agreeing on the arguments the two end with equal results. The frames: each kernel program's run
  leaves every unscoped buffer at the fold of its stretches and regions from the launch memory, in which no operation
  writes an argument and no region has one as its output; the reference's run states its arguments unchanged.
-/
import proofs.«418922_j57629871178314_3_alg».proof.Defs
import proofs.«418922_j57629871178314_3_alg».proof.Proof.Gen.Kernel
import proofs.«418922_j57629871178314_3_alg».proof.Proof.Gen.Kernel.Skeleton
import proofs.«418922_j57629871178314_3_alg».proof.Proof.Gen.Kernel.Launch
import proofs.«418922_j57629871178314_3_alg».proof.Proof.Gen.Kernel.Regions
import proofs.«418922_j57629871178314_3_alg».proof.Proof.Gen.Kernel.Points
import proofs.«418922_j57629871178314_3_alg».proof.Proof.Gen.KernelIdeal
import proofs.«418922_j57629871178314_3_alg».proof.Proof.Gen.KernelIdeal.Skeleton
import proofs.«418922_j57629871178314_3_alg».proof.Proof.Gen.KernelIdeal.Launch
import proofs.«418922_j57629871178314_3_alg».proof.Proof.Gen.KernelIdeal.Regions
import proofs.«418922_j57629871178314_3_alg».proof.Proof.Gen.KernelIdeal.Points
import proofs.«418922_j57629871178314_3_alg».proof.Proof.Gen.ReferenceIdeal
import proofs.«418922_j57629871178314_3_alg».proof.Proof.Gen.ReferenceIdeal.Run
import proofs.«418922_j57629871178314_3_alg».proof.Proof.Gen.ReferenceIdeal.Read
import proofs.«418922_j57629871178314_3_alg».proof.Proof.Gen.Pre_finite_inputs
import proofs.«418922_j57629871178314_3_alg».proof.Proof.KI.Spec
import proofs.«418922_j57629871178314_3_alg».proof.Proof.KI.Fold
import proofs.«418922_j57629871178314_3_alg».proof.Proof.KI.HostVals
import proofs.«418922_j57629871178314_3_alg».proof.Proof.KI.KernelValue
import proofs.«418922_j57629871178314_3_alg».proof.Proof.K.Fold
import proofs.«418922_j57629871178314_3_alg».proof.Proof.Ref.RefValue
import proofs.«418922_j57629871178314_3_alg».proof.Proof.KI.Run
import proofs.«418922_j57629871178314_3_alg».proof.Proof.K.Run
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and ends with its arguments as launched. -/
theorem frame_k : Cert.frame_Kernel := fun m ρ _ =>
  (θ_run Cert.Kernel.defs _ _).mono (fun _ h c => (h c).2) (Cert.Kernel.Hand.run_args (F := Bits) m ρ)

/-- The idealized kernel program runs and ends with its arguments as launched. -/
theorem frame_ki : Cert.frame_KernelIdeal := fun m ρ _ =>
  (θ_run Cert.KernelIdeal.defs _ _).mono (fun _ h c => (h c).2) (Cert.KernelIdeal.Hand.run_args (F := Ideal) m ρ)

/-- The reference program runs and ends with its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals, from memories agreeing on the rows and the labels, the kernel program's scalar and the
    reference program's scalar are both the loss of those rows and labels. -/
theorem algebraic : Cert.algebraic_KernelIdeal_ReferenceIdeal := by
  intro m ρ m' ρ' _ hagree
  refine ⟨fun c => fun _ => Cert.Spec.result (Cert.KernelIdeal.Hand.rowsOf m c) (Cert.KernelIdeal.Hand.labelsOf m c), ?_, ?_⟩
  · exact (θ_run Cert.KernelIdeal.defs _ _).mono
      (fun _ h c => ⟨(h c).1.trans (Cert.KernelIdeal.Hand.kernel_value m c), (h c).2⟩)
      (Cert.KernelIdeal.Hand.run_args (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v62_eq, Cert.ReferenceIdeal.RefValue.ref_result, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
